-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S100000 : Shape := ⟨1, ![100000]⟩
abbrev S32x2 : Shape := ⟨2, ![32, 2]⟩
abbrev S32 : Shape := ⟨1, ![32]⟩
abbrev S64x32 : Shape := ⟨2, ![64, 32]⟩
abbrev S64 : Shape := ⟨1, ![64]⟩
abbrev S32x64 : Shape := ⟨2, ![32, 64]⟩
abbrev S1x32 : Shape := ⟨2, ![1, 32]⟩
abbrev S1 : Shape := ⟨1, ![1]⟩
abbrev S_ : Shape := ⟨0, ![]⟩
abbrev S1x1600000 : Shape := ⟨2, ![1, 1600000]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S32x2 : S_.BroadcastsInDim S32x2 (![] : Fin 0 → Fin S32x2.rank)
  reducesTo_S32x2_S_d0_1 : S32x2.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn_part3 {F : FTy → Type} [FloatOps F] (main_v43 : IVec S_ 1) (main_v50 : IVec S1x1600000 1) (main_c_18 : IVec S_ 1) : IVec S_ 1 :=
  let main_v51 : IVec S_ 1 := (fun x v => Host.reduce IntOp.andi x v reducesTo_S1x1600000_S_d0_1 h_S_) main_v50 main_c_18
  let main_v52 : IVec S_ 1 := andi main_v43 main_v51
  main_v52

def fn_part2 {F : FTy → Type} [FloatOps F] (main_arg1 : IVec S2x1600000 32) (main_arg9 : FVec F S1x32 .f32) (main_arg10 : FVec F S1 .f32) (main_v33 : IVec S_ 1) : IVec S_ 1 :=
  let main_v34 : FVec F S1x32 .f32 := Host.absf main_arg9
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_c_16 : IVec S_ 32 := constantI S_ 32 4294867296#32
  let main_v45 : IVec S1x1600000 32 := broadcastInDim S1x1600000 ![] bcast_S_S1x1600000 main_c_16
  let main_v46 : IVec S1x1600000 1 := cmpi .sge main_v44 main_v45
  let main_v47 : IVec S1x1600000 32 := (extractStridedSlice S1x1600000 ![0, 0] · slices_S2x1600000_S1x1600000_0_0) main_arg1
  let main_c_17 : IVec S_ 32 := constantI S_ 32 100000#32
  let main_v48 : IVec S1x1600000 32 := broadcastInDim S1x1600000 ![] bcast_S_S1x1600000 main_c_17
  let main_v49 : IVec S1x1600000 1 := cmpi .slt main_v47 main_v48
  let main_v50 : IVec S1x1600000 1 := andi main_v46 main_v49
  let main_c_18 : IVec S_ 1 := constantI S_ 1 1#1
  fn_part3 (F := F) main_v43 main_v50 main_c_18

def fn_part1 {F : FTy → Type} [FloatOps F] (main_arg1 : IVec S2x1600000 32) (main_arg6 : FVec F S64 .f32) (main_arg7 : FVec F S32x64 .f32) (main_arg8 : FVec F S32 .f32) (main_arg9 : FVec F S1x32 .f32) (main_arg10 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_v33

def fn {F : FTy → Type} [FloatOps F] (main_arg0 : FVec F S100000x2 .f32) (main_arg1 : IVec S2x1600000 32) (main_arg2 : IVec S100000 32) (main_arg3 : FVec F S32x2 .f32) (main_arg4 : FVec F S32 .f32) (main_arg5 : FVec F S64x32 .f32) (main_arg6 : FVec F S64 .f32) (main_arg7 : FVec F S32x64 .f32) (main_arg8 : FVec F S32 .f32) (main_arg9 : FVec F S1x32 .f32) (main_arg10 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S32x2 .f32 := Host.absf main_arg3
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg6 main_arg7 main_arg8 main_arg9 main_arg10 main_v13 main_v16
-- ==== Kernel.lean ====
abbrev S100000x2 : Shape := ⟨2, ![100000, 2]⟩
abbrev S2x1600000 : Shape := ⟨2, ![2, 1600000]⟩
abbrev S100000 : Shape := ⟨1, ![100000]⟩
abbrev S32x2 : Shape := ⟨2, ![32, 2]⟩
abbrev S32 : Shape := ⟨1, ![32]⟩
abbrev S64x32 : Shape := ⟨2, ![64, 32]⟩
abbrev S64 : Shape := ⟨1, ![64]⟩
abbrev S32x64 : Shape := ⟨2, ![32, 64]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x32 : Shape := ⟨2, ![100000, 32]⟩
abbrev S10000x2 : Shape := ⟨2, ![10000, 2]⟩
abbrev S10000x1 : Shape := ⟨2, ![10000, 1]⟩
abbrev S10000x32 : Shape := ⟨2, ![10000, 32]⟩
abbrev S2x32 : Shape := ⟨2, ![2, 32]⟩
abbrev S1x1 : Shape := ⟨2, ![1, 1]⟩
abbrev S1700000x32 : Shape := ⟨2, ![1700000, 32]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S512x32 : Shape := ⟨2, ![512, 32]⟩
abbrev S512 : Shape := ⟨1, ![512]⟩
abbrev S512x1 : Shape := ⟨2, ![512, 1]⟩
abbrev S32x1 : Shape := ⟨2, ![32, 1]⟩

abbrev nBuf : Space → Nat
  | .hbm => 141
  | .vmem => 34
  | .smem => 0
  | _ => 0

abbrev hbmTy0_0 (i : Nat) : BufTy := match i % 128 with
  | 0 => ⟨S100000x2, .f32⟩
  | 1 => ⟨S2x1600000, .i32⟩
  | 2 => ⟨S100000, .i32⟩
  | 3 => ⟨S32x2, .f32⟩
  | 4 => ⟨S32, .f32⟩
  | 5 => ⟨S64x32, .f32⟩
  | 6 => ⟨S64, .f32⟩
  | 7 => ⟨S32x64, .f32⟩
  | 8 => ⟨S32, .f32⟩
  | 9 => ⟨S1x32, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .i32⟩
  | 19 => ⟨S1700000, .i32⟩
  | 20 => ⟨S_, .i32⟩
  | 21 => ⟨S100000, .i32⟩
  | 22 => ⟨S1700000x1, .i32⟩
  | 23 => ⟨S100000, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S100000x1, .f32⟩
  | 34 => ⟨S100000x32, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1, .i32⟩
  | 44 => ⟨S_, .i32⟩
  | 45 => ⟨S1700000x1, .i32⟩
  | 46 => ⟨S1700000x1, .i1⟩
  | 47 => ⟨S1x1, .i32⟩
  | 48 => ⟨S1700000x1, .i32⟩
  | 49 => ⟨S1700000x1, .i1⟩
  | 50 => ⟨S1700000x1, .i1⟩
  | 51 => ⟨S_, .i1⟩
  | 52 => ⟨S1700000, .i1⟩
  | 53 => ⟨S1700000x32, .f32⟩
  | 54 => ⟨S1700000x32, .i1⟩
  | 55 => ⟨S_, .f32⟩
  | 56 => ⟨S1700000x32, .f32⟩
  | 57 => ⟨S1700000x32, .f32⟩
  | 58 => ⟨S_, .f32⟩
  | 59 => ⟨S100000x32, .f32⟩
  | 60 => ⟨S1700000x1, .i32⟩
  | 61 => ⟨S100000x32, .f32⟩
  | 62 => ⟨S1x32, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1, .i32⟩
  | 73 => ⟨S_, .i32⟩
  | 74 => ⟨S1700000x1, .i32⟩
  | 75 => ⟨S1700000x1, .i1⟩
  | 76 => ⟨S1x1, .i32⟩
  | 77 => ⟨S1700000x1, .i32⟩
  | 78 => ⟨S1700000x1, .i1⟩
  | 79 => ⟨S1700000x1, .i1⟩
  | 80 => ⟨S_, .i1⟩
  | 81 => ⟨S1700000, .i1⟩
  | 82 => ⟨S1700000x64, .f32⟩
  | 83 => ⟨S1700000x64, .i1⟩
  | 84 => ⟨S_, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x32, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1, .i32⟩
  | 102 => ⟨S_, .i32⟩
  | 103 => ⟨S1700000x1, .i32⟩
  | 104 => ⟨S1700000x1, .i1⟩
  | 105 => ⟨S1x1, .i32⟩
  | 106 => ⟨S1700000x1, .i32⟩
  | 107 => ⟨S1700000x1, .i1⟩
  | 108 => ⟨S1700000x1, .i1⟩
  | 109 => ⟨S_, .i1⟩
  | 110 => ⟨S1700000, .i1⟩
  | 111 => ⟨S1700000x32, .f32⟩
  | 112 => ⟨S1700000x32, .i1⟩
  | 113 => ⟨S_, .f32⟩
  | 114 => ⟨S1700000x32, .f32⟩
  | 115 => ⟨S1700000x32, .f32⟩
  | 116 => ⟨S_, .f32⟩
  | 117 => ⟨S100000x32, .f32⟩
  | 118 => ⟨S1700000x1, .i32⟩
  | 119 => ⟨S100000x32, .f32⟩
  | 120 => ⟨S1x32, .f32⟩
  | 121 => ⟨S100000x32, .f32⟩
  | 122 => ⟨S_, .i32⟩
  | 123 => ⟨S100000, .i32⟩
  | 124 => ⟨S_, .f32⟩
  | 125 => ⟨S512x32, .f32⟩
  | 126 => ⟨S100000x1, .i32⟩
  | 127 => ⟨S512x32, .f32⟩
  | _ => ⟨S100000x2, .f32⟩

abbrev hbmTy0_1 (i : Nat) : BufTy := match i % 128 with
  | 0 => ⟨S_, .i32⟩
  | 1 => ⟨S512, .i32⟩
  | 2 => ⟨S100000x1, .i32⟩
  | 3 => ⟨S512, .i32⟩
  | 4 => ⟨S512, .f32⟩
  | 5 => ⟨S_, .f32⟩
  | 6 => ⟨S512, .f32⟩
  | 7 => ⟨S512, .f32⟩
  | 8 => ⟨S512x1, .f32⟩
  | 9 => ⟨S512x32, .f32⟩
  | 10 => ⟨S512x32, .f32⟩
  | 11 => ⟨S1x1, .f32⟩
  | 12 => ⟨S512x1, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S10000x2, .f32⟩
  | .local _ .vmem, ⟨1, _⟩ => ⟨S10000x2, .f32⟩
  | .local _ .vmem, ⟨2, _⟩ => ⟨S32x2, .f32⟩
  | .local _ .vmem, ⟨3, _⟩ => ⟨S10000x1, .f32⟩
  | .local _ .vmem, ⟨4, _⟩ => ⟨S10000x1, .f32⟩
  | .local _ .vmem, ⟨5, _⟩ => ⟨S10000x32, .f32⟩
  | .local _ .vmem, ⟨6, _⟩ => ⟨S10000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S64x32, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S32x64, .f32⟩
  | .local _ .vmem, ⟨21, _⟩ => ⟨S5000x32, .f32⟩
  | .local _ .vmem, ⟨22, _⟩ => ⟨S5000x32, .f32⟩
  | .local _ .vmem, ⟨23, _⟩ => ⟨S10000x32, .f32⟩
  | .local _ .vmem, ⟨24, _⟩ => ⟨S10000x32, .f32⟩
  | .local _ .vmem, ⟨25, _⟩ => ⟨S10000x1, .f32⟩
  | .local _ .vmem, ⟨26, _⟩ => ⟨S10000x1, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S512x32, .f32⟩
  | .local _ .vmem, ⟨31, _⟩ => ⟨S1x32, .f32⟩
  | .local _ .vmem, ⟨32, _⟩ => ⟨S1x1, .f32⟩
  | .local _ .vmem, ⟨33, _⟩ => ⟨S512x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v24 : Ref sig .tc := ⟨.hbm, 86, rfl⟩
abbrev main_cst_3 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v30 : Ref sig .tc := ⟨.hbm, 115, rfl⟩
abbrev main_cst_4 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_c_5 : Ref sig .tc := ⟨.hbm, 122, rfl⟩
abbrev main_v36 : Ref sig .tc := ⟨.hbm, 123, rfl⟩
abbrev main_cst_6 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_c_7 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_cst_8 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S32x2_S32x2_0_0 : ∀ a, (![0, 0] : Fin 2 → Nat) a + S32x2.size a ≤ S32x2.size a
  h_S32x2 : 0 < S32x2.numel
  transposes_S32x2_p1_0_S2x32 : S32x2.Transposes [1, 0] S2x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x32_0 : S1700000.BroadcastsInDim S1700000x32 (![0] : Fin 1 → Fin S1700000x32.rank)
  bcast_S_S1700000x32 : S_.BroadcastsInDim S1700000x32 (![] : Fin 0 → Fin S1700000x32.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  shapeCasts_S10000x32_S10000x32 : S10000x32.ShapeCasts S10000x32
  broadcasts_S1x32_S10000x32 : S1x32.Broadcasts S10000x32
  bcast_S_S512x32 : S_.BroadcastsInDim S512x32 (![] : Fin 0 → Fin S512x32.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  shapeCasts_S1_S1x1 : S1.ShapeCasts S1x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1700000x1_S1700000_n_0_0_1_wf : ScatterDims.WF S100000 S1700000x1 S1700000 [] [0] [0] 1
  dot_S10000x2_S2x32_S10000x32_1_0_0_1_n_n_wf : DotDims.WF S10000x2 S2x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2.size a ≤ S32x2.size a
  hwx0_1 : ∀ i : grid0.Coords, EltTy.bits .f32 = 32 ∨ (Rect.block (s := S32x2) S32x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x32.size a ≤ S512x32.size a
  hwx4_0 : ∀ i : grid4.Coords, EltTy.bits .f32 = 32 ∨ (Rect.block (s := S512x32) S512x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S512x1.size a
  hwx4_3 : ∀ i : grid4.Coords, EltTy.bits .f32 = 32 ∨ (Rect.block (s := S512x1) S512x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x2_S2x32_S10000x32_1_0_0_1_n_n : DotDims S10000x2 S2x32 S10000x32 where
  lhsContracting := [1]
  rhsContracting := [0]
  lhsNonContracting := [0]
  rhsNonContracting := [1]
  lhsBatch := []
  rhsBatch := []
  wf := dot_S10000x2_S2x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v33) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v48) S512x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S512x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S100000 : Shape := ⟨1, ![100000]⟩
abbrev S32x2 : Shape := ⟨2, ![32, 2]⟩
abbrev S32 : Shape := ⟨1, ![32]⟩
abbrev S64x32 : Shape := ⟨2, ![64, 32]⟩
abbrev S64 : Shape := ⟨1, ![64]⟩
abbrev S32x64 : Shape := ⟨2, ![32, 64]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S2x32 : Shape := ⟨2, ![2, 32]⟩
abbrev S100000x32 : Shape := ⟨2, ![100000, 32]⟩
abbrev S_ : Shape := ⟨0, ![]⟩
abbrev S1700000x1 : Shape := ⟨2, ![1700000, 1]⟩
abbrev S1700000x32 : Shape := ⟨2, ![1700000, 32]⟩
abbrev S100000x64 : Shape := ⟨2, ![100000, 64]⟩
abbrev S1700000x64 : Shape := ⟨2, ![1700000, 64]⟩
abbrev S1x64 : Shape := ⟨2, ![1, 64]⟩
abbrev S512x32 : Shape := ⟨2, ![512, 32]⟩
abbrev S100000x1 : Shape := ⟨2, ![100000, 1]⟩
abbrev S512 : Shape := ⟨1, ![512]⟩
abbrev S512x1 : Shape := ⟨2, ![512, 1]⟩
abbrev S32x1 : Shape := ⟨2, ![32, 1]⟩
abbrev S1x1 : Shape := ⟨2, ![1, 1]⟩

abbrev nBuf : Space → Nat
  | .hbm => 210
  | .vmem => 0
  | .smem => 0
  | _ => 0

abbrev hbmTy0_0 (i : Nat) : BufTy := match i % 128 with
  | 0 => ⟨S100000x2, .f32⟩
  | 1 => ⟨S2x1600000, .i32⟩
  | 2 => ⟨S100000, .i32⟩
  | 3 => ⟨S32x2, .f32⟩
  | 4 => ⟨S32, .f32⟩
  | 5 => ⟨S64x32, .f32⟩
  | 6 => ⟨S64, .f32⟩
  | 7 => ⟨S32x64, .f32⟩
  | 8 => ⟨S32, .f32⟩
  | 9 => ⟨S1x32, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S2x32, .f32⟩
  | 19 => ⟨S100000x32, .f32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x32, .f32⟩
  | 62 => ⟨S1700000x1, .f32⟩
  | 63 => ⟨S1700000x32, .f32⟩
  | 64 => ⟨S1700000x32, .f32⟩
  | 65 => ⟨S_, .f32⟩
  | 66 => ⟨S100000x32, .f32⟩
  | 67 => ⟨S1700000x1, .i32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S32x64, .f32⟩
  | 76 => ⟨S100000x64, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x2, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S64x32, .f32⟩
  | 5 => ⟨S100000x32, .f32⟩
  | 6 => ⟨S_, .f32⟩
  | 7 => ⟨S1700000, .f32⟩
  | 8 => ⟨S_, .f32⟩
  | 9 => ⟨S100000, .f32⟩
  | 10 => ⟨S1700000x1, .i32⟩
  | 11 => ⟨S100000, .f32⟩
  | 12 => ⟨S_, .f32⟩
  | 13 => ⟨S100000, .f32⟩
  | 14 => ⟨S100000, .i1⟩
  | 15 => ⟨S100000, .f32⟩
  | 16 => ⟨S_, .f32⟩
  | 17 => ⟨S_, .f32⟩
  | 18 => ⟨S100000, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x32, .f32⟩
  | 48 => ⟨S1700000x1, .f32⟩
  | 49 => ⟨S1700000x32, .f32⟩
  | 50 => ⟨S1700000x32, .f32⟩
  | 51 => ⟨S_, .f32⟩
  | 52 => ⟨S100000x32, .f32⟩
  | 53 => ⟨S1700000x1, .i32⟩
  | 54 => ⟨S100000x32, .f32⟩
  | 55 => ⟨S1x32, .f32⟩
  | 56 => ⟨S100000x32, .f32⟩
  | 57 => ⟨S100000x32, .f32⟩
  | 58 => ⟨S_, .f32⟩
  | 59 => ⟨S100000x32, .f32⟩
  | 60 => ⟨S100000x32, .f32⟩
  | 61 => ⟨S_, .f32⟩
  | 62 => ⟨S512x32, .f32⟩
  | 63 => ⟨S100000x1, .i32⟩
  | 64 => ⟨S512x32, .f32⟩
  | 65 => ⟨S_, .f32⟩
  | 66 => ⟨S100000, .f32⟩
  | 67 => ⟨S_, .f32⟩
  | 68 => ⟨S512, .f32⟩
  | 69 => ⟨S100000x1, .i32⟩
  | 70 => ⟨S512, .f32⟩
  | 71 => ⟨S_, .f32⟩
  | 72 => ⟨S512, .f32⟩
  | 73 => ⟨S512, .f32⟩
  | 74 => ⟨S512x1, .f32⟩
  | 75 => ⟨S512x32, .f32⟩
  | 76 => ⟨S512x32, .f32⟩
  | 77 => ⟨S32x1, .f32⟩
  | 78 => ⟨S512x1, .f32⟩
  | 79 => ⟨S1x1, .f32⟩
  | 80 => ⟨S512x1, .f32⟩
  | 81 => ⟨S512x1, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_19 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call3_cst : Ref sig .tc := ⟨.hbm, 129, rfl⟩
abbrev main_call3_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_cst_21 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v100 : Ref sig .tc := ⟨.hbm, 147, rfl⟩
abbrev main_c_24 : Ref sig .tc := ⟨.hbm, 148, rfl⟩
abbrev main_v101 : Ref sig .tc := ⟨.hbm, 149, rfl⟩
abbrev main_v102 : Ref sig .tc := ⟨.hbm, 150, rfl⟩
abbrev main_c_25 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_26 : Ref sig .tc := ⟨.hbm, 157, rfl⟩
abbrev main_v108 : Ref sig .tc := ⟨.hbm, 158, rfl⟩
abbrev main_v109 : Ref sig .tc := ⟨.hbm, 159, rfl⟩
abbrev main_c_27 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_28 : Ref sig .tc := ⟨.hbm, 167, rfl⟩
abbrev main_v116 : Ref sig .tc := ⟨.hbm, 168, rfl⟩
abbrev main_v117 : Ref sig .tc := ⟨.hbm, 169, rfl⟩
abbrev main_c_29 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_30 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_call5_cst : Ref sig .tc := ⟨.hbm, 186, rfl⟩
abbrev main_call5_v0 : Ref sig .tc := ⟨.hbm, 187, rfl⟩
abbrev main_v132 : Ref sig .tc := ⟨.hbm, 188, rfl⟩
abbrev main_cst_31 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_32 : Ref sig .tc := ⟨.hbm, 193, rfl⟩
abbrev main_v136 : Ref sig .tc := ⟨.hbm, 194, rfl⟩
abbrev main_cst_33 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_34 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S32x2_S2x32_1_0 : S32x2.Transposes [1, 0] S2x32
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S64x32_S32x64_1_0 : S64x32.Transposes [1, 0] S32x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S_S512x32 : S_.BroadcastsInDim S512x32 (![] : Fin 0 → Fin S512x32.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  transposes_S1x32_S32x1_1_0 : S1x32.Transposes [1, 0] S32x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x2_S2x32_S100000x32_1_0_0_1_n_n_wf : DotDims.WF S100000x2 S2x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x1_S512x1_1_0_0_1_n_n_wf : DotDims.WF S512x32 S32x1 S512x1 [1] [0] [0] [1] [] []

variable [Facts₀]

def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.PreDecode.lean ====
/-
  The precondition's one integer conjunct, decoded, and the range of the two index vectors the kernel's program builds
  from the edge list.

  The printed precondition is a chain of one-bit ands whose LAST component is
  "every entry of edge_index[0:1] is ≥ -100000 and < 100000": row 0 of the [2, 1600000] edge list, sliced as a
  [1, 1600000] array, compared signed against the two broadcast words, the two masks anded, the and reduced over both
  axes. The chain being 1 makes its last component 1; an all-reduction by and that is 1 met a 1 at every element; an
  element of the anded masks being 1 says the word there lies in [-100000, 100000) read signed; and the slice at
  (0, e) is the edge list at (0, e).

  The program's source-index vector is row 0 of the edge list, flattened, followed by 0, 1, …, 99999 (the self loops);
  its destination-index vector the same from row 1. An entry below position 1600000 is an entry of the edge row; an entry
  from 1600000 on is its position less 1600000, a number in [0, 100000). So both vectors lie in [-100000, 100000)
  whenever their edge row does.
-/
import proofs.«423678_j70729521430617_3_alg».proof.Pre_finite_inputs
import proofs.«423678_j70729521430617_3_alg».proof.Proof.Gen.Pre_finite_inputs
import proofs.«423678_j70729521430617_3_alg».proof.Proof.Gen.KernelIdeal
import Idealize.ShloMosaic.Lib.StableHlo.Predicate
import Idealize.ShloMosaic.Lib.ReduceAll
import Idealize.ShloMosaic.Lib.Pipeline.Value
import Idealize.ShloMosaic.Lib.ValueIdx

noncomputable section

namespace Cert.Gcn.K

open Idealize.ShloMosaic Idealize.ShloMosaic.ValueIdx

/-! ## Words -/

/-- The lower bound's word is −100000 read signed. -/
theorem lo_word_toInt : (4294867296#32 : BitVec 32).toInt = -100000 := by decide

/-- The upper bound's word is 100000 read signed. -/
theorem hi_word_toInt : (100000#32 : BitVec 32).toInt = 100000 := by decide

/-- Where the and of "x ≥ lo" and "x < hi" (signed, elementwise) is set, the word of x lies between those of lo and hi. -/
theorem range_of_bit {S : Shape} (x lo hi : IVec S 32) (i : S.Idx)
    (h : andi (cmpi .sge x lo) (cmpi .slt x hi) i = 1#1) :
    (lo i).toInt ≤ (x i).toInt ∧ (x i).toInt < (hi i).toInt := by
  obtain ⟨h1, h2⟩ := IntOp.andi_eq_one.1 h
  exact ⟨IntOp.cmpi_sge.1 h1, IntOp.cmpi_slt.1 h2⟩

/-- Row r of the [2, 1600000] edge list (the slice's offset n on axis 0 is r), sliced as a [1, 1600000] array, read at
    (0, e) is the edge list at (r, e). -/
theorem row_slice_apply (n : Nat) (r : Fin 2) (hr : r.val = n) (a1 : IVec (⟨2, ![2, 1600000]⟩ : Shape) 32)
    (hs : (⟨2, ![2, 1600000]⟩ : Shape).Slices ![n, 0] (⟨2, ![1, 1600000]⟩ : Shape)) (e : Fin 1600000) :
    extractStridedSlice (⟨2, ![1, 1600000]⟩ : Shape) ![n, 0] a1 hs (ix2 (0 : Fin 1) e) = a1 (ix2 r e) :=
  extractStridedSlice_apply _ _ _ _ _ (fun a => match a with
    | ⟨0, _⟩ => hr
    | ⟨1, _⟩ => (Nat.zero_add _).symm)

/-! ## The precondition's integer conjunct -/

/-- THE PRECONDITION DECODED at edge e: the source index of edge e lies in [-100000, 100000). -/
theorem src_range_of_pre {F : FTy → Type} [FloatOps F]
    (a0 : FVec F Cert.Pre_finite_inputs.S100000x2 .f32) (a1 : IVec Cert.Pre_finite_inputs.S2x1600000 32)
    (a2 : IVec Cert.Pre_finite_inputs.S100000 32) (a3 : FVec F Cert.Pre_finite_inputs.S32x2 .f32)
    (a4 : FVec F Cert.Pre_finite_inputs.S32 .f32) (a5 : FVec F Cert.Pre_finite_inputs.S64x32 .f32)
    (a6 : FVec F Cert.Pre_finite_inputs.S64 .f32) (a7 : FVec F Cert.Pre_finite_inputs.S32x64 .f32)
    (a8 : FVec F Cert.Pre_finite_inputs.S32 .f32) (a9 : FVec F Cert.Pre_finite_inputs.S1x32 .f32)
    (a10 : FVec F Cert.Pre_finite_inputs.S1 .f32)
    (h : Cert.Pre_finite_inputs.fn (F := F) a0 a1 a2 a3 a4 a5 a6 a7 a8 a9 a10 = (fun _ => 1#1)) (e : Fin 1600000) :
    -100000 ≤ (a1 (ix2 (0 : Fin 2) e)).toInt ∧ (a1 (ix2 (0 : Fin 2) e)).toInt < 100000 := by
  haveI : Subsingleton Cert.Pre_finite_inputs.S_.Idx := ⟨fun a b => funext fun d => d.elim0⟩
  have h0 : Cert.Pre_finite_inputs.fn (F := F) a0 a1 a2 a3 a4 a5 a6 a7 a8 a9 a10 ix0 = 1#1 := congrFun h ix0
  -- the chain of ands is 1, so its last component is
  have h1 := (IntOp.andi_eq_one.1 h0).2
  -- an all-reduction by and that is 1 met a 1 at (0, e)
  have h2 := Host.reduce_andi_all _ _ _ _ _ h1 (ix2 (0 : Fin 1) e)
  obtain ⟨hlo, hhi⟩ := range_of_bit _ _ _ _ h2
  have hlo' : (4294867296#32 : BitVec 32).toInt ≤ (extractStridedSlice (⟨2, ![1, 1600000]⟩ : Shape) ![0, 0] a1
      Cert.Pre_finite_inputs.Facts.slices_S2x1600000_S1x1600000_0_0 (ix2 (0 : Fin 1) e)).toInt := hlo
  have hhi' : (extractStridedSlice (⟨2, ![1, 1600000]⟩ : Shape) ![0, 0] a1
      Cert.Pre_finite_inputs.Facts.slices_S2x1600000_S1x1600000_0_0 (ix2 (0 : Fin 1) e)).toInt < (100000#32 : BitVec 32).toInt := hhi
  rw [row_slice_apply 0 (0 : Fin 2) rfl a1 _ e, lo_word_toInt] at hlo'
  rw [row_slice_apply 0 (0 : Fin 2) rfl a1 _ e, hi_word_toInt] at hhi'
  exact ⟨hlo', hhi'⟩

/-! ## The program's two index vectors -/

open Cert.KernelIdeal in
/-- The source-index vector as the program builds it: row 0 of the edge list sliced as [1, 1600000], flattened to
    [1600000], followed by 0, 1, …, 99999. -/
def srcVec (a1 : IVec Cert.KernelIdeal.S2x1600000 32) : IVec Cert.KernelIdeal.S1700000 32 :=
  concatenate S1700000 0
    [⟨S1600000, shapeCast S1600000 (extractStridedSlice S1x1600000 ![0, 0] a1 Facts₀.slices_S2x1600000_S1x1600000_0_0)
        Facts₀.shapeCasts_S1x1600000_S1600000⟩,
      ⟨S100000, iotaInDim S100000 32 0⟩]
    Facts₀.concatenates_S1600000_S100000_S1700000_d0

open Cert.KernelIdeal in
/-- The destination-index vector: the same from row 1 of the edge list. -/
def dstVec (a1 : IVec Cert.KernelIdeal.S2x1600000 32) : IVec Cert.KernelIdeal.S1700000 32 :=
  concatenate S1700000 0
    [⟨S1600000, shapeCast S1600000 (extractStridedSlice S1x1600000 ![1, 0] a1 Facts₀.slices_S2x1600000_S1x1600000_1_0)
        Facts₀.shapeCasts_S1x1600000_S1600000⟩,
      ⟨S100000, iotaInDim S100000 32 0⟩]
    Facts₀.concatenates_S1600000_S100000_S1700000_d0

/-- A flattened [1, 1600000] array followed by 0, 1, …, 99999, read below position 1600000, is the array at (0, e). -/
theorem cat_apply_left (x : IVec (⟨2, ![1, 1600000]⟩ : Shape) 32)
    (hc : (⟨2, ![1, 1600000]⟩ : Shape).ShapeCasts (⟨1, ![1600000]⟩ : Shape))
    (hcat : Shape.Concatenates [(⟨1, ![1600000]⟩ : Shape), (⟨1, ![100000]⟩ : Shape)] (⟨1, ![1700000]⟩ : Shape) 0)
    (e : Fin 1700000) (he : e.val < 1600000) :
    concatenate (⟨1, ![1700000]⟩ : Shape) 0
      [⟨(⟨1, ![1600000]⟩ : Shape), shapeCast (⟨1, ![1600000]⟩ : Shape) x hc⟩,
        ⟨(⟨1, ![100000]⟩ : Shape), iotaInDim (⟨1, ![100000]⟩ : Shape) 32 0⟩] hcat (ix1 e)
      = x (ix2 (0 : Fin 1) ⟨e.val, he⟩) := by
  refine (concatenate_pair_apply_left (t := (⟨1, ![1700000]⟩ : Shape)) 0 _ _ hcat (ix1 e) rfl (ix1 ⟨e.val, he⟩)
    (fun b => match b with | ⟨0, _⟩ => rfl)).trans ?_
  refine shapeCast_apply x hc (ix1 ⟨e.val, he⟩) (ix2 (0 : Fin 1) ⟨e.val, he⟩) ?_
  rw [Shape.rowMajor_val_two, Shape.rowMajor_val_one]
  show 0 * 1600000 + e.val = e.val
  omega

/-- The same read from position 1600000 on is the word of the position less 1600000. -/
theorem cat_apply_right (x : IVec (⟨2, ![1, 1600000]⟩ : Shape) 32)
    (hc : (⟨2, ![1, 1600000]⟩ : Shape).ShapeCasts (⟨1, ![1600000]⟩ : Shape))
    (hcat : Shape.Concatenates [(⟨1, ![1600000]⟩ : Shape), (⟨1, ![100000]⟩ : Shape)] (⟨1, ![1700000]⟩ : Shape) 0)
    (e : Fin 1700000) (he : 1600000 ≤ e.val) :
    concatenate (⟨1, ![1700000]⟩ : Shape) 0
      [⟨(⟨1, ![1600000]⟩ : Shape), shapeCast (⟨1, ![1600000]⟩ : Shape) x hc⟩,
        ⟨(⟨1, ![100000]⟩ : Shape), iotaInDim (⟨1, ![100000]⟩ : Shape) 32 0⟩] hcat (ix1 e)
      = BitVec.ofNat 32 (e.val - 1600000) := by
  have he' : e.val - 1600000 < 100000 := by have := e.isLt; omega
  exact concatenate_pair_apply_right (t := (⟨1, ![1700000]⟩ : Shape)) 0 _ _ hcat (ix1 e) rfl rfl
    (ix1 ⟨e.val - 1600000, he'⟩) (fun b hb => absurd (Subsingleton.elim _ _) hb)
    (by show e.val - 1600000 + 1600000 = e.val; omega)

/-- A flattened edge row followed by the self loops lies in [-100000, 100000) when the row does. -/
theorem cat_range (x : IVec (⟨2, ![1, 1600000]⟩ : Shape) 32)
    (hc : (⟨2, ![1, 1600000]⟩ : Shape).ShapeCasts (⟨1, ![1600000]⟩ : Shape))
    (hcat : Shape.Concatenates [(⟨1, ![1600000]⟩ : Shape), (⟨1, ![100000]⟩ : Shape)] (⟨1, ![1700000]⟩ : Shape) 0)
    (h : ∀ e : Fin 1600000, -100000 ≤ (x (ix2 (0 : Fin 1) e)).toInt ∧ (x (ix2 (0 : Fin 1) e)).toInt < 100000)
    (e : Fin 1700000) :
    -100000 ≤ (concatenate (⟨1, ![1700000]⟩ : Shape) 0
      [⟨(⟨1, ![1600000]⟩ : Shape), shapeCast (⟨1, ![1600000]⟩ : Shape) x hc⟩,
        ⟨(⟨1, ![100000]⟩ : Shape), iotaInDim (⟨1, ![100000]⟩ : Shape) 32 0⟩] hcat (ix1 e)).toInt
    ∧ (concatenate (⟨1, ![1700000]⟩ : Shape) 0
      [⟨(⟨1, ![1600000]⟩ : Shape), shapeCast (⟨1, ![1600000]⟩ : Shape) x hc⟩,
        ⟨(⟨1, ![100000]⟩ : Shape), iotaInDim (⟨1, ![100000]⟩ : Shape) 32 0⟩] hcat (ix1 e)).toInt < 100000 := by
  by_cases he : e.val < 1600000
  · rw [cat_apply_left x hc hcat e he]
    exact h ⟨e.val, he⟩
  · have hlt := e.isLt
    rw [cat_apply_right x hc hcat e (by omega), StableHlo.Predicate.toInt_ofNat_small _ (by omega)]
    omega

/-- The source-index vector lies in [-100000, 100000) when row 0 of the edge list does. -/
theorem srcVec_range (a1 : IVec Cert.KernelIdeal.S2x1600000 32)
    (h : ∀ e : Fin 1600000, -100000 ≤ (a1 (ix2 (0 : Fin 2) e)).toInt ∧ (a1 (ix2 (0 : Fin 2) e)).toInt < 100000)
    (e : Fin 1700000) :
    -100000 ≤ (srcVec a1 (ix1 e)).toInt ∧ (srcVec a1 (ix1 e)).toInt < 100000 :=
  cat_range _ _ _ (fun e => by rw [row_slice_apply 0 (0 : Fin 2) rfl a1 _ e]; exact h e) e

/-- The destination-index vector lies in [-100000, 100000) when row 1 of the edge list does. -/
theorem dstVec_range (a1 : IVec Cert.KernelIdeal.S2x1600000 32)
    (h : ∀ e : Fin 1600000, -100000 ≤ (a1 (ix2 (1 : Fin 2) e)).toInt ∧ (a1 (ix2 (1 : Fin 2) e)).toInt < 100000)
    (e : Fin 1700000) :
    -100000 ≤ (dstVec a1 (ix1 e)).toInt ∧ (dstVec a1 (ix1 e)).toInt < 100000 :=
  cat_range _ _ _ (fun e => by rw [row_slice_apply 1 (1 : Fin 2) rfl a1 _ e]; exact h e) e

end Cert.Gcn.K

end
-- ==== Proof.KernelTerms.lean ====
/-
  The index vectors and the normalising column the kernel's program computes on the host from the edge list, as
  pure terms of the edge list.

  The source and destination vectors (the edge list's two rows, each followed by the node numbers 0 … 99999: every
  node gets a self-loop) are defined with the precondition's decoding. A node's degree counts the entries of the destination vector that read it; its
  normalising factor is the reciprocal square root of the degree where that is positive and zero elsewhere, laid
  out as a one-column array.
-/
import proofs.«423678_j70729521430617_3_alg».proof.Proof.Gen.KernelIdeal
import proofs.«423678_j70729521430617_3_alg».proof.Proof.PreDecode
import Idealize.ShloMosaic.PureOps.Ideal

noncomputable section

namespace Cert.Gcn.K

open Cert.KernelIdeal Cert.KernelIdeal.Facts₀ Cert.KernelIdeal.Facts Idealize.ShloMosaic

/-- An index vector over the edges as the one-column index array a scatter takes. -/
def idxCol (v : IVec S1700000 32) : IVec S1700000x1 32 :=
  broadcastInDim S1700000x1 ![0] bcast_S1700000_S1700000x1_0 v

/-- The destinations as such a column. -/
def dstCol (a1 : IVec S2x1600000 32) : IVec S1700000x1 32 := idxCol (dstVec a1)

/-- A node's degree as a 32-bit count: one added per entry of the destination vector that reads the node. -/
def degWord (a1 : IVec S2x1600000 32) : IVec S100000 32 :=
  Host.scatter scatter_S100000_S1700000x1_S1700000_n_0_0_1 IntOp.addi
    (broadcastInDim S100000 ![] bcast_S_S100000 (constantI S_ 32 0#32)) (dstCol a1)
    (broadcastInDim S1700000 ![] bcast_S_S1700000 (constantI S_ 32 1#32))

/-- The normalising factors: the reciprocal square root of the degree where it is positive, zero elsewhere. -/
def dinvVec (a1 : IVec S2x1600000 32) : FVec Ideal S100000 .f32 :=
  select
    (cmpf (F := Ideal) .ogt (sitofp .f32 (degWord a1)) (broadcastInDim S100000 ![] bcast_S_S100000 (constant S_ .f32 0x00000000#32)))
    (Host.rsqrt (sitofp .f32 (degWord a1)))
    (broadcastInDim S100000 ![] bcast_S_S100000 (constant S_ .f32 0x00000000#32))

/-- The same as a one-column array, the layout the dense stages read it in. -/
def dinvCol (a1 : IVec S2x1600000 32) : FVec Ideal S100000x1 .f32 :=
  shapeCast S100000x1 (dinvVec a1) shapeCasts_S100000_S100000x1

/-- The graph numbers of the nodes as the one-column index array a scatter takes. -/
def batchCol (a2 : IVec S100000 32) : IVec S100000x1 32 :=
  broadcastInDim S100000x1 ![0] bcast_S100000_S100000x1_0 a2

/-- A graph's node count as a 32-bit count. -/
def cntWord (a2 : IVec S100000 32) : IVec S512 32 :=
  Host.scatter scatter_S512_S100000x1_S100000_n_0_0_1 IntOp.addi
    (broadcastInDim S512 ![] bcast_S_S512 (constantI S_ 32 0#32)) (batchCol a2)
    (broadcastInDim S100000 ![] bcast_S_S100000 (constantI S_ 32 1#32))

/-- The divisor of the mean pooling: a graph's node count, at least one, spread over the feature columns. -/
def poolDenom (a2 : IVec S100000 32) : FVec Ideal S512x32 .f32 :=
  broadcastInDim S512x32 ![0, 1] bcast_S512x1_S512x32_0_1
    (broadcastInDim S512x1 ![0] bcast_S512_S512x1_0
      (maximumf (sitofp .f32 (cntWord a2)) (broadcastInDim S512 ![] bcast_S_S512 (constant S_ .f32 0x3F800000#32))))

/-- Mean pooling: the per-graph sums of the node features over the divisor. -/
def pooled (hf : FVec Ideal S100000x32 .f32) (a2 : IVec S100000 32) : FVec Ideal S512x32 .f32 :=
  Host.divf
    (Host.scatterAdd scatter_S512x32_S100000x1_S100000x32_1_0_0_1
      (broadcastInDim S512x32 ![] bcast_S_S512x32 (constant S_ .f32 0x00000000#32)) (batchCol a2) hf)
    (poolDenom a2)

/-- A bias vector of 32 entries laid out as one row. -/
def biasRow32 (b : FVec Ideal S32 .f32) : FVec Ideal S1x32 .f32 := shapeCast S1x32 b shapeCasts_S32_S1x32

/-- A bias vector of 64 entries laid out as one row. -/
def biasRow64 (b : FVec Ideal S64 .f32) : FVec Ideal S1x64 .f32 := shapeCast S1x64 b shapeCasts_S64_S1x64

/-- The read-out's one bias entry laid out as a 1 × 1 array. -/
def biasCell (b : FVec Ideal S1 .f32) : FVec Ideal S1x1 .f32 := shapeCast S1x1 b shapeCasts_S1_S1x1

/-- A layer's aggregation: for each node the sum of the gathered rows of the edges arriving there. -/
def agg32 (t : FVec Ideal S1700000x32 .f32) (dst : IVec S1700000 32) : FVec Ideal S100000x32 .f32 :=
  Host.scatterAdd scatter_S100000x32_S1700000x1_S1700000x32_1_0_0_1
    (broadcastInDim S100000x32 ![] bcast_S_S100000x32 (constant S_ .f32 0x00000000#32)) (idxCol dst) t

/-- The same over 64 feature columns. -/
def agg64 (t : FVec Ideal S1700000x64 .f32) (dst : IVec S1700000 32) : FVec Ideal S100000x64 .f32 :=
  Host.scatterAdd scatter_S100000x64_S1700000x1_S1700000x64_1_0_0_1
    (broadcastInDim S100000x64 ![] bcast_S_S100000x64 (constant S_ .f32 0x00000000#32)) (idxCol dst) t

end Cert.Gcn.K

end
-- ==== Proof.GcnSpec.lean ====
/-
  What each stage of the three-layer graph convolution computes, as plain formulas over the extended reals.

  Nodes are rows. Every layer multiplies a node's features by a weight matrix (features · Wᵀ), and the sparse step
  in between sums, for each node, rows gathered at the sources of the edges arriving there. The dense stages are:
    · the first projection with its prescale:   (x · Wᵀ)(i, q) · dinv(i);
    · bias, rectifier, next projection, prescale:   (max(agg(i, ·) · dinv(i) + b, 0) · Wᵀ)(q) · dinv(i);
    · the last bias and rectifier:   max(agg(i, q) · dinv(i) + b(q), 0);
    · the read-out:   (pooled · Wᵀ)(g) + b.
  An edge's index word is read as a row of a 100000-row table the way an array subscript reads it: a negative word
  counts from the end, and the result is clamped into the table.
-/
import Idealize.ShloMosaic.PureOps.Ideal
import Idealize.ShloMosaic.Lib.ValueIdx

noncomputable section

namespace Cert.Gcn

open Idealize.ShloMosaic Idealize.ShloMosaic.ValueIdx

/-- The first projection, prescaled: entry (i, q) is (∑ₖ x(i, k) · w(q, k)) · d(i). -/
def linScale (N K C : Nat) (x : (⟨2, ![N, K]⟩ : Shape).Idx → EReal) (w : (⟨2, ![C, K]⟩ : Shape).Idx → EReal)
    (d : (⟨2, ![N, 1]⟩ : Shape).Idx → EReal) : (⟨2, ![N, C]⟩ : Shape).Idx → EReal :=
  fun j => (∑ k : Fin K, x (ix2 (j 0) k) * w (ix2 (j 1) k)) * d (ix2 (j 0) (0 : Fin 1))

/-- The activation a layer hands on: entry (i, k) is max(agg(i, k) · d(i) + b(k), 0). -/
def biasRelu (N K : Nat) (agg : (⟨2, ![N, K]⟩ : Shape).Idx → EReal) (d : (⟨2, ![N, 1]⟩ : Shape).Idx → EReal)
    (b : (⟨2, ![1, K]⟩ : Shape).Idx → EReal) : (⟨2, ![N, K]⟩ : Shape).Idx → EReal :=
  fun j => max (agg (ix2 (j 0) (j 1)) * d (ix2 (j 0) (0 : Fin 1)) + b (ix2 (0 : Fin 1) (j 1))) 0

/-- Bias and rectifier of one layer followed by the next layer's prescaled projection:
    entry (i, q) is (∑ₖ max(agg(i, k) · d(i) + b(k), 0) · w(q, k)) · d(i). -/
def fusedLayer (N K C : Nat) (agg : (⟨2, ![N, K]⟩ : Shape).Idx → EReal) (d : (⟨2, ![N, 1]⟩ : Shape).Idx → EReal)
    (b : (⟨2, ![1, K]⟩ : Shape).Idx → EReal) (w : (⟨2, ![C, K]⟩ : Shape).Idx → EReal) :
    (⟨2, ![N, C]⟩ : Shape).Idx → EReal :=
  linScale N K C (biasRelu N K agg d b) w d

/-- The read-out: entry (g, 0) is (∑ₖ p(g, k) · w(0, k)) + b(0, 0). -/
def readOut (G K : Nat) (p : (⟨2, ![G, K]⟩ : Shape).Idx → EReal) (w : (⟨2, ![1, K]⟩ : Shape).Idx → EReal)
    (b : (⟨2, ![1, 1]⟩ : Shape).Idx → EReal) : (⟨2, ![G, 1]⟩ : Shape).Idx → EReal :=
  fun j => (∑ k : Fin K, p (ix2 (j 0) k) * w (ix2 (0 : Fin 1) k)) + b (ix2 (0 : Fin 1) (0 : Fin 1))

theorem linScale_apply (N K C : Nat) (x w d) (i : Fin N) (q : Fin C) :
    linScale N K C x w d (ix2 i q) = (∑ k : Fin K, x (ix2 i k) * w (ix2 q k)) * d (ix2 i (0 : Fin 1)) := rfl

theorem biasRelu_apply (N K : Nat) (agg d b) (i : Fin N) (k : Fin K) :
    biasRelu N K agg d b (ix2 i k) = max (agg (ix2 i k) * d (ix2 i (0 : Fin 1)) + b (ix2 (0 : Fin 1) k)) 0 := rfl

theorem fusedLayer_apply (N K C : Nat) (agg d b w) (i : Fin N) (q : Fin C) :
    fusedLayer N K C agg d b w (ix2 i q)
      = (∑ k : Fin K, max (agg (ix2 i k) * d (ix2 i (0 : Fin 1)) + b (ix2 (0 : Fin 1) k)) 0 * w (ix2 q k))
          * d (ix2 i (0 : Fin 1)) := rfl

theorem readOut_apply (G K : Nat) (p w b) (g : Fin G) :
    readOut G K p w b (ix2 g (0 : Fin 1))
      = (∑ k : Fin K, p (ix2 g k) * w (ix2 (0 : Fin 1) k)) + b (ix2 (0 : Fin 1) (0 : Fin 1)) := rfl

/-- An index word normalised as an array subscript normalises it: a negative word counts from the end of a
    100000-row table. -/
def normW (v : BitVec 32) : BitVec 32 :=
  Scalar.select (IntOp.cmpi .slt v 0#32) (IntOp.addi v 100000#32) v

/-- The table row an index word reads: normalised, read signed, clamped into the table. -/
def rowOf (v : BitVec 32) : Fin 100000 :=
  ⟨min (normW v).toInt.toNat 99999, by omega⟩

end Cert.Gcn

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.LibVecGatherScatter.lean ====
/-
  A host gather from a vector and an integer scatter that counts, read at one element.

  `table[idx]` over an [N] table with an [E × 1] column of start indices prints as a `stablehlo.gather` whose one operand
  axis is collapsed and start-indexed and which has no offset axis: result element `e` is the table at `idx e` read signed
  and clamped into the table.

  `zeros.at[idx].add(1)` over 32-bit integers prints as a `stablehlo.scatter` with an `add` body, modelled as a left fold
  over the updates in row-major order. Whatever the dimension numbers, from an operand of zeros with updates all one the
  fold leaves at element `i` the NUMBER of updates whose result index is `i`: each step adds one at the element it
  lands on and leaves the others, and the count is at most the number of updates, so below 2³¹ it cannot wrap and the
  word read signed is the count itself. The extended-real scatter-add of ones from zeros is the same count, a sum of
  ones over the same set of updates; so the integer counts, converted to reals, are the float scatter-add of ones.
  Last, the f32 word of 1.0 read at the extended reals.
-/
import Idealize.ShloMosaic.PureOps.Ideal
import Idealize.ShloMosaic.Lib.ValueIdx
import Mathlib.Data.Finset.Card
import Mathlib.Data.List.FinRange
import Mathlib.Data.EReal.Basic

noncomputable section

namespace Cert.Gcn

open Idealize.ShloMosaic Idealize.ShloMosaic.ValueIdx

/-- Result element `e` of a gather from a vector is the table's element at the start index of `e` read signed and clamped
    into `[0, N − 1]`. -/
theorem gather_vec {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  unfold Host.gather
  congr 1
  funext a
  apply Fin.ext
  -- the result has one axis, so every coordinate of its index is e
  have he : ∀ X : Fin 1, ((ix1 e : (⟨1, ![E]⟩ : Shape).Idx) X).val = e.val := fun X => by
    match X with
    | ⟨0, _⟩ => rfl
  match a with
  | ⟨0, _⟩ =>
    -- the operand's one axis: start-indexed and collapsed, neither batching nor kept, so the clamped start alone
    have hb : (0 : Fin 1) ∉ d.operandBatchingDims := by rw [hob]; exact List.not_mem_nil
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 e) idx 0 + d.batchCoord (ix1 e) 0 + d.offCoord (ix1 e) 0 = min (idx (ix2 e (0 : Fin 1))).toInt.toNat (N - 1)
    rw [GatherDims.batchCoord_eq_zero _ _ _ hb, GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _
    | ⟨1, _⟩ =>
      unfold GatherDims.siIdx
      rw [dif_pos (by rw [hivd])]
      apply Fin.ext
      show List.idxOf (0 : Fin 1) d.startIndexMap = 0
      rw [hsim]; simp

/-- Counting along a list of updates: folding the scatter's step with body `add` and updates all one over ANY list of
    update positions adds, at element `i`, the number of list entries whose result index is `i` (as a 32-bit word) to the
    start value there. -/
theorem foldl_scatter_addi_ones {s si u : Shape} (d : ScatterDims s si u) {w : Nat} (idx : IVec si w)
    (l : List (Fin u.numel)) (r : s.Idx → BitVec 32) (i : s.Idx) :
    (l.foldl (fun r n =>
        match d.resultIdx? (u.rowMajor.symm n) idx with
        | some i => fun i' => if i' = i then IntOp.addi (r i) ((fun _ : u.Idx => (1#32 : BitVec 32)) (u.rowMajor.symm n)) else r i'
        | none => r) r) i
      = r i + BitVec.ofNat 32 (l.countP fun n => decide (d.resultIdx? (u.rowMajor.symm n) idx = some i)) := by
  induction l generalizing r with
  | nil => simp
  | cons n l ih =>
    rw [List.foldl_cons, ih, List.countP_cons]
    cases hres : d.resultIdx? (u.rowMajor.symm n) idx with
    | none => simp
    | some k =>
      by_cases hik : i = k
      · subst hik
        simp [IntOp.addi, BitVec.ofNat_add, add_assoc, add_comm]
        rw [BitVec.add_assoc]
      · have hki : ¬ (some k = some i) := fun h => hik (Option.some.inj h).symm
        simp [hik, hki]

/-- The number of positions of `0 … n − 1` in row-major order that satisfy a predicate is the size of the set of such positions. -/
theorem countP_finRange_eq_card {n : Nat} (p : Fin n → Prop) [DecidablePred p] :
    (List.finRange n).countP (fun k => decide (p k)) = (Finset.univ.filter p).card := by
  rw [List.countP_eq_length_filter, ← List.toFinset_card_of_nodup ((List.nodup_finRange n).filter _)]
  congr 1
  ext k
  simp

/-- THE INTEGER SCATTER THAT COUNTS: from zeros, with updates all one and body `add`, element `i` read signed is the number
    of updates whose result index is `i` (fewer than 2³¹ updates, so the 32-bit sum does not wrap). -/
theorem scatter_addi_ones_toInt {s si u : Shape} (d : ScatterDims s si u) {w : Nat} (idx : IVec si w) (hsmall : u.numel < 2 ^ 31) (i : s.Idx) :
    (Host.scatter d IntOp.addi (fun _ : s.Idx => (0#32 : BitVec 32)) idx (fun _ : u.Idx => (1#32 : BitVec 32)) i).toInt
      = ((Finset.univ.filter (fun j : u.Idx => d.resultIdx? j idx = some i)).card : ℤ) := by
  unfold Host.scatter
  refine (congrArg BitVec.toInt (foldl_scatter_addi_ones d idx (List.finRange u.numel) (fun _ => 0#32) i)).trans ?_
  -- the count is at most the number of updates
  have hle : (List.finRange u.numel).countP (fun n => decide (d.resultIdx? (u.rowMajor.symm n) idx = some i)) ≤ u.numel := by
    have := List.countP_le_length (p := fun n => decide (d.resultIdx? (u.rowMajor.symm n) idx = some i)) (l := List.finRange u.numel)
    rwa [List.length_finRange] at this
  -- positions in row-major order and update indices are in bijection
  have hcard : (List.finRange u.numel).countP (fun n => decide (d.resultIdx? (u.rowMajor.symm n) idx = some i))
      = (Finset.univ.filter (fun j : u.Idx => d.resultIdx? j idx = some i)).card := by
    rw [countP_finRange_eq_card (fun n : Fin u.numel => d.resultIdx? (u.rowMajor.symm n) idx = some i)]
    exact Finset.card_equiv u.rowMajor.symm (fun n => by simp)
  rw [← hcard]
  generalize (List.finRange u.numel).countP (fun n => decide (d.resultIdx? (u.rowMajor.symm n) idx = some i)) = c at hle
  have hc : c < 2 ^ 31 := lt_of_le_of_lt hle hsmall
  rw [BitVec.zero_add, BitVec.toInt_eq_toNat_of_lt, BitVec.toNat_ofNat, Nat.mod_eq_of_lt (by omega)]
  rw [BitVec.toNat_ofNat, Nat.mod_eq_of_lt (by omega)]
  omega

/-- The count is not negative. -/
theorem scatter_ones_toInt_nonneg {s si u : Shape} (d : ScatterDims s si u) {w : Nat} (idx : IVec si w) (hsmall : u.numel < 2 ^ 31) (i : s.Idx) :
    0 ≤ (Host.scatter d IntOp.addi (fun _ : s.Idx => (0#32 : BitVec 32)) idx (fun _ : u.Idx => (1#32 : BitVec 32)) i).toInt := by
  rw [scatter_addi_ones_toInt d idx hsmall i]
  exact Int.natCast_nonneg _

/-- The integer count of ones, converted to a real, is the extended-real scatter-add of ones from zeros: both are the
    number of updates whose result index is `i`. -/
theorem sitofp_scatter_ones_eq {s si u : Shape} (d : ScatterDims s si u) {w : Nat} (idx : IVec si w) (hsmall : u.numel < 2 ^ 31) (i : s.Idx) :
    (((Host.scatter d IntOp.addi (fun _ : s.Idx => (0#32 : BitVec 32)) idx (fun _ : u.Idx => (1#32 : BitVec 32)) i).toInt : ℝ) : EReal)
      = (Host.scatterAdd (F := Ideal) (φ := .f32) d (fun _ : s.Idx => (0 : EReal)) idx (fun _ : u.Idx => (1 : EReal)) : s.Idx → EReal) i := by
  show _ = Ideal.hostScatterAdd d (fun _ : s.Idx => (0 : EReal)) idx (fun _ : u.Idx => (1 : EReal)) i
  unfold Ideal.hostScatterAdd
  rw [scatter_addi_ones_toInt d idx hsmall i, zero_add, Finset.sum_const, Int.cast_natCast, ← EReal.coe_one, ← EReal.coe_nsmul,
    nsmul_eq_mul, mul_one]

/-- The f32 word `0x3F800000` (sign 0, exponent 127, fraction 0) is the extended real one. -/
theorem ofBits_one_f32 : Ideal.ofBits .f32 0x3F800000#32 = (1 : EReal) := by
  -- the word's exponent field is 127 and its fraction field 0: the value is 2²³ · 2^(127 − 127 − 23)
  have h : Ideal.ofBits .f32 0x3F800000#32 = (((8388608 : ℝ) * ((2 : ℝ) ^ 23)⁻¹ : ℝ) : EReal) := by
    simp [Ideal.ofBits, Ideal.ieee]
  rw [h, ← EReal.coe_one]
  congr 1
  norm_num

end Cert.Gcn

end
-- ==== Proof.TakeRows.lean ====
/-
  jnp.take of table rows, read at one element.

  `table[idx]` through jnp.take prints as three steps: the index word is normalised as an array subscript (a negative word
  counts from the end: + 100000), the rows are gathered at the normalised column (the gather clamps into the table), and
  each gathered row is kept where its normalised index lies in [0, 99999] and replaced by a NaN word elsewhere. When
  every index word lies in [−100000, 100000) the normalised word lies in [0, 100000), the mask is all ones, and the
  result is the plain clamped gather at the normalised word: row e is the table's row `rowOf (s e)`.
-/
import proofs.«423678_j70729521430617_3_alg».proof.Proof.Gen.KernelIdeal
import proofs.«423678_j70729521430617_3_alg».proof.Proof.GcnSpec
import proofs.«423678_j70729521430617_3_alg».proof.Proof.LibRowGatherScatter
import proofs.«423678_j70729521430617_3_alg».proof.Proof.LibVecGatherScatter
import Idealize.ShloMosaic.Lib.Pipeline.Value
import Idealize.ShloMosaic.Lib.ValueIdx

noncomputable section

namespace Cert.Gcn.K

open Cert.KernelIdeal Idealize.ShloMosaic Idealize.ShloMosaic.ValueIdx Cert.Gcn
open Facts₀

/-! ## One index word -/

/-- A word that is not negative is its own normal form. -/
theorem normW_of_nonneg (v : BitVec 32) (h : 0 ≤ v.toInt) : normW v = v := by
  unfold normW Scalar.select IntOp.cmpi
  have h0 : ¬ v.toInt < (0#32 : BitVec 32).toInt := by rw [BitVec.toInt_zero]; omega
  simp only [BitVec.slt, h0, decide_false]
  rfl

/-- A negative word is normalised by adding the table's length. -/
theorem normW_of_neg (v : BitVec 32) (h : v.toInt < 0) : normW v = v + 100000#32 := by
  unfold normW Scalar.select IntOp.cmpi IntOp.addi
  have h0 : v.toInt < (0#32 : BitVec 32).toInt := by rw [BitVec.toInt_zero]; exact h
  simp only [BitVec.slt, h0, decide_true]
  rfl

/-- The normalised word of a word in [−100000, 100000), read signed, lies in [0, 100000). -/
theorem normW_toInt_range (v : BitVec 32) (h : -100000 ≤ v.toInt ∧ v.toInt < 100000) :
    0 ≤ (normW v).toInt ∧ (normW v).toInt ≤ 99999 := by
  by_cases h0 : v.toInt < 0
  · have hc : (100000#32 : BitVec 32).toInt = 100000 := by decide
    rw [normW_of_neg v h0, BitVec.toInt_add, hc, Int.bmod_eq_of_le_mul_two (by omega) (by omega)]
    omega
  · rw [normW_of_nonneg v (by omega)]
    omega

/-- Both range tests of the take hold at the normalised word of a word in [−100000, 100000). -/
theorem normW_inb (v : BitVec 32) (h : -100000 ≤ v.toInt ∧ v.toInt < 100000) :
    IntOp.cmpi .sge (normW v) 0#32 = 1#1 ∧ IntOp.cmpi .sle (normW v) 99999#32 = 1#1 := by
  obtain ⟨hlo, hhi⟩ := normW_toInt_range v h
  have hc : (99999#32 : BitVec 32).toInt = 99999 := by decide
  unfold IntOp.cmpi
  constructor
  · have : (0#32 : BitVec 32).toInt ≤ (normW v).toInt := by rw [BitVec.toInt_zero]; exact hlo
    simp only [BitVec.sle, this, decide_true]
    rfl
  · have : (normW v).toInt ≤ (99999#32 : BitVec 32).toInt := by rw [hc]; exact hhi
    simp only [BitVec.sle, this, decide_true]
    rfl

/-- A word that reads, signed, as a row number of the table names that row. -/
theorem rowOf_of_toInt_eq (v : BitVec 32) (i : Fin 100000) (h : v.toInt = (i.val : ℤ)) : rowOf v = i := by
  apply Fin.ext
  show min (normW v).toInt.toNat 99999 = i.val
  rw [normW_of_nonneg v (by omega), h]
  have := i.isLt
  omega

/-! ## Reading plain row and vector gathers at a normalised index column -/

/-- A row gather whose start-index column holds, at row e, the normalised form of a word v reads the table's row `rowOf v`. -/
theorem gatherRows_norm {C : Nat} (d : GatherDims ⟨2, ![100000, C]⟩ ⟨2, ![1700000, 1]⟩ ⟨2, ![1700000, C]⟩)
    (hoff : d.offsetDims = [1]) (hcoll : d.collapsedSliceDims = [0]) (hob : d.operandBatchingDims = [])
    (hsim : d.startIndexMap = [0]) (hivd : d.indexVectorDim = 1)
    (x : (⟨2, ![100000, C]⟩ : Shape).Idx → EReal) (col : IVec ⟨2, ![1700000, 1]⟩ 32) (v : BitVec 32) (e : Fin 1700000)
    (hcol : col (ix2 e (0 : Fin 1)) = normW v) (q : Fin C) :
    Host.gather d x col (ix2 e q) = x (ix2 (rowOf v) q) := by
  rw [gather_rows d hoff hcoll hob hsim hivd x col e q (by omega)]
  refine congrArg (fun r => x (ix2 r q)) (Fin.ext ?_)
  show min (col (ix2 e (0 : Fin 1))).toInt.toNat (100000 - 1) = min (normW v).toInt.toNat 99999
  rw [hcol]

/-- A vector gather whose start-index column holds, at row e, the normalised form of a word v reads the table at `rowOf v`. -/
theorem gatherVec_norm (d : GatherDims ⟨1, ![100000]⟩ ⟨2, ![1700000, 1]⟩ ⟨1, ![1700000]⟩)
    (hoff : d.offsetDims = []) (hcoll : d.collapsedSliceDims = [0]) (hob : d.operandBatchingDims = [])
    (hsim : d.startIndexMap = [0]) (hivd : d.indexVectorDim = 1)
    (x : (⟨1, ![100000]⟩ : Shape).Idx → EReal) (col : IVec ⟨2, ![1700000, 1]⟩ 32) (v : BitVec 32) (e : Fin 1700000)
    (hcol : col (ix2 e (0 : Fin 1)) = normW v) :
    Host.gather d x col (ix1 e) = x (ix1 (rowOf v)) := by
  rw [gather_vec d hoff hcoll hob hsim hivd x col e (by omega)]
  refine congrArg (fun r => x (ix1 r)) (Fin.ext ?_)
  show min (col (ix2 e (0 : Fin 1))).toInt.toNat (100000 - 1) = min (normW v).toInt.toNat 99999
  rw [hcol]

/-! ## The printed take -/

/-- A left fold by `and` from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduce by `and` from the constant one of an array whose every element is one is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  unfold Host.reduce
  rw [hinit]
  exact foldl_andi_ones (fun n => x (s.rowMajor.symm n)) (fun n => hx _) _

/-- The normalised index column of the take: the words normalised, laid out as an [E × 1] column. -/
def normCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The column at (e, z) is the normalised word of row e. -/
theorem normCol_apply (s : IVec S1700000 32) (e : Fin 1700000) (z : Fin 1) : normCol s (ix2 e z) = normW (s (ix1 e)) := by
  unfold normCol
  rw [broadcastInDim_apply _ _ _ _ (ix1 e) (fun a => by match a with | ⟨0, _⟩ => rfl)]
  rfl

/-- The take's row mask: both range tests of the normalised column, combined, reduced by `and` over the one-column axis. -/
def rowMask (s : IVec S1700000 32) : IVec S1700000 1 :=
  Host.reduce IntOp.andi
    (andi (cmpi .sge (normCol s) (broadcastInDim S1700000x1 ![] bcast_S_S1700000x1 (constantI S_ 32 0#32)))
      (cmpi .sle (normCol s) (broadcastInDim S1700000x1 ![0, 1] bcast_S1x1_S1700000x1_0_1
        (broadcastInDim S1x1 ![1] bcast_S1_S1x1_1 (constantI S1 32 99999#32)))))
    (constantI S_ 1 1#1) reducesTo_S1700000x1_S1700000_d1 h_S_

/-- Under the range hypothesis the row mask is one at every row. -/
theorem rowMask_eq_one (s : IVec S1700000 32)
    (hs : ∀ e : Fin 1700000, -100000 ≤ (s (ix1 e)).toInt ∧ (s (ix1 e)).toInt < 100000) (e : Fin 1700000) :
    rowMask s (ix1 e) = 1#1 := by
  unfold rowMask
  refine reduce_andi_ones _ _ _ _ (fun i => ?_) rfl _
  obtain ⟨e', z, rfl⟩ : ∃ (e' : Fin 1700000) (z : Fin 1), i = ix2 e' z := ⟨i 0, i 1, eq_ix2 i⟩
  obtain ⟨h1, h2⟩ := normW_inb (s (ix1 e')) (hs e')
  show IntOp.andi (IntOp.cmpi .sge (normCol s (ix2 e' z)) 0#32) (IntOp.cmpi .sle (normCol s (ix2 e' z)) 99999#32) = 1#1
  rw [normCol_apply, h1, h2]
  rfl

/-- jnp.take of rows of a [100000 × 32] table at 1700000 index words, one `let` per printed operation, in the printed order. -/
def take32 {F : FTy → Type} [FloatOps F] (x : FVec F S100000x32 .f32) (s : IVec S1700000 32) : FVec F S1700000x32 .f32 :=
  let c := constantI S_ 32 0#32
  let v0 := broadcastInDim S1700000 ![] bcast_S_S1700000 c
  let v1 := cmpi .slt s v0
  let c_0 := constantI S_ 32 100000#32
  let v2 := broadcastInDim S1700000 ![] bcast_S_S1700000 c_0
  let v3 := addi s v2
  let v4 := select v1 v3 s
  let v5 := broadcastInDim S1700000x1 ![0] bcast_S1700000_S1700000x1_0 v4
  let c_1 := constantI S1 32 99999#32
  let c_2 := constantI S_ 32 0#32
  let v6 := broadcastInDim S1700000x1 ![] bcast_S_S1700000x1 c_2
  let v7 := cmpi .sge v5 v6
  let v8 := broadcastInDim S1x1 ![1] bcast_S1_S1x1_1 c_1
  let v9 := broadcastInDim S1700000x1 ![0, 1] bcast_S1x1_S1700000x1_0_1 v8
  let v10 := cmpi .sle v5 v9
  let v11 := andi v7 v10
  let c_3 := constantI S_ 1 1#1
  let v12 := Host.reduce IntOp.andi v11 c_3 reducesTo_S1700000x1_S1700000_d1 h_S_
  let v13 := Host.gather gather_S100000x32_S1700000x1_S1700000x32_1_0_n_n_0_1_132 x v5
  let v14 := broadcastInDim S1700000x32 ![0] bcast_S1700000_S1700000x32_0 v12
  let cst := constant (F := F) S_ .f32 0x7FC00000#32
  let v15 := broadcastInDim S1700000x32 ![] bcast_S_S1700000x32 cst
  select v14 v13 v15

/-- jnp.take of rows of a [100000 × 64] table at 1700000 index words, one `let` per printed operation, in the printed order. -/
def take64 {F : FTy → Type} [FloatOps F] (x : FVec F S100000x64 .f32) (s : IVec S1700000 32) : FVec F S1700000x64 .f32 :=
  let c := constantI S_ 32 0#32
  let v0 := broadcastInDim S1700000 ![] bcast_S_S1700000 c
  let v1 := cmpi .slt s v0
  let c_0 := constantI S_ 32 100000#32
  let v2 := broadcastInDim S1700000 ![] bcast_S_S1700000 c_0
  let v3 := addi s v2
  let v4 := select v1 v3 s
  let v5 := broadcastInDim S1700000x1 ![0] bcast_S1700000_S1700000x1_0 v4
  let c_1 := constantI S1 32 99999#32
  let c_2 := constantI S_ 32 0#32
  let v6 := broadcastInDim S1700000x1 ![] bcast_S_S1700000x1 c_2
  let v7 := cmpi .sge v5 v6
  let v8 := broadcastInDim S1x1 ![1] bcast_S1_S1x1_1 c_1
  let v9 := broadcastInDim S1700000x1 ![0, 1] bcast_S1x1_S1700000x1_0_1 v8
  let v10 := cmpi .sle v5 v9
  let v11 := andi v7 v10
  let c_3 := constantI S_ 1 1#1
  let v12 := Host.reduce IntOp.andi v11 c_3 reducesTo_S1700000x1_S1700000_d1 h_S_
  let v13 := Host.gather gather_S100000x64_S1700000x1_S1700000x64_1_0_n_n_0_1_164 x v5
  let v14 := broadcastInDim S1700000x64 ![0] bcast_S1700000_S1700000x64_0 v12
  let cst := constant (F := F) S_ .f32 0x7FC00000#32
  let v15 := broadcastInDim S1700000x64 ![] bcast_S_S1700000x64 cst
  select v14 v13 v15

/-- The printed take is the select, by the row mask, between the gather at the normalised column and the NaN splat. -/
theorem take32_eq (x : FVec Ideal S100000x32 .f32) (s : IVec S1700000 32) :
    take32 (F := Ideal) x s = select (broadcastInDim S1700000x32 ![0] bcast_S1700000_S1700000x32_0 (rowMask s))
      (Host.gather gather_S100000x32_S1700000x1_S1700000x32_1_0_n_n_0_1_132 x (normCol s))
      (broadcastInDim S1700000x32 ![] bcast_S_S1700000x32 (constant (F := Ideal) S_ .f32 0x7FC00000#32)) := rfl

/-- Under the range hypothesis row e of the take is the table's row `rowOf (s e)`: the mask is one there, and the gather reads
    the clamped normalised word. -/
theorem take32_apply (x : FVec Ideal S100000x32 .f32) (s : IVec S1700000 32)
    (hs : ∀ e : Fin 1700000, -100000 ≤ (s (ix1 e)).toInt ∧ (s (ix1 e)).toInt < 100000) (e : Fin 1700000) (q : Fin 32) :
    take32 (F := Ideal) x s (ix2 e q) = x (ix2 (rowOf (s (ix1 e))) q) := by
  rw [take32_eq, select_apply]
  have hm : broadcastInDim S1700000x32 ![0] bcast_S1700000_S1700000x32_0 (rowMask s) (ix2 e q) = 1#1 := by
    rw [broadcastInDim_apply _ _ _ _ (ix1 e) (fun a => by match a with | ⟨0, _⟩ => rfl)]
    exact rowMask_eq_one s hs e
  rw [hm, select_one]
  exact gatherRows_norm _ rfl rfl rfl rfl rfl x (normCol s) (s (ix1 e)) e (normCol_apply s e 0) q

/-- The printed take is the select, by the row mask, between the gather at the normalised column and the NaN splat. -/
theorem take64_eq (x : FVec Ideal S100000x64 .f32) (s : IVec S1700000 32) :
    take64 (F := Ideal) x s = select (broadcastInDim S1700000x64 ![0] bcast_S1700000_S1700000x64_0 (rowMask s))
      (Host.gather gather_S100000x64_S1700000x1_S1700000x64_1_0_n_n_0_1_164 x (normCol s))
      (broadcastInDim S1700000x64 ![] bcast_S_S1700000x64 (constant (F := Ideal) S_ .f32 0x7FC00000#32)) := rfl

/-- Under the range hypothesis row e of the take is the table's row `rowOf (s e)`: the mask is one there, and the gather reads
    the clamped normalised word. -/
theorem take64_apply (x : FVec Ideal S100000x64 .f32) (s : IVec S1700000 32)
    (hs : ∀ e : Fin 1700000, -100000 ≤ (s (ix1 e)).toInt ∧ (s (ix1 e)).toInt < 100000) (e : Fin 1700000) (q : Fin 64) :
    take64 (F := Ideal) x s (ix2 e q) = x (ix2 (rowOf (s (ix1 e))) q) := by
  rw [take64_eq, select_apply]
  have hm : broadcastInDim S1700000x64 ![0] bcast_S1700000_S1700000x64_0 (rowMask s) (ix2 e q) = 1#1 := by
    rw [broadcastInDim_apply _ _ _ _ (ix1 e) (fun a => by match a with | ⟨0, _⟩ => rfl)]
    exact rowMask_eq_one s hs e
  rw [hm, select_one]
  exact gatherRows_norm _ rfl rfl rfl rfl rfl x (normCol s) (s (ix1 e)) e (normCol_apply s e 0) q

end Cert.Gcn.K

end
-- ==== Proof.KernelStages.lean ====
/-
  The stages of the kernel's computation as functions of the eleven arguments: three times a dense stage, the row
  gather at the edges' sources and the sum over the edges arriving at each node; then the last bias and rectifier,
  the mean pooling over graphs and the read-out.
-/
import proofs.«423678_j70729521430617_3_alg».proof.Proof.KernelTerms
import proofs.«423678_j70729521430617_3_alg».proof.Proof.TakeRows
import proofs.«423678_j70729521430617_3_alg».proof.Proof.GcnSpec

noncomputable section

namespace Cert.Gcn.K

open Cert.KernelIdeal Cert.Gcn Idealize.ShloMosaic

/-! ## The stages, as functions of the arguments -/

section Stages

variable (a0 : FVec Ideal S100000x2 .f32) (a1 : IVec S2x1600000 32) (a2 : IVec S100000 32)
  (a3 : FVec Ideal S32x2 .f32) (a4 : FVec Ideal S32 .f32) (a5 : FVec Ideal S64x32 .f32) (a6 : FVec Ideal S64 .f32)
  (a7 : FVec Ideal S32x64 .f32) (a8 : FVec Ideal S32 .f32) (a9 : FVec Ideal S1x32 .f32) (a10 : FVec Ideal S1 .f32)

/-- Layer 1's prescaled projection of the features. -/
def stH1 : FVec Ideal S100000x32 .f32 := linScale 100000 2 32 a0 a3 (dinvCol a1)
/-- Its rows gathered at the sources and summed over the edges arriving at each node. -/
def stG1 : FVec Ideal S100000x32 .f32 := agg32 (take32 (stH1 a0 a1 a3) (srcVec a1)) (dstVec a1)
/-- Layer 1's bias and rectifier, then layer 2's prescaled projection. -/
def stH2 : FVec Ideal S100000x64 .f32 := fusedLayer 100000 32 64 (stG1 a0 a1 a3) (dinvCol a1) (biasRow32 a4) a5
def stG2 : FVec Ideal S100000x64 .f32 := agg64 (take64 (stH2 a0 a1 a3 a4 a5) (srcVec a1)) (dstVec a1)
/-- Layer 2's bias and rectifier, then layer 3's prescaled projection. -/
def stH3 : FVec Ideal S100000x32 .f32 := fusedLayer 100000 64 32 (stG2 a0 a1 a3 a4 a5) (dinvCol a1) (biasRow64 a6) a7
def stG3 : FVec Ideal S100000x32 .f32 := agg32 (take32 (stH3 a0 a1 a3 a4 a5 a6 a7) (srcVec a1)) (dstVec a1)
/-- Layer 3's bias and rectifier: the node features that are pooled. -/
def stHf : FVec Ideal S100000x32 .f32 := biasRelu 100000 32 (stG3 a0 a1 a3 a4 a5 a6 a7) (dinvCol a1) (biasRow32 a8)

/-- The whole computation as one function of the arguments: features, edge list, graph numbers, and the four
    layers' weights and biases. -/
def kernelOut : FVec Ideal S512x1 .f32 :=
  readOut 512 32 (pooled (stHf a0 a1 a3 a4 a5 a6 a7 a8) a2) a9 (biasCell a10)

end Stages

end Cert.Gcn.K

end
-- ==== Proof.Region0Value.lean ====
/-
  The first region: the prescaled first projection.

  The grid has ten points; point t stages rows 10000·t … 10000·t + 9999 of the node features x, of the per-node
  scale d and of the output, and the whole 32 × 2 weight matrix w. On its block the body forms x · wᵀ — a sum over
  the two input features — and multiplies row i by d(i). Each output row depends only on the same row of x and d, so
  the ten blocks are the ten row ranges of ONE function of the whole arrays, and the blocks tile all 100000 rows:
  the output array ends holding entry (i, q) = (∑ₖ x(i, k) · w(q, k)) · d(i).
-/
import proofs.«423678_j70729521430617_3_alg».proof.Proof.Gen.KernelIdeal.Frame
import proofs.«423678_j70729521430617_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K.R0
open Cert.KernelIdeal Cert.KernelIdeal.Gen Cert.Gcn Idealize.ShloMosaic Idealize.ShloMosaic.ValueIdx
open Idealize.ShloMosaic.TcCoe Idealize.SL.Sem
open Idealize.ShloMosaic.Pipeline (Dat)

/-! ## The body's arithmetic at one entry of a block -/

/-- The product's left operand index: row of the output entry, the contracted feature. -/
theorem mm0_lhs_0 (j : S10000x32.Idx) (q : dot_S10000x2_S2x32_S10000x32_1_0_0_1_n_n.contr.Idx) :
    (dot_S10000x2_S2x32_S10000x32_1_0_0_1_n_n.lhsIdx j q 0).val = (j 0).val := by
  unfold DotDims.lhsIdx
  rw [dif_neg (show ¬(0 : Fin S10000x2.rank) ∈ dot_S10000x2_S2x32_S10000x32_1_0_0_1_n_n.lhsBatch by decide), dif_pos (show (0 : Fin S10000x2.rank) ∈ dot_S10000x2_S2x32_S10000x32_1_0_0_1_n_n.lhsNonContracting by decide)]
  rfl
theorem mm0_lhs_1 (j : S10000x32.Idx) (q : dot_S10000x2_S2x32_S10000x32_1_0_0_1_n_n.contr.Idx) :
    (dot_S10000x2_S2x32_S10000x32_1_0_0_1_n_n.lhsIdx j q 1).val = (q ⟨0, by decide⟩).val :=
  dot_S10000x2_S2x32_S10000x32_1_0_0_1_n_n.lhsIdx_val_of_single rfl j q
theorem mm0_rhs_0 (j : S10000x32.Idx) (q : dot_S10000x2_S2x32_S10000x32_1_0_0_1_n_n.contr.Idx) :
    (dot_S10000x2_S2x32_S10000x32_1_0_0_1_n_n.rhsIdx j q 0).val = (q ⟨0, by decide⟩).val :=
  dot_S10000x2_S2x32_S10000x32_1_0_0_1_n_n.rhsIdx_val_of_single rfl j q
theorem mm0_rhs_1 (j : S10000x32.Idx) (q : dot_S10000x2_S2x32_S10000x32_1_0_0_1_n_n.contr.Idx) :
    (dot_S10000x2_S2x32_S10000x32_1_0_0_1_n_n.rhsIdx j q 1).val = (j 1).val := by
  unfold DotDims.rhsIdx
  rw [dif_neg (show ¬(1 : Fin S2x32.rank) ∈ dot_S10000x2_S2x32_S10000x32_1_0_0_1_n_n.rhsBatch by decide), dif_pos (show (1 : Fin S2x32.rank) ∈ dot_S10000x2_S2x32_S10000x32_1_0_0_1_n_n.rhsNonContracting by decide)]
  rfl

/-- A block of features times a transposed weight matrix, into a zero accumulator: entry (i, q) is the sum over the
    two features k of a(i, k) · b(k, q). -/
theorem mm0_apply (a : FVec Ideal S10000x2 .bf16) (b : FVec Ideal S2x32 .bf16) (i : Fin 10000) (q : Fin 32) :
    matmul dot_S10000x2_S2x32_S10000x32_1_0_0_1_n_n none a b (constant (F := Ideal) S10000x32 .f32 0x00000000#32) (ix2 i q)
      = ∑ k : Fin 2, a (ix2 i k) * b (ix2 k q) := by
  simp only [matmul]
  rw [Ideal.matmul_constant_zero_apply, ← Equiv.sum_comp (contrEquiv1 dot_S10000x2_S2x32_S10000x32_1_0_0_1_n_n 2 rfl rfl).symm]
  refine Finset.sum_congr rfl fun k _ => ?_
  have hk := contrEquiv1_symm_val dot_S10000x2_S2x32_S10000x32_1_0_0_1_n_n 2 rfl rfl k
  have el : dot_S10000x2_S2x32_S10000x32_1_0_0_1_n_n.lhsIdx (ix2 i q) ((contrEquiv1 dot_S10000x2_S2x32_S10000x32_1_0_0_1_n_n 2 rfl rfl).symm k) = ix2 i k := funext fun c => Fin.ext (by
    match c with
    | ⟨0, _⟩ => exact mm0_lhs_0 _ _
    | ⟨1, _⟩ => exact (mm0_lhs_1 _ _).trans hk)
  have er : dot_S10000x2_S2x32_S10000x32_1_0_0_1_n_n.rhsIdx (ix2 i q) ((contrEquiv1 dot_S10000x2_S2x32_S10000x32_1_0_0_1_n_n 2 rfl rfl).symm k) = ix2 k q := funext fun c => Fin.ext (by
    match c with
    | ⟨0, _⟩ => exact (mm0_rhs_0 _ _).trans hk
    | ⟨1, _⟩ => exact mm0_rhs_1 _ _)
  rw [el, er]

/-- A column of per-row scales spread over 32 columns reads, at (i, q), the scale of row i. -/
theorem spread0_apply (v : (⟨2, ![10000, 1]⟩ : Shape).Idx → EReal) (h : S10000x1.Broadcasts S10000x32) (i : Fin 10000) (q : Fin 32) :
    broadcastTo S10000x32 v h (ix2 i q) = v (ix2 i (0 : Fin 1)) := by
  refine broadcastTo_apply v h (ix2 i q) (ix2 i (0 : Fin 1)) fun ax => ?_
  match ax with
  | ⟨0, _⟩ => rfl
  | ⟨1, _⟩ => rfl

/-- THE BODY AT ONE ENTRY: (∑ₖ x(i, k) · w(q, k)) · d(i) of the staged blocks. -/
theorem pay0_apply (x0 : Vec Ideal S10000x2 .f32) (x1 : Vec Ideal S32x2 .f32) (x2 : Vec Ideal S10000x1 .f32)
    (i : Fin 10000) (q : Fin 32) :
    k0_pay1 x0 x1 x2 (ix2 i q) = (∑ k : Fin 2, x0 (ix2 i k) * x1 (ix2 q k)) * x2 (ix2 i (0 : Fin 1)) := by
  unfold k0_pay1
  rw [mulf_apply, mm0_apply, shapeCast_self, spread0_apply]
  refine congrArg (· * _) (Finset.sum_congr rfl fun k _ => ?_)
  rw [truncf_apply, transpose_ix2_apply, truncf_apply]

/-! ## From the ten row blocks to the whole array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: at point t the features, the scales and the output are at row block t
    (column block 0); the weights are always at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row i of point t's block of features is row 10000·t + i of x. -/
theorem xblk_apply (c : Dev nD) (t : Fin cfg0.N) (i : Fin 10000) (k : Fin 2) (r : Fin 100000)
    (hr : r.val = t.val * 10000 + i.val) :
    (iblk0 (F := Ideal) V c 0 t : Vec Ideal S10000x2 .f32) (ix2 i k) = V c main_arg0 (ix2 r k) := by
  obtain ⟨e00, e01, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * i.val = r.val; omega
  | ⟨1, _⟩ => show win0_0.index t (1 : Fin 2) * 2 + 1 * k.val = k.val; omega

/-- Every point's block of weights is the whole weight matrix. -/
theorem wblk_apply (c : Dev nD) (t : Fin cfg0.N) (q : Fin 32) (k : Fin 2) :
    (iblk0 (F := Ideal) V c 1 t : Vec Ideal S32x2 .f32) (ix2 q k) = V c main_arg3 (ix2 q k) := by
  obtain ⟨-, -, e10, e11, -⟩ := block_indices t
  unfold iblk0
  rw [View.read_apply]
  show V c main_arg3 _ = V c main_arg3 _
  congr 1
  funext a
  apply Fin.ext
  match a with
  | ⟨0, _⟩ => show win0_1.index t (0 : Fin 2) * 32 + 1 * q.val = q.val; omega
  | ⟨1, _⟩ => show win0_1.index t (1 : Fin 2) * 2 + 1 * k.val = k.val; omega

/-- Row i of point t's block of scales is row 10000·t + i of d. -/
theorem dblk_apply (c : Dev nD) (t : Fin cfg0.N) (i : Fin 10000) (r : Fin 100000)
    (hr : r.val = t.val * 10000 + i.val) :
    (iblk0 (F := Ideal) V c 2 t : Vec Ideal S10000x1 .f32) (ix2 i (0 : Fin 1)) = V c main_v16 (ix2 r (0 : Fin 1)) := by
  obtain ⟨-, -, -, -, e20, e21, -⟩ := block_indices t
  unfold iblk0
  rw [View.read_apply]
  show V c main_v16 _ = V c main_v16 _
  congr 1
  funext a
  apply Fin.ext
  match a with
  | ⟨0, _⟩ => show win0_2.index t (0 : Fin 2) * 10000 + 1 * i.val = r.val; omega
  | ⟨1, _⟩ => show win0_2.index t (1 : Fin 2) * 1 + 1 * 0 = 0; omega

/-- Entry (i, q) of point t's output block sits at (10000·t + i, q) of the output array. -/
theorem oblk_emb (t : Fin cfg0.N) (i : Fin 10000) (q : Fin 32) (r : Fin 100000)
    (hr : r.val = t.val * 10000 + i.val) :
    ((cfg0.win 3).blk t).view.emb (ix2 i q) = (ix2 r q : S100000x32.Idx) := by
  obtain ⟨-, -, -, -, -, -, e30, e31⟩ := block_indices t
  funext a
  apply Fin.ext
  match a with
  | ⟨0, _⟩ => show win0_3.index t (0 : Fin 2) * 10000 + 1 * i.val = r.val; omega
  | ⟨1, _⟩ => show win0_3.index t (1 : Fin 2) * 32 + 1 * q.val = q.val; omega

/-- WHAT POINT t WRITES BACK is its ten thousand rows of the prescaled projection of the whole arrays. -/
theorem flushed0_eq (c : Dev nD) (t : Fin cfg0.N) :
    (dat0 (F := Ideal) V c).flushed 3 t
      = ((cfg0.win 3).blk t).view.read (Elt Ideal) (linScale 100000 2 32 (V c main_arg0) (V c main_arg3) (V c main_v16)) := by
  show (cfg0.win 3).cut (grid0.coords t) ((dat0 V c).after 3 t) = _
  rw [after0_3]
  unfold out0_3
  rw [View.canon_unit_zero zero_offsets]
  simp only [View.ld_unit_zero (S := S10000x2) zero_offsets, View.ld_unit_zero (S := S32x2) zero_offsets,
    View.ld_unit_zero (S := S10000x1) zero_offsets]
  funext j
  obtain ⟨i, q, rfl⟩ : ∃ (i : Fin 10000) (q : Fin 32), j = ix2 i q := ⟨j 0, j 1, eq_ix2 (n0 := 10000) (n1 := 32) j⟩
  have hr : t.val * 10000 + i.val < 100000 := by
    have ht := t.isLt; have hN : cfg0.N = 10 := N_0; have hi := i.isLt; omega
  show k0_pay1 (iblk0 V c 0 t) (iblk0 V c 1 t) (iblk0 V c 2 t) (ix2 i q)
    = linScale 100000 2 32 (V c main_arg0) (V c main_arg3) (V c main_v16) (((cfg0.win 3).blk t).view.emb (ix2 i q))
  rw [pay0_apply, oblk_emb t i q ⟨t.val * 10000 + i.val, hr⟩ rfl, linScale_apply,
    dblk_apply V c t i ⟨t.val * 10000 + i.val, hr⟩ rfl]
  refine congrArg (· * _) (Finset.sum_congr rfl fun k _ => ?_)
  rw [xblk_apply V c t i k ⟨t.val * 10000 + i.val, hr⟩ rfl, wblk_apply V c t q k]

/-- An index of the output array is in point t's block iff each coordinate is in the block's range on its axis. -/
theorem mem_oblk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v17).slice (win0_3.rect t)).set ↔ _
  rw [View.set_slice_whole, Rect.mem_set_unit]
  exact Iff.rfl

/-- The ten row blocks tile the array: row r is in the block of point r / 10000. -/
theorem rows_covered (i : S100000x32.Idx) :
    ∃ t : Fin cfg0.N, (cfg0.win 3).flush t = true ∧ i ∈ ((cfg0.win 3).blk t).view.set := by
  have hi0 : (i 0).val < 100000 := idx2_lt0 i
  have hi1 : (i 1).val < 32 := idx2_lt1 i
  have hN : cfg0.N = 10 := N_0
  let t : Fin cfg0.N := ⟨(i 0).val / 10000, by rw [hN]; omega⟩
  obtain ⟨-, -, -, -, -, -, e30, e31⟩ := block_indices t
  have ht : t.val = (i 0).val / 10000 := rfl
  refine ⟨t, flush0_3 t, ?_⟩
  rw [mem_oblk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 32 ≤ (i 1).val ∧ (i 1).val < win0_3.index t (1 : Fin 2) * 32 + 32
    omega

/-- THE OUTPUT ARRAY after the region: entry (i, q) = (∑ₖ x(i, k) · w(q, k)) · d(i) of the arrays the region found. -/
theorem region0_value (c : Dev nD) :
    (dat0 (F := Ideal) V c).arrAt 3 cfg0.N = linScale 100000 2 32 (V c main_arg0) (V c main_arg3) (V c main_v16) :=
  (dat0 V c).arrAt_eq_of_cover 3 (linScale 100000 2 32 (V c main_arg0) (V c main_arg3) (V c main_v16))
    (fun t _ => flushed0_eq V c t) rows_covered

end Cert.Gcn.K.R0
end
-- ==== Proof.Region1Value.lean ====
/-
  The second dense stage of the graph convolution, on the accelerator: region 1 takes the aggregated rows
  agg [100000, 32], the per-node scale dinv [100000, 1], the bias b [1, 32] and the next layer's weights
  W [64, 32], walks the rows in 20 blocks of 5000, and leaves in its output array [100000, 64]
      out(i, q) = (∑ₖ max(agg(i, k) · dinv(i) + b(k), 0) · W(q, k)) · dinv(i).
  First the block's arithmetic is read entry by entry; then each block is placed in the array (block t holds rows
  5000·t … 5000·t + 4999, all columns); the 20 blocks cover every row, so the array is that one function.
-/
import proofs.«423678_j70729521430617_3_alg».proof.Proof.Gen.KernelIdeal.Frame
import proofs.«423678_j70729521430617_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K.R1
open Cert.KernelIdeal Cert.KernelIdeal.Gen Cert.Gcn Idealize.ShloMosaic Idealize.ShloMosaic.ValueIdx
open Idealize.ShloMosaic.TcCoe Idealize.SL.Sem
open Idealize.ShloMosaic.Pipeline (Dat)

/-! ## The block's arithmetic, entry by entry -/

/-- A column [a, 1] spread over b columns reads, at (p, c), the column's entry in row p. -/
theorem spread_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand at output entry (i, ·) and contraction position k sits in row i … -/
theorem lhs_rows32_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
/-- … and column k; -/
theorem lhs_rows32_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
/-- the right operand sits in row k … -/
theorem rhs_rows32_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
/-- … and the output's column. -/
theorem rhs_rows32_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The [5000, 32] × [32, 64] product into a zero accumulator, at entry (i, q): the plain sum over the 32 shared
    positions. -/
theorem product32_apply (l : FVec Ideal S5000x32 .bf16) (r : FVec Ideal S32x64 .bf16) (i : Fin 5000) (q : Fin 64) :
    matmul dot_S5000x32_S32x64_S5000x64_1_0_0_1_n_n none l r (constant (F := Ideal) S5000x64 .f32 0x00000000#32) (ix2 i q)
      = ∑ k : Fin 32, l (ix2 i k) * r (ix2 k q) := by
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 i q) ((contrEquiv1 dot_S5000x32_S32x64_S5000x64_1_0_0_1_n_n 32 rfl rfl).symm k) = ix2 i k := funext fun a => Fin.ext (by
    match a with
    | ⟨0, _⟩ => exact lhs_rows32_0 _ _
    | ⟨1, _⟩ => exact (lhs_rows32_1 _ _).trans hk)
  have er : dot_S5000x32_S32x64_S5000x64_1_0_0_1_n_n.rhsIdx (ix2 i q) ((contrEquiv1 dot_S5000x32_S32x64_S5000x64_1_0_0_1_n_n 32 rfl rfl).symm k) = ix2 k q := funext fun a => Fin.ext (by
    match a with
    | ⟨0, _⟩ => exact (rhs_rows32_0 _ _).trans hk
    | ⟨1, _⟩ => exact rhs_rows32_1 _ _)
  rw [el, er]

/-- The block the body stores, at entry (i, q), from the blocks it loads: rows scaled, bias added, rectified,
    multiplied into the weights' transpose, and scaled again. -/
theorem block_entry (x0 : Vec Ideal S5000x32 .f32) (x1 : Vec Ideal S5000x1 .f32) (x2 : Vec Ideal S1x32 .f32)
    (x3 : Vec Ideal S64x32 .f32) (x4 : Vec Ideal S5000x1 .f32) (i : Fin 5000) (q : Fin 64) :
    k1_pay1 (F := Ideal) x0 x1 x2 x3 x4 (ix2 i q)
      = (∑ k : Fin 32, max (x0 (ix2 i k) * x1 (ix2 i (0 : Fin 1)) + x2 (ix2 (0 : Fin 1) k)) 0 * x3 (ix2 q k))
          * x4 (ix2 i (0 : Fin 1)) := by
  unfold k1_pay1
  simp only [shapeCast_self]
  rw [mulf_apply, product32_apply, spread_column_apply]
  refine congrArg (· * _) (Finset.sum_congr rfl fun k _ => ?_)
  rw [truncf_apply, maximumf_apply, addf_apply, mulf_apply, spread_column_apply, broadcastTo_1b_ab_apply,
    broadcast_apply, transpose_ix2_apply, truncf_apply]
  rw [show (FloatOps.ofBits .f32 0x00000000#32 : Ideal .f32) = 0 from Ideal.ofBits_zero_f32]

/-! ## Each block in its place in the arrays -/

variable (V : (c : Dev nD) → (b : Ref sig .tc) → Buf (Elt Ideal) ((c : Thread nD τ).loc b))

theorem origin_zero : (![0, 0] : Fin 2 → Nat) = fun _ => 0 := funext fun a => by fin_cases a <;> rfl

/-- Where the blocks sit, decided over the 20 grid points: at point t the row windows (aggregated rows, scale,
    output) are at block row t, block column 0; the bias and the weights are whole, at block (0, 0). -/
theorem block_places : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row i of the block of aggregated rows at point t is row 5000·t + i of the array. -/
theorem agg_block_apply (c : Dev nD) (t : Fin cfg1.N) (i : Fin 5000) (k : Fin 32) (I : Fin 100000)
    (hI : I.val = t.val * 5000 + i.val) :
    (iblk1 V c 0 t : Vec Ideal S5000x32 .f32) (ix2 i k) = (V c main_v21 : S100000x32.Idx → EReal) (ix2 I k) := by
  obtain ⟨e0, e1, -⟩ := block_places t
  unfold iblk1
  rw [View.read_apply]
  show V c main_v21 _ = V c main_v21 _
  congr 1
  funext a
  apply Fin.ext
  match a with
  | ⟨0, _⟩ => show win1_0.index t (0 : Fin 2) * 5000 + 1 * i.val = I.val; omega
  | ⟨1, _⟩ => show win1_0.index t (1 : Fin 2) * 32 + 1 * k.val = k.val; omega

/-- Row i of the block of scales at point t is row 5000·t + i of the scale column. -/
theorem scale_block_apply (c : Dev nD) (t : Fin cfg1.N) (i : Fin 5000) (I : Fin 100000)
    (hI : I.val = t.val * 5000 + i.val) :
    (iblk1 V c 1 t : Vec Ideal S5000x1 .f32) (ix2 i (0 : Fin 1)) = (V c main_v16 : S100000x1.Idx → EReal) (ix2 I (0 : Fin 1)) := by
  obtain ⟨-, -, e0, e1, -⟩ := block_places t
  unfold iblk1
  rw [View.read_apply]
  show V c main_v16 _ = V c main_v16 _
  congr 1
  funext a
  apply Fin.ext
  match a with
  | ⟨0, _⟩ => show win1_1.index t (0 : Fin 2) * 5000 + 1 * i.val = I.val; omega
  | ⟨1, _⟩ => show win1_1.index t (1 : Fin 2) * 1 + 1 * 0 = 0; omega

/-- The bias block is the whole bias row at every point. -/
theorem bias_block_apply (c : Dev nD) (t : Fin cfg1.N) (k : Fin 32) :
    (iblk1 V c 2 t : Vec Ideal S1x32 .f32) (ix2 (0 : Fin 1) k) = (V c main_v22 : S1x32.Idx → EReal) (ix2 (0 : Fin 1) k) := by
  obtain ⟨-, -, -, -, e0, e1, -⟩ := block_places t
  unfold iblk1
  rw [View.read_apply]
  show V c main_v22 _ = V c main_v22 _
  congr 1
  funext a
  apply Fin.ext
  match a with
  | ⟨0, _⟩ => show win1_2.index t (0 : Fin 2) * 1 + 1 * 0 = 0; omega
  | ⟨1, _⟩ => show win1_2.index t (1 : Fin 2) * 32 + 1 * k.val = k.val; omega

/-- The weights' block is the whole weight matrix at every point. -/
theorem weight_block_apply (c : Dev nD) (t : Fin cfg1.N) (q : Fin 64) (k : Fin 32) :
    (iblk1 V c 3 t : Vec Ideal S64x32 .f32) (ix2 q k) = (V c main_arg5 : S64x32.Idx → EReal) (ix2 q k) := by
  obtain ⟨-, -, -, -, -, -, e0, e1, -⟩ := block_places t
  unfold iblk1
  rw [View.read_apply]
  show V c main_arg5 _ = V c main_arg5 _
  congr 1
  funext a
  apply Fin.ext
  match a with
  | ⟨0, _⟩ => show win1_3.index t (0 : Fin 2) * 64 + 1 * q.val = q.val; omega
  | ⟨1, _⟩ => show win1_3.index t (1 : Fin 2) * 32 + 1 * k.val = k.val; omega

/-- The block point t stores is rows 5000·t … 5000·t + 4999 of the layer's function of the arrays: entry (i, q) of
    the block is entry (5000·t + i, q) of the function. -/
theorem stored_block_apply (c : Dev nD) (t : Fin cfg1.N) (j : S5000x64.Idx) (J : S100000x64.Idx)
    (h0 : (J 0).val = t.val * 5000 + (j 0).val) (h1 : (J 1).val = (j 1).val) :
    k1_pay1 (F := Ideal) (iblk1 V c 0 t) (iblk1 V c 1 t) (iblk1 V c 2 t) (iblk1 V c 3 t) (iblk1 V c 1 t) j
      = fusedLayer 100000 32 64 (V c main_v21) (V c main_v16) (V c main_v22) (V c main_arg5) J := by
  obtain ⟨i, q, rfl⟩ : ∃ (i : Fin 5000) (q : Fin 64), j = ix2 i q := ⟨j 0, j 1, eq_ix2 j⟩
  obtain ⟨I, Q, rfl⟩ : ∃ (I : Fin 100000) (Q : Fin 64), J = ix2 I Q := ⟨J 0, J 1, eq_ix2 J⟩
  obtain rfl : Q = q := Fin.ext h1
  rw [block_entry, fusedLayer_apply, scale_block_apply V c t i I h0]
  refine congrArg (· * _) (Finset.sum_congr rfl fun k _ => ?_)
  rw [agg_block_apply V c t i k I h0, bias_block_apply, weight_block_apply]

/-- What point t writes back is block t of the layer's function of the arrays as the region finds them. -/
theorem written_block_eq (c : Dev nD) (t : Fin cfg1.N) :
    (dat1 (F := Ideal) V c).flushed 4 t = ((cfg1.win 4).blk t).view.read (Elt Ideal)
      (fusedLayer 100000 32 64 (V c main_v21) (V c main_v16) (V c main_v22) (V c main_arg5)) := by
  show (cfg1.win 4).cut (grid1.coords t) ((dat1 V c).after 4 t) = _
  rw [after1_4]
  unfold out1_4
  rw [View.canon_unit_zero origin_zero]
  simp only [View.ld_unit_zero (S := S5000x32) origin_zero, View.ld_unit_zero (S := S5000x1) origin_zero,
    View.ld_unit_zero (S := S1x32) origin_zero, View.ld_unit_zero (S := S64x32) origin_zero]
  obtain ⟨-, -, -, -, -, -, -, -, e0, e1⟩ := block_places t
  funext j
  show k1_pay1 (F := Ideal) (iblk1 V c 0 t) (iblk1 V c 1 t) (iblk1 V c 2 t) (iblk1 V c 3 t) (iblk1 V c 1 t) j
      = fusedLayer 100000 32 64 (V c main_v21) (V c main_v16) (V c main_v22) (V c main_arg5) (((cfg1.win 4).blk t).view.emb j)
  refine stored_block_apply V c t j _ ?_ ?_
  · show win1_4.index t (0 : Fin 2) * 5000 + 1 * (j 0).val = t.val * 5000 + (j 0).val; omega
  · show win1_4.index t (1 : Fin 2) * 64 + 1 * (j 1).val = (j 1).val; omega

/-- An entry of the output array is in point t's block iff each coordinate is in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v23).slice (win1_4.rect t)).set ↔ _
  rw [View.set_slice_whole, Rect.mem_set_unit]
  exact Iff.rfl

/-- Every entry of the output array is in some point's block: row r is in the block of point r / 5000. -/
theorem rows_covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := block_places t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The output array after the region: the fused layer of the arrays the region found. -/
theorem region1_value (c : Dev nD) :
    (dat1 (F := Ideal) V c).arrAt 4 cfg1.N
      = fusedLayer 100000 32 64 (V c main_v21) (V c main_v16) (V c main_v22) (V c main_arg5) :=
  (dat1 (F := Ideal) V c).arrAt_eq_of_cover 4 _ (fun t _ => written_block_eq V c t) rows_covered

end Cert.Gcn.K.R1
end
-- ==== Proof.Region2Value.lean ====
/-
  The third dense stage of the graph convolution, on the accelerator: region 2 takes the aggregated rows
  agg [100000, 64], the per-node scale dinv [100000, 1], the bias b [1, 64] and the next layer's weights
  W [32, 64], walks the rows in 20 blocks of 5000, and leaves in its output array [100000, 32]
      out(i, q) = (∑ₖ max(agg(i, k) · dinv(i) + b(k), 0) · W(q, k)) · dinv(i).
  First the block's arithmetic is read entry by entry; then each block is placed in the array (block t holds rows
  5000·t … 5000·t + 4999, all columns); the 20 blocks cover every row, so the array is that one function.
-/
import proofs.«423678_j70729521430617_3_alg».proof.Proof.Gen.KernelIdeal.Frame
import proofs.«423678_j70729521430617_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.K.R2
open Cert.KernelIdeal Cert.KernelIdeal.Gen Cert.Gcn Idealize.ShloMosaic Idealize.ShloMosaic.ValueIdx
open Idealize.ShloMosaic.TcCoe Idealize.SL.Sem
open Idealize.ShloMosaic.Pipeline (Dat)

/-! ## The block's arithmetic, entry by entry -/

/-- A column [a, 1] laid beside itself b times reads, at (p, c), the column's entry in row p. -/
theorem column_repeated_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand at output entry (i, ·) and contraction position k sits in row i … -/
theorem lhs_rows64_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and column k; -/
theorem lhs_rows64_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- the right operand sits in row k … -/
theorem rhs_rows64_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- … and the output's column. -/
theorem rhs_rows64_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The [5000, 64] × [64, 32] product into a zero accumulator, at entry (i, q): the plain sum over the 64 shared
    positions. -/
theorem product64_apply (l : FVec Ideal S5000x64 .bf16) (r : FVec Ideal S64x32 .bf16) (i : Fin 5000) (q : Fin 32) :
    matmul dot_S5000x64_S64x32_S5000x32_1_0_0_1_n_n none l r (constant (F := Ideal) S5000x32 .f32 0x00000000#32) (ix2 i q)
      = ∑ k : Fin 64, l (ix2 i k) * r (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 i q) ((contrEquiv1 dot_S5000x64_S64x32_S5000x32_1_0_0_1_n_n 64 rfl rfl).symm k) = ix2 i k := funext fun a => Fin.ext (by
    match a with
    | ⟨0, _⟩ => exact lhs_rows64_0 _ _
    | ⟨1, _⟩ => exact (lhs_rows64_1 _ _).trans hk)
  have er : dot_S5000x64_S64x32_S5000x32_1_0_0_1_n_n.rhsIdx (ix2 i q) ((contrEquiv1 dot_S5000x64_S64x32_S5000x32_1_0_0_1_n_n 64 rfl rfl).symm k) = ix2 k q := funext fun a => Fin.ext (by
    match a with
    | ⟨0, _⟩ => exact (rhs_rows64_0 _ _).trans hk
    | ⟨1, _⟩ => exact rhs_rows64_1 _ _)
  rw [el, er]

/-- The block the body stores, at entry (i, q), from the blocks it loads: rows scaled, bias added, rectified,
    multiplied into the weights' transpose, and scaled again. -/
theorem block_entry64 (x0 : Vec Ideal S5000x64 .f32) (x1 : Vec Ideal S5000x1 .f32) (x2 : Vec Ideal S1x64 .f32)
    (x3 : Vec Ideal S32x64 .f32) (x4 : Vec Ideal S5000x1 .f32) (i : Fin 5000) (q : Fin 32) :
    k2_pay1 (F := Ideal) x0 x1 x2 x3 x4 (ix2 i q)
      = (∑ k : Fin 64, max (x0 (ix2 i k) * x1 (ix2 i (0 : Fin 1)) + x2 (ix2 (0 : Fin 1) k)) 0 * x3 (ix2 q k))
          * x4 (ix2 i (0 : Fin 1)) := by
  unfold k2_pay1
  simp only [shapeCast_self]
  rw [mulf_apply, product64_apply, column_repeated_apply]
  refine congrArg (· * _) (Finset.sum_congr rfl fun k _ => ?_)
  rw [truncf_apply, maximumf_apply, addf_apply, mulf_apply, column_repeated_apply, broadcastTo_1b_ab_apply,
    broadcast_apply, transpose_ix2_apply, truncf_apply]
  rw [show (FloatOps.ofBits .f32 0x00000000#32 : Ideal .f32) = 0 from Ideal.ofBits_zero_f32]

/-! ## Each block in its place in the arrays -/

variable (V : (c : Dev nD) → (b : Ref sig .tc) → Buf (Elt Ideal) ((c : Thread nD τ).loc b))

theorem zero_origin : (![0, 0] : Fin 2 → Nat) = fun _ => 0 := funext fun a => by fin_cases a <;> rfl

/-- Where the blocks sit, decided over the 20 grid points: at point t the row windows (aggregated rows, scale,
    output) are at block row t, block column 0; the bias and the weights are whole, at block (0, 0). -/
theorem block_places64 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row i of the block of aggregated rows at point t is row 5000·t + i of the array. -/
theorem agg_block64_apply (c : Dev nD) (t : Fin cfg2.N) (i : Fin 5000) (k : Fin 64) (I : Fin 100000)
    (hI : I.val = t.val * 5000 + i.val) :
    (iblk2 V c 0 t : Vec Ideal S5000x64 .f32) (ix2 i k) = (V c main_v27 : S100000x64.Idx → EReal) (ix2 I k) := by
  obtain ⟨e0, e1, -⟩ := block_places64 t
  unfold iblk2
  rw [View.read_apply]
  show V c main_v27 _ = V c main_v27 _
  congr 1
  funext a
  apply Fin.ext
  match a with
  | ⟨0, _⟩ => show win2_0.index t (0 : Fin 2) * 5000 + 1 * i.val = I.val; omega
  | ⟨1, _⟩ => show win2_0.index t (1 : Fin 2) * 64 + 1 * k.val = k.val; omega

/-- Row i of the block of scales at point t is row 5000·t + i of the scale column. -/
theorem scale_block64_apply (c : Dev nD) (t : Fin cfg2.N) (i : Fin 5000) (I : Fin 100000)
    (hI : I.val = t.val * 5000 + i.val) :
    (iblk2 V c 1 t : Vec Ideal S5000x1 .f32) (ix2 i (0 : Fin 1)) = (V c main_v16 : S100000x1.Idx → EReal) (ix2 I (0 : Fin 1)) := by
  obtain ⟨-, -, e0, e1, -⟩ := block_places64 t
  unfold iblk2
  rw [View.read_apply]
  show V c main_v16 _ = V c main_v16 _
  congr 1
  funext a
  apply Fin.ext
  match a with
  | ⟨0, _⟩ => show win2_1.index t (0 : Fin 2) * 5000 + 1 * i.val = I.val; omega
  | ⟨1, _⟩ => show win2_1.index t (1 : Fin 2) * 1 + 1 * 0 = 0; omega

/-- The bias block is the whole bias row at every point. -/
theorem bias_block64_apply (c : Dev nD) (t : Fin cfg2.N) (k : Fin 64) :
    (iblk2 V c 2 t : Vec Ideal S1x64 .f32) (ix2 (0 : Fin 1) k) = (V c main_v28 : S1x64.Idx → EReal) (ix2 (0 : Fin 1) k) := by
  obtain ⟨-, -, -, -, e0, e1, -⟩ := block_places64 t
  unfold iblk2
  rw [View.read_apply]
  show V c main_v28 _ = V c main_v28 _
  congr 1
  funext a
  apply Fin.ext
  match a with
  | ⟨0, _⟩ => show win2_2.index t (0 : Fin 2) * 1 + 1 * 0 = 0; omega
  | ⟨1, _⟩ => show win2_2.index t (1 : Fin 2) * 64 + 1 * k.val = k.val; omega

/-- The weights' block is the whole weight matrix at every point. -/
theorem weight_block64_apply (c : Dev nD) (t : Fin cfg2.N) (q : Fin 32) (k : Fin 64) :
    (iblk2 V c 3 t : Vec Ideal S32x64 .f32) (ix2 q k) = (V c main_arg7 : S32x64.Idx → EReal) (ix2 q k) := by
  obtain ⟨-, -, -, -, -, -, e0, e1, -⟩ := block_places64 t
  unfold iblk2
  rw [View.read_apply]
  show V c main_arg7 _ = V c main_arg7 _
  congr 1
  funext a
  apply Fin.ext
  match a with
  | ⟨0, _⟩ => show win2_3.index t (0 : Fin 2) * 32 + 1 * q.val = q.val; omega
  | ⟨1, _⟩ => show win2_3.index t (1 : Fin 2) * 64 + 1 * k.val = k.val; omega

/-- The block point t stores is rows 5000·t … 5000·t + 4999 of the layer's function of the arrays: entry (i, q) of
    the block is entry (5000·t + i, q) of the function. -/
theorem stored_block64_apply (c : Dev nD) (t : Fin cfg2.N) (j : S5000x32.Idx) (J : S100000x32.Idx)
    (h0 : (J 0).val = t.val * 5000 + (j 0).val) (h1 : (J 1).val = (j 1).val) :
    k2_pay1 (F := Ideal) (iblk2 V c 0 t) (iblk2 V c 1 t) (iblk2 V c 2 t) (iblk2 V c 3 t) (iblk2 V c 1 t) j
      = fusedLayer 100000 64 32 (V c main_v27) (V c main_v16) (V c main_v28) (V c main_arg7) J := by
  obtain ⟨i, q, rfl⟩ : ∃ (i : Fin 5000) (q : Fin 32), j = ix2 i q := ⟨j 0, j 1, eq_ix2 j⟩
  obtain ⟨I, Q, rfl⟩ : ∃ (I : Fin 100000) (Q : Fin 32), J = ix2 I Q := ⟨J 0, J 1, eq_ix2 J⟩
  obtain rfl : Q = q := Fin.ext h1
  rw [block_entry64, fusedLayer_apply, scale_block64_apply V c t i I h0]
  refine congrArg (· * _) (Finset.sum_congr rfl fun k _ => ?_)
  rw [agg_block64_apply V c t i k I h0, bias_block64_apply, weight_block64_apply]

/-- What point t writes back is block t of the layer's function of the arrays as the region finds them. -/
theorem written_block64_eq (c : Dev nD) (t : Fin cfg2.N) :
    (dat2 (F := Ideal) V c).flushed 4 t = ((cfg2.win 4).blk t).view.read (Elt Ideal)
      (fusedLayer 100000 64 32 (V c main_v27) (V c main_v16) (V c main_v28) (V c main_arg7)) := by
  show (cfg2.win 4).cut (grid2.coords t) ((dat2 V c).after 4 t) = _
  rw [after2_4]
  unfold out2_4
  rw [View.canon_unit_zero zero_origin]
  simp only [View.ld_unit_zero (S := S5000x64) zero_origin, View.ld_unit_zero (S := S5000x1) zero_origin,
    View.ld_unit_zero (S := S1x64) zero_origin, View.ld_unit_zero (S := S32x64) zero_origin]
  obtain ⟨-, -, -, -, -, -, -, -, e0, e1⟩ := block_places64 t
  funext j
  show k2_pay1 (F := Ideal) (iblk2 V c 0 t) (iblk2 V c 1 t) (iblk2 V c 2 t) (iblk2 V c 3 t) (iblk2 V c 1 t) j
      = fusedLayer 100000 64 32 (V c main_v27) (V c main_v16) (V c main_v28) (V c main_arg7) (((cfg2.win 4).blk t).view.emb j)
  refine stored_block64_apply V c t j _ ?_ ?_
  · show win2_4.index t (0 : Fin 2) * 5000 + 1 * (j 0).val = t.val * 5000 + (j 0).val; omega
  · show win2_4.index t (1 : Fin 2) * 32 + 1 * (j 1).val = (j 1).val; omega

/-- An entry of the output array is in point t's block iff each coordinate is in the block's range on its axis. -/
theorem mem_block64 (t : Fin cfg2.N) (i : S100000x32.Idx) :
    i ∈ ((cfg2.win 4).blk t).view.set ↔ ∀ a : Fin 2, win2_4.index t a * S5000x32.size a ≤ (i a).val
      ∧ (i a).val < win2_4.index t a * S5000x32.size a + S5000x32.size a := by
  show i ∈ ((View.whole main_v29).slice (win2_4.rect t)).set ↔ _
  rw [View.set_slice_whole, Rect.mem_set_unit]
  exact Iff.rfl

/-- Every entry of the output array is in some point's block: row r is in the block of point r / 5000. -/
theorem rows_covered64 (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := block_places64 t
  refine ⟨t, flush2_4 t, ?_⟩
  rw [mem_block64]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 32 ≤ (i 1).val ∧ (i 1).val < win2_4.index t (1 : Fin 2) * 32 + 32
    omega

/-- The output array after the region: the fused layer of the arrays the region found. -/
theorem region2_value (c : Dev nD) :
    (dat2 (F := Ideal) V c).arrAt 4 cfg2.N
      = fusedLayer 100000 64 32 (V c main_v27) (V c main_v16) (V c main_v28) (V c main_arg7) :=
  (dat2 (F := Ideal) V c).arrAt_eq_of_cover 4 _ (fun t _ => written_block64_eq V c t) rows_covered64

end Cert.Gcn.K.R2
end
-- ==== Proof.Region3Value.lean ====
import proofs.«423678_j70729521430617_3_alg».proof.Proof.Gen.KernelIdeal.Frame
import proofs.«423678_j70729521430617_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.K.R3
open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! # The last layer's activation: bias, rectifier, post-scale

The region runs over ten grid points; point `t` holds rows `10000·t … 10000·t + 9999` of the aggregated features
`agg` ([100000, 32]) and of the degree column `d` ([100000, 1]), and the whole bias row `b` ([1, 32]). Its body forms
`max(agg · d + b, 0)` row by row: entry `(i, k)` is `max(agg(i, k) · d(i) + b(k), 0)`. -/

/-! ## The body's result at an entry -/

/-- A column broadcast over the columns reads, at `(p, c)`, the column's entry at row `p`. -/
theorem column_broadcast_biasRelu {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at entry `(i, k)` of the three loaded blocks: the degree column is read at row `i`, the bias row
    at column `k`, and the rectifier's zero word is the extended real `0`. -/
theorem biasRelu_payload (x0 : Vec Ideal S10000x32 .f32) (x1 : Vec Ideal S10000x1 .f32) (x2 : Vec Ideal S1x32 .f32)
    (i : Fin 10000) (k : Fin 32) :
    k3_pay1 x0 x1 x2 (ix2 i k)
      = max (x0 (ix2 i k) * x1 (ix2 i (0 : Fin 1)) + x2 (ix2 (0 : Fin 1) k)) 0 := by
  unfold k3_pay1
  simp only [shapeCast_self]
  rw [maximumf_apply, addf_apply, mulf_apply, broadcast_apply, column_broadcast_biasRelu, broadcastTo_1b_ab_apply]
  show max _ (Ideal.ofBits .f32 0x00000000#32) = _
  rw [Ideal.ofBits_zero_f32]

/-! ## From the ten blocks to the array -/

/-- The zero offsets, however spelt. -/
theorem zero_offsets_biasRelu : (![0, 0] : Fin 2 → Nat) = fun _ => 0 := funext fun a => by fin_cases a <;> rfl

/-- The block indices over the grid: the features' and the degree column's blocks move down the rows with the output's,
    whose row-block index is the point's number; the bias row stays; no window moves along the columns. -/
theorem index_biasRelu : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The features' block at point `t`: entry `(i, k)` of the block is entry `(10000·t + i, k)` of the array. -/
theorem features_block_biasRelu (c : Dev nD) (t : Fin cfg3.N) (i : Fin 10000) (k : Fin 32) (r : Fin 100000)
    (hr : r.val = t.val * 10000 + i.val) :
    iblk3 V c 0 t (ix2 i k) = V c main_v33 (ix2 r k) := by
  obtain ⟨e0, e1, -, -, -, -, e6, -⟩ := index_biasRelu t
  have h : ((cfg3.win 0).blk t).view.emb (ix2 i k) = ix2 r k := by
    funext a; apply Fin.ext
    match a with
    | ⟨0, _⟩ => show win3_0.index t (0 : Fin 2) * 10000 + 1 * i.val = r.val; omega
    | ⟨1, _⟩ => show win3_0.index t (1 : Fin 2) * 32 + 1 * k.val = k.val; omega
  show V c main_v33 (((cfg3.win 0).blk t).view.emb (ix2 i k)) = V c main_v33 (ix2 r k)
  rw [h]

/-- The degree column's block at point `t`: entry `(i, 0)` of the block is entry `(10000·t + i, 0)` of the column. -/
theorem degree_block_biasRelu (c : Dev nD) (t : Fin cfg3.N) (i : Fin 10000) (r : Fin 100000)
    (hr : r.val = t.val * 10000 + i.val) :
    iblk3 V c 1 t (ix2 i (0 : Fin 1)) = V c main_v16 (ix2 r (0 : Fin 1)) := by
  obtain ⟨-, -, e2, e3, -, -, e6, -⟩ := index_biasRelu t
  have h : ((cfg3.win 1).blk t).view.emb (ix2 i (0 : Fin 1)) = ix2 r (0 : Fin 1) := by
    funext a; apply Fin.ext
    match a with
    | ⟨0, _⟩ => show win3_1.index t (0 : Fin 2) * 10000 + 1 * i.val = r.val; omega
    | ⟨1, _⟩ => show win3_1.index t (1 : Fin 2) * 1 + 1 * 0 = 0; omega
  show V c main_v16 (((cfg3.win 1).blk t).view.emb (ix2 i (0 : Fin 1))) = V c main_v16 (ix2 r (0 : Fin 1))
  rw [h]

/-- The bias' block at every point is the whole row. -/
theorem bias_block_biasRelu (c : Dev nD) (t : Fin cfg3.N) (k : Fin 32) :
    iblk3 V c 2 t (ix2 (0 : Fin 1) k) = V c main_v34 (ix2 (0 : Fin 1) k) := by
  obtain ⟨-, -, -, -, e4, e5, -⟩ := index_biasRelu t
  have h : ((cfg3.win 2).blk t).view.emb (ix2 (0 : Fin 1) k) = ix2 (0 : Fin 1) k := by
    funext a; apply Fin.ext
    match a with
    | ⟨0, _⟩ => show win3_2.index t (0 : Fin 2) * 1 + 1 * 0 = 0; omega
    | ⟨1, _⟩ => show win3_2.index t (1 : Fin 2) * 32 + 1 * k.val = k.val; omega
  show V c main_v34 (((cfg3.win 2).blk t).view.emb (ix2 (0 : Fin 1) k)) = V c main_v34 (ix2 (0 : Fin 1) k)
  rw [h]

/-- What point `t` writes back is its block of the activation of the arrays the region finds. -/
theorem written_biasRelu (c : Dev nD) (t : Fin cfg3.N) :
    (dat3 (F := Ideal) V c).flushed 3 t
      = ((cfg3.win 3).blk t).view.read (Elt Ideal) (biasRelu 100000 32 (V c main_v33) (V c main_v16) (V c main_v34)) := by
  show (cfg3.win 3).cut (grid3.coords t) ((dat3 (F := Ideal) V c).after 3 t) = _
  rw [after3_3]
  unfold out3_3
  rw [View.canon_unit_zero zero_offsets_biasRelu]
  simp only [View.ld_unit_zero (S := S10000x32) zero_offsets_biasRelu, View.ld_unit_zero (S := S10000x1) zero_offsets_biasRelu,
    View.ld_unit_zero (S := S1x32) zero_offsets_biasRelu]
  obtain ⟨-, -, -, -, -, -, e6, e7⟩ := index_biasRelu t
  have hN : cfg3.N = 10 := N_3
  have ht : t.val < 10 := hN ▸ t.isLt
  funext j
  have h0 : (j 0).val < 10000 := (j 0).isLt
  have h1 : (j 1).val < 32 := (j 1).isLt
  have hrow : t.val * 10000 + (j 0).val < 100000 := by omega
  have hl : (cfg3.win 3).xinj (grid3.coords t) j = ix2 (⟨(j 0).val, h0⟩ : Fin 10000) (⟨(j 1).val, h1⟩ : Fin 32) :=
    funext fun a => Fin.ext (by
      match a with
      | ⟨0, _⟩ => rfl
      | ⟨1, _⟩ => rfl)
  have hr : ((cfg3.win 3).blk t).view.emb j
      = ix2 (⟨t.val * 10000 + (j 0).val, hrow⟩ : Fin 100000) (⟨(j 1).val, h1⟩ : Fin 32) :=
    funext fun a => Fin.ext (by
      match a with
      | ⟨0, _⟩ => show win3_3.index t (0 : Fin 2) * 10000 + 1 * (j 0).val = t.val * 10000 + (j 0).val; omega
      | ⟨1, _⟩ => show win3_3.index t (1 : Fin 2) * 32 + 1 * (j 1).val = (j 1).val; omega)
  show k3_pay1 (iblk3 V c 0 t) (iblk3 V c 1 t) (iblk3 V c 2 t) ((cfg3.win 3).xinj (grid3.coords t) j)
    = biasRelu 100000 32 (V c main_v33) (V c main_v16) (V c main_v34) (((cfg3.win 3).blk t).view.emb j)
  rw [hl, hr, biasRelu_payload, biasRelu_apply,
    features_block_biasRelu V c t ⟨(j 0).val, h0⟩ ⟨(j 1).val, h1⟩ ⟨t.val * 10000 + (j 0).val, hrow⟩ rfl,
    degree_block_biasRelu V c t ⟨(j 0).val, h0⟩ ⟨t.val * 10000 + (j 0).val, hrow⟩ rfl, bias_block_biasRelu]

/-- An index of the result is in point `t`'s block iff each coordinate is in the block's range on its axis. -/
theorem mem_block_biasRelu (t : Fin cfg3.N) (i : S100000x32.Idx) :
    i ∈ ((cfg3.win 3).blk t).view.set
      ↔ ∀ a : Fin 2, win3_3.index t a * S10000x32.size a ≤ (i a).val
          ∧ (i a).val < win3_3.index t a * S10000x32.size a + S10000x32.size a := by
  show i ∈ ((View.whole main_v35).slice (win3_3.rect t)).set ↔ _
  rw [View.set_slice_whole, Rect.mem_set_unit]
  exact Iff.rfl

/-- Every entry of the result is in some point's block: row `r` is in the block of point `r / 10000`. -/
theorem covered_biasRelu (i : S100000x32.Idx) :
    ∃ t : Fin cfg3.N, (cfg3.win 3).flush t = true ∧ i ∈ ((cfg3.win 3).blk t).view.set := by
  have hN : cfg3.N = 10 := N_3
  have h0 : (i 0).val < 100000 := (i 0).isLt
  have h1 : (i 1).val < 32 := (i 1).isLt
  have hq : (i 0).val / 10000 < cfg3.N := by rw [hN]; omega
  obtain ⟨-, -, -, -, -, -, e6, e7⟩ := index_biasRelu ⟨(i 0).val / 10000, hq⟩
  refine ⟨⟨(i 0).val / 10000, hq⟩, flush3_3 _, ?_⟩
  rw [mem_block_biasRelu]
  intro a
  match a with
  | ⟨0, _⟩ =>
    show win3_3.index ⟨(i 0).val / 10000, hq⟩ (0 : Fin 2) * 10000 ≤ (i 0).val
      ∧ (i 0).val < win3_3.index ⟨(i 0).val / 10000, hq⟩ (0 : Fin 2) * 10000 + 10000
    have e : win3_3.index ⟨(i 0).val / 10000, hq⟩ (0 : Fin 2) = (i 0).val / 10000 := e6
    omega
  | ⟨1, _⟩ =>
    show win3_3.index ⟨(i 0).val / 10000, hq⟩ (1 : Fin 2) * 32 ≤ (i 1).val
      ∧ (i 1).val < win3_3.index ⟨(i 0).val / 10000, hq⟩ (1 : Fin 2) * 32 + 32
    omega

/-- THE ACTIVATION REGION'S RESULT: the ten blocks tile the array, which ends holding the activation of the aggregated
    features, the degree column and the bias row as the region finds them. -/
theorem region3_value (c : Dev nD) :
    (dat3 (F := Ideal) V c).arrAt 3 cfg3.N = biasRelu 100000 32 (V c main_v33) (V c main_v16) (V c main_v34) :=
  (dat3 (F := Ideal) V c).arrAt_eq_of_cover 3 (biasRelu 100000 32 (V c main_v33) (V c main_v16) (V c main_v34))
    (fun t _ => written_biasRelu V c t) covered_biasRelu

end Cert.Gcn.K.R3
end
-- ==== Proof.Region4Value.lean ====
import proofs.«423678_j70729521430617_3_alg».proof.Proof.Gen.KernelIdeal.Frame
import proofs.«423678_j70729521430617_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.K.R4
open Cert.KernelIdeal Cert.KernelIdeal.Gen Cert.Gcn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! # The read-out region: its one block is the whole result

The last region runs at one grid point with every window whole: the pooled rows `p` ([512, 32]), the read-out
weights `w` ([1, 32]) and the bias `b` ([1, 1]) in, the column of results ([512, 1]) out. Its body forms
`p · wᵀ + b`: entry `(g, 0)` is `(∑ₖ p(g, k) · w(0, k)) + b(0, 0)`. -/

/-! ## The product's operand indices -/

/-- On its free axis the left operand's index is the result's row. -/
theorem lhs_readOut_0 (i : S512x1.Idx) (q : dot_S512x32_S32x1_S512x1_1_0_0_1_n_n.contr.Idx) :
    (dot_S512x32_S32x1_S512x1_1_0_0_1_n_n.lhsIdx i q 0).val = (i 0).val := by
  unfold DotDims.lhsIdx
  rw [dif_neg (show ¬(0 : Fin S512x32.rank) ∈ dot_S512x32_S32x1_S512x1_1_0_0_1_n_n.lhsBatch by decide),
    dif_pos (show (0 : Fin S512x32.rank) ∈ dot_S512x32_S32x1_S512x1_1_0_0_1_n_n.lhsNonContracting by decide)]
  rfl

/-- On its contracted axis the left operand's index is the summation index. -/
theorem lhs_readOut_1 (i : S512x1.Idx) (q : dot_S512x32_S32x1_S512x1_1_0_0_1_n_n.contr.Idx) :
    (dot_S512x32_S32x1_S512x1_1_0_0_1_n_n.lhsIdx i q 1).val = (q ⟨0, by decide⟩).val :=
  dot_S512x32_S32x1_S512x1_1_0_0_1_n_n.lhsIdx_val_of_single rfl i q

/-- On its contracted axis the right operand's index is the summation index. -/
theorem rhs_readOut_0 (i : S512x1.Idx) (q : dot_S512x32_S32x1_S512x1_1_0_0_1_n_n.contr.Idx) :
    (dot_S512x32_S32x1_S512x1_1_0_0_1_n_n.rhsIdx i q 0).val = (q ⟨0, by decide⟩).val :=
  dot_S512x32_S32x1_S512x1_1_0_0_1_n_n.rhsIdx_val_of_single rfl i q

/-- On its free axis the right operand's index is the result's column. -/
theorem rhs_readOut_1 (i : S512x1.Idx) (q : dot_S512x32_S32x1_S512x1_1_0_0_1_n_n.contr.Idx) :
    (dot_S512x32_S32x1_S512x1_1_0_0_1_n_n.rhsIdx i q 1).val = (i 1).val := by
  unfold DotDims.rhsIdx
  rw [dif_neg (show ¬(1 : Fin S32x1.rank) ∈ dot_S512x32_S32x1_S512x1_1_0_0_1_n_n.rhsBatch by decide),
    dif_pos (show (1 : Fin S32x1.rank) ∈ dot_S512x32_S32x1_S512x1_1_0_0_1_n_n.rhsNonContracting by decide)]
  rfl

/-- The product into a zero accumulator, at row `g`: the sum over the 32 contracted positions of the left operand's
    row `g` against the right operand's column. -/
theorem matmul_readOut_apply (l : FVec Ideal S512x32 .bf16) (r : FVec Ideal S32x1 .bf16) (g : Fin 512) :
    matmul dot_S512x32_S32x1_S512x1_1_0_0_1_n_n none l r (constant S512x1 .f32 0x00000000#32) (ix2 g (0 : Fin 1))
      = ∑ k : Fin 32, l (ix2 g k) * r (ix2 k (0 : Fin 1)) := by
  simp only [matmul]
  rw [Ideal.matmul_constant_zero_apply,
    ← Equiv.sum_comp (contrEquiv1 dot_S512x32_S32x1_S512x1_1_0_0_1_n_n 32 rfl rfl).symm]
  refine Finset.sum_congr rfl fun k _ => ?_
  have hk := contrEquiv1_symm_val dot_S512x32_S32x1_S512x1_1_0_0_1_n_n 32 rfl rfl k
  have el : dot_S512x32_S32x1_S512x1_1_0_0_1_n_n.lhsIdx (ix2 g (0 : Fin 1))
      ((contrEquiv1 dot_S512x32_S32x1_S512x1_1_0_0_1_n_n 32 rfl rfl).symm k) = ix2 g k := funext fun a => Fin.ext (by
    match a with
    | ⟨0, _⟩ => exact lhs_readOut_0 _ _
    | ⟨1, _⟩ => exact (lhs_readOut_1 _ _).trans hk)
  have er : dot_S512x32_S32x1_S512x1_1_0_0_1_n_n.rhsIdx (ix2 g (0 : Fin 1))
      ((contrEquiv1 dot_S512x32_S32x1_S512x1_1_0_0_1_n_n 32 rfl rfl).symm k) = ix2 k (0 : Fin 1) := funext fun a => Fin.ext (by
    match a with
    | ⟨0, _⟩ => exact (rhs_readOut_0 _ _).trans hk
    | ⟨1, _⟩ => exact rhs_readOut_1 _ _)
  rw [el, er]

/-! ## The body's result at a row -/

/-- The body's result at row `g`, of the three loaded blocks: the weights' row is transposed into a column and read
    back at swapped coordinates, the narrowing to bf16 changes no ideal value, the bias' one entry is read at every row. -/
theorem readOut_payload (x0 : Vec Ideal S512x32 .f32) (x1 : Vec Ideal S1x32 .f32) (x2 : Vec Ideal S1x1 .f32) (g : Fin 512) :
    k4_pay1 x0 x1 x2 (ix2 g (0 : Fin 1))
      = (∑ k : Fin 32, x0 (ix2 g k) * x1 (ix2 (0 : Fin 1) k)) + x2 (ix2 (0 : Fin 1) (0 : Fin 1)) := by
  unfold k4_pay1
  simp only [shapeCast_self]
  rw [addf_apply, matmul_readOut_apply, broadcastTo_1b_ab_apply]
  refine congrArg (· + x2 (ix2 (0 : Fin 1) (0 : Fin 1))) (Finset.sum_congr rfl fun k _ => ?_)
  rw [truncf_apply, transpose_ix2_apply, truncf_apply]

/-! ## From the one block to the array -/

/-- The zero offsets, however spelt. -/
theorem zero_offsets_readOut : (![0, 0] : Fin 2 → Nat) = fun _ => 0 := funext fun a => by fin_cases a <;> rfl

/-- At the one grid point every window's block index is zero on both axes. -/
theorem index_readOut : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled rows' block is the whole array: entry `(g, k)` of the block is entry `(g, k)` of the array. -/
theorem pooled_block_readOut (c : Dev nD) (t : Fin cfg4.N) (g : Fin 512) (k : Fin 32) :
    iblk4 V c 0 t (ix2 g k) = V c main_v48 (ix2 g k) := by
  obtain ⟨e0, e1, -⟩ := index_readOut t
  have h : ((cfg4.win 0).blk t).view.emb (ix2 g k) = ix2 g k := by
    funext a; apply Fin.ext
    match a with
    | ⟨0, _⟩ => show win4_0.index t (0 : Fin 2) * 512 + 1 * g.val = g.val; omega
    | ⟨1, _⟩ => show win4_0.index t (1 : Fin 2) * 32 + 1 * k.val = k.val; omega
  show V c main_v48 (((cfg4.win 0).blk t).view.emb (ix2 g k)) = V c main_v48 (ix2 g k)
  rw [h]

/-- The weights' block is the whole row. -/
theorem weights_block_readOut (c : Dev nD) (t : Fin cfg4.N) (k : Fin 32) :
    iblk4 V c 1 t (ix2 (0 : Fin 1) k) = V c main_arg9 (ix2 (0 : Fin 1) k) := by
  obtain ⟨-, -, e0, e1, -⟩ := index_readOut t
  have h : ((cfg4.win 1).blk t).view.emb (ix2 (0 : Fin 1) k) = ix2 (0 : Fin 1) k := by
    funext a; apply Fin.ext
    match a with
    | ⟨0, _⟩ => show win4_1.index t (0 : Fin 2) * 1 + 1 * 0 = 0; omega
    | ⟨1, _⟩ => show win4_1.index t (1 : Fin 2) * 32 + 1 * k.val = k.val; omega
  show V c main_arg9 (((cfg4.win 1).blk t).view.emb (ix2 (0 : Fin 1) k)) = V c main_arg9 (ix2 (0 : Fin 1) k)
  rw [h]

/-- The bias' block is its one entry. -/
theorem bias_block_readOut (c : Dev nD) (t : Fin cfg4.N) :
    iblk4 V c 2 t (ix2 (0 : Fin 1) (0 : Fin 1)) = V c main_v49 (ix2 (0 : Fin 1) (0 : Fin 1)) := by
  obtain ⟨-, -, -, -, e0, e1, -⟩ := index_readOut t
  have h : ((cfg4.win 2).blk t).view.emb (ix2 (0 : Fin 1) (0 : Fin 1)) = ix2 (0 : Fin 1) (0 : Fin 1) := by
    funext a; apply Fin.ext
    match a with
    | ⟨0, _⟩ => show win4_2.index t (0 : Fin 2) * 1 + 1 * 0 = 0; omega
    | ⟨1, _⟩ => show win4_2.index t (1 : Fin 2) * 1 + 1 * 0 = 0; omega
  show V c main_v49 (((cfg4.win 2).blk t).view.emb (ix2 (0 : Fin 1) (0 : Fin 1))) = V c main_v49 (ix2 (0 : Fin 1) (0 : Fin 1))
  rw [h]

/-- What the grid point writes back is its block of the read-out of the arrays the region finds. -/
theorem written_readOut (c : Dev nD) (t : Fin cfg4.N) :
    (dat4 (F := Ideal) V c).flushed 3 t
      = ((cfg4.win 3).blk t).view.read (Elt Ideal) (readOut 512 32 (V c main_v48) (V c main_arg9) (V c main_v49)) := by
  show (cfg4.win 3).cut (grid4.coords t) ((dat4 (F := Ideal) V c).after 3 t) = _
  rw [after4_3]
  unfold out4_3
  rw [View.canon_unit_zero zero_offsets_readOut]
  simp only [View.ld_unit_zero (S := S512x32) zero_offsets_readOut, View.ld_unit_zero (S := S1x32) zero_offsets_readOut,
    View.ld_unit_zero (S := S1x1) zero_offsets_readOut]
  obtain ⟨-, -, -, -, -, -, e0, e1⟩ := index_readOut t
  funext j
  have h0 : (j 0).val < 512 := (j 0).isLt
  have h1 : (j 1).val < 1 := (j 1).isLt
  have hl : (cfg4.win 3).xinj (grid4.coords t) j = ix2 (⟨(j 0).val, h0⟩ : Fin 512) (0 : Fin 1) :=
    funext fun a => Fin.ext (by
      match a with
      | ⟨0, _⟩ => rfl
      | ⟨1, _⟩ => show (j 1).val = 0; omega)
  have hr : ((cfg4.win 3).blk t).view.emb j = ix2 (⟨(j 0).val, h0⟩ : Fin 512) (0 : Fin 1) :=
    funext fun a => Fin.ext (by
      match a with
      | ⟨0, _⟩ => show win4_3.index t (0 : Fin 2) * 512 + 1 * (j 0).val = (j 0).val; omega
      | ⟨1, _⟩ => show win4_3.index t (1 : Fin 2) * 1 + 1 * (j 1).val = 0; omega)
  show k4_pay1 (iblk4 V c 0 t) (iblk4 V c 1 t) (iblk4 V c 2 t) ((cfg4.win 3).xinj (grid4.coords t) j)
    = readOut 512 32 (V c main_v48) (V c main_arg9) (V c main_v49) (((cfg4.win 3).blk t).view.emb j)
  rw [hl, hr, readOut_payload, readOut_apply, bias_block_readOut]
  refine congrArg (· + V c main_v49 (ix2 (0 : Fin 1) (0 : Fin 1))) (Finset.sum_congr rfl fun k _ => ?_)
  rw [pooled_block_readOut, weights_block_readOut]

/-- An index of the result is in the grid point's block iff each coordinate is in the block's range on its axis. -/
theorem mem_block_readOut (t : Fin cfg4.N) (i : S512x1.Idx) :
    i ∈ ((cfg4.win 3).blk t).view.set
      ↔ ∀ a : Fin 2, win4_3.index t a * S512x1.size a ≤ (i a).val
          ∧ (i a).val < win4_3.index t a * S512x1.size a + S512x1.size a := by
  show i ∈ ((View.whole main_v50).slice (win4_3.rect t)).set ↔ _
  rw [View.set_slice_whole, Rect.mem_set_unit]
  exact Iff.rfl

/-- THE READ-OUT REGION'S RESULT: the one block covers the array, which ends holding the read-out of the pooled rows,
    the weights and the bias as the region finds them. -/
theorem region4_value (c : Dev nD) :
    (dat4 (F := Ideal) V c).arrAt 3 cfg4.N = readOut 512 32 (V c main_v48) (V c main_arg9) (V c main_v49) :=
  (dat4 (F := Ideal) V c).arrAt_eq_of_cover 3 (readOut 512 32 (V c main_v48) (V c main_arg9) (V c main_v49))
    (fun t _ => written_readOut V c t) fun i => ⟨t4_0, flush4_3 t4_0, by
      obtain ⟨-, -, -, -, -, -, e0, e1⟩ := index_readOut t4_0
      rw [mem_block_readOut]
      intro a
      have h0 : (i 0).val < 512 := (i 0).isLt
      have h1 : (i 1).val < 1 := (i 1).isLt
      match a with
      | ⟨0, _⟩ =>
        show win4_3.index t4_0 (0 : Fin 2) * 512 ≤ (i 0).val ∧ (i 0).val < win4_3.index t4_0 (0 : Fin 2) * 512 + 512
        omega
      | ⟨1, _⟩ =>
        show win4_3.index t4_0 (1 : Fin 2) * 1 ≤ (i 1).val ∧ (i 1).val < win4_3.index t4_0 (1 : Fin 2) * 1 + 1
        omega⟩

end Cert.Gcn.K.R4
end
-- ==== Proof.KernelValue.lean ====
/-
  The kernel's program, run: what its result buffer holds, as one closed function of the eleven arguments.

  @main is fifteen segments: stretches of host operations and five launched regions. The contents of the buffers at
  each boundary are a fold from the launch memory. A host stretch leaves in each buffer it writes its operation's
  value of the operands' contents and leaves every other buffer alone; a region leaves in its output array the
  region's closed function of its input arrays as it found them and leaves every other buffer alone. Reading the
  result buffer back through the fold, boundary by boundary, composes these into the whole computation:
  the normalising column and the two index vectors from the edge list; three times a dense stage, the row gather
  at the sources and the sum over arriving edges; the last bias and rectifier; the mean pooling; the read-out.
-/
import proofs.«423678_j70729521430617_3_alg».proof.Proof.Gen.KernelIdeal.Frame
import proofs.«423678_j70729521430617_3_alg».proof.Proof.KernelStages
import proofs.«423678_j70729521430617_3_alg».proof.Proof.Region0Value
import proofs.«423678_j70729521430617_3_alg».proof.Proof.Region1Value
import proofs.«423678_j70729521430617_3_alg».proof.Proof.Region2Value
import proofs.«423678_j70729521430617_3_alg».proof.Proof.Region3Value
import proofs.«423678_j70729521430617_3_alg».proof.Proof.Region4Value
import Idealize.ShloMosaic.Lib.StableHlo.Run

set_option maxRecDepth 16384

noncomputable section

namespace Cert.Gcn.K

open Cert.KernelIdeal Cert.KernelIdeal.Gen Cert.Gcn
open Idealize.ShloMosaic Idealize.ShloMosaic.TcCoe Idealize.SL.Sem Idealize.ShloMosaic.StableHlo

/-! ## What a host stretch leaves, from any contents -/

section Stretches

variable (Vp : Valuation τ sig (Elt Ideal))

/-- The buffers that are never written again once the first region is entered: the arguments, the two index vectors
    and the normalising column. -/
def live : List (Ref sig .tc) :=
  [main_arg0, main_arg2, main_arg3, main_arg4, main_arg5, main_arg6, main_arg7, main_arg8, main_arg9, main_arg10,
    main_v3, main_v6, main_v16]

theorem mem_live {b : Ref sig .tc} (hb : b ∈ live) :
    b = main_arg0 ∨ b = main_arg2 ∨ b = main_arg3 ∨ b = main_arg4 ∨ b = main_arg5 ∨ b = main_arg6 ∨ b = main_arg7
      ∨ b = main_arg8 ∨ b = main_arg9 ∨ b = main_arg10 ∨ b = main_v3 ∨ b = main_v6 ∨ b = main_v16 := by
  simpa [live] using hb

theorem keep_hostOps1 : ∀ b ∈ live, after hostOps1 Vp (Proc.devRef .tc b) = Vp (Proc.devRef .tc b) := by
  intro b hb
  rcases mem_live hb with rfl | rfl | rfl | rfl | rfl | rfl | rfl | rfl | rfl | rfl | rfl | rfl | rfl <;> after_results
theorem keep_hostOps1_1 : ∀ b ∈ live, after hostOps1_1 Vp (Proc.devRef .tc b) = Vp (Proc.devRef .tc b) := by
  intro b hb
  rcases mem_live hb with rfl | rfl | rfl | rfl | rfl | rfl | rfl | rfl | rfl | rfl | rfl | rfl | rfl <;> after_results
theorem keep_hostOps2 : ∀ b ∈ live, after hostOps2 Vp (Proc.devRef .tc b) = Vp (Proc.devRef .tc b) := by
  intro b hb
  rcases mem_live hb with rfl | rfl | rfl | rfl | rfl | rfl | rfl | rfl | rfl | rfl | rfl | rfl | rfl <;> after_results
theorem keep_hostOps2_1 : ∀ b ∈ live, after hostOps2_1 Vp (Proc.devRef .tc b) = Vp (Proc.devRef .tc b) := by
  intro b hb
  rcases mem_live hb with rfl | rfl | rfl | rfl | rfl | rfl | rfl | rfl | rfl | rfl | rfl | rfl | rfl <;> after_results
theorem keep_hostOps3 : ∀ b ∈ live, after hostOps3 Vp (Proc.devRef .tc b) = Vp (Proc.devRef .tc b) := by
  intro b hb
  rcases mem_live hb with rfl | rfl | rfl | rfl | rfl | rfl | rfl | rfl | rfl | rfl | rfl | rfl | rfl <;> after_results
theorem keep_hostOps3_1 : ∀ b ∈ live, after hostOps3_1 Vp (Proc.devRef .tc b) = Vp (Proc.devRef .tc b) := by
  intro b hb
  rcases mem_live hb with rfl | rfl | rfl | rfl | rfl | rfl | rfl | rfl | rfl | rfl | rfl | rfl | rfl <;> after_results
theorem keep_hostOps4 : ∀ b ∈ live, after hostOps4 Vp (Proc.devRef .tc b) = Vp (Proc.devRef .tc b) := by
  intro b hb
  rcases mem_live hb with rfl | rfl | rfl | rfl | rfl | rfl | rfl | rfl | rfl | rfl | rfl | rfl | rfl <;> after_results

/-- Before the first region: the arguments cross the first stretch; they and the index vectors cross the next two. -/
theorem keep_hostOps0 : ∀ b ∈ [main_arg0, main_arg2, main_arg3, main_arg4, main_arg5, main_arg6, main_arg7, main_arg8, main_arg9, main_arg10],
    after hostOps0 Vp (Proc.devRef .tc b) = Vp (Proc.devRef .tc b) := by
  intro b hb
  have hb' : b = main_arg0 ∨ b = main_arg2 ∨ b = main_arg3 ∨ b = main_arg4 ∨ b = main_arg5 ∨ b = main_arg6 ∨ b = main_arg7
      ∨ b = main_arg8 ∨ b = main_arg9 ∨ b = main_arg10 := by simpa using hb
  rcases hb' with rfl | rfl | rfl | rfl | rfl | rfl | rfl | rfl | rfl | rfl <;> after_results
theorem keep_hostOps0_1 : ∀ b ∈ live, after hostOps0_1 Vp (Proc.devRef .tc b) = Vp (Proc.devRef .tc b) := by
  intro b hb
  rcases mem_live hb with rfl | rfl | rfl | rfl | rfl | rfl | rfl | rfl | rfl | rfl | rfl | rfl | rfl <;> after_results
theorem keep_hostOps0_2 : ∀ b ∈ live, b ≠ main_v16 → after hostOps0_2 Vp (Proc.devRef .tc b) = Vp (Proc.devRef .tc b) := by
  intro b hb hne
  rcases mem_live hb with rfl | rfl | rfl | rfl | rfl | rfl | rfl | rfl | rfl | rfl | rfl | rfl | rfl
  all_goals first | exact absurd rfl hne | after_results

/-! ### The three row gathers as plain operations

The program's row gather is an outlined function whose operations are written through typed references: each
reads its operands and writes its result through a transport along "this buffer has this type". The transports
are identities, and the same operations written without them are the same list; the mask's reduction is compared
with the function it applies held abstract. -/

/-- The 32-column row gather of call 1, as plain operations on the same buffers. -/
abbrev takeOps1 : List (HloOp τ sig (Elt Ideal)) :=
  [ StableHlo.nullary main_call1_c (constantI S_ 32 0#32 : (⟨S_, .i32⟩ : BufTy).Contents (Elt Ideal)),
    StableHlo.unary main_call1_c main_call1_v0 (broadcastInDim S1700000 ![] bcast_S_S1700000 : (⟨S_, .i32⟩ : BufTy).Contents (Elt Ideal) → (⟨S1700000, .i32⟩ : BufTy).Contents (Elt Ideal)),
    StableHlo.binary main_v3 main_call1_v0 main_call1_v1 (cmpi .slt : (⟨S1700000, .i32⟩ : BufTy).Contents (Elt Ideal) → (⟨S1700000, .i32⟩ : BufTy).Contents (Elt Ideal) → (⟨S1700000, .i1⟩ : BufTy).Contents (Elt Ideal)),
    StableHlo.nullary main_call1_c_0 (constantI S_ 32 100000#32 : (⟨S_, .i32⟩ : BufTy).Contents (Elt Ideal)),
    StableHlo.unary main_call1_c_0 main_call1_v2 (broadcastInDim S1700000 ![] bcast_S_S1700000 : (⟨S_, .i32⟩ : BufTy).Contents (Elt Ideal) → (⟨S1700000, .i32⟩ : BufTy).Contents (Elt Ideal)),
    StableHlo.binary main_v3 main_call1_v2 main_call1_v3 (addi : (⟨S1700000, .i32⟩ : BufTy).Contents (Elt Ideal) → (⟨S1700000, .i32⟩ : BufTy).Contents (Elt Ideal) → (⟨S1700000, .i32⟩ : BufTy).Contents (Elt Ideal)),
    StableHlo.ternary main_call1_v1 main_call1_v3 main_v3 main_call1_v4 (select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)),
    StableHlo.unary main_call1_v4 main_call1_v5 (broadcastInDim S1700000x1 ![0] bcast_S1700000_S1700000x1_0 : (⟨S1700000, .i32⟩ : BufTy).Contents (Elt Ideal) → (⟨S1700000x1, .i32⟩ : BufTy).Contents (Elt Ideal)),
    StableHlo.nullary main_call1_c_1 (constantI S1 32 99999#32 : (⟨S1, .i32⟩ : BufTy).Contents (Elt Ideal)),
    StableHlo.nullary main_call1_c_2 (constantI S_ 32 0#32 : (⟨S_, .i32⟩ : BufTy).Contents (Elt Ideal)),
    StableHlo.unary main_call1_c_2 main_call1_v6 (broadcastInDim S1700000x1 ![] bcast_S_S1700000x1 : (⟨S_, .i32⟩ : BufTy).Contents (Elt Ideal) → (⟨S1700000x1, .i32⟩ : BufTy).Contents (Elt Ideal)),
    StableHlo.binary main_call1_v5 main_call1_v6 main_call1_v7 (cmpi .sge : (⟨S1700000x1, .i32⟩ : BufTy).Contents (Elt Ideal) → (⟨S1700000x1, .i32⟩ : BufTy).Contents (Elt Ideal) → (⟨S1700000x1, .i1⟩ : BufTy).Contents (Elt Ideal)),
    StableHlo.unary main_call1_c_1 main_call1_v8 (broadcastInDim S1x1 ![1] bcast_S1_S1x1_1 : (⟨S1, .i32⟩ : BufTy).Contents (Elt Ideal) → (⟨S1x1, .i32⟩ : BufTy).Contents (Elt Ideal)),
    StableHlo.unary main_call1_v8 main_call1_v9 (broadcastInDim S1700000x1 ![0, 1] bcast_S1x1_S1700000x1_0_1 : (⟨S1x1, .i32⟩ : BufTy).Contents (Elt Ideal) → (⟨S1700000x1, .i32⟩ : BufTy).Contents (Elt Ideal)),
    StableHlo.binary main_call1_v5 main_call1_v9 main_call1_v10 (cmpi .sle : (⟨S1700000x1, .i32⟩ : BufTy).Contents (Elt Ideal) → (⟨S1700000x1, .i32⟩ : BufTy).Contents (Elt Ideal) → (⟨S1700000x1, .i1⟩ : BufTy).Contents (Elt Ideal)),
    StableHlo.binary main_call1_v7 main_call1_v10 main_call1_v11 (andi : (⟨S1700000x1, .i1⟩ : BufTy).Contents (Elt Ideal) → (⟨S1700000x1, .i1⟩ : BufTy).Contents (Elt Ideal) → (⟨S1700000x1, .i1⟩ : BufTy).Contents (Elt Ideal)),
    StableHlo.nullary main_call1_c_3 (constantI S_ 1 1#1 : (⟨S_, .i1⟩ : BufTy).Contents (Elt Ideal)),
    StableHlo.binary main_call1_v11 main_call1_c_3 main_call1_v12 ((fun x v => Host.reduce IntOp.andi x v reducesTo_S1700000x1_S1700000_d1 h_S_) : (⟨S1700000x1, .i1⟩ : BufTy).Contents (Elt Ideal) → (⟨S_, .i1⟩ : BufTy).Contents (Elt Ideal) → (⟨S1700000, .i1⟩ : BufTy).Contents (Elt Ideal)),
    StableHlo.binary main_v17 main_call1_v5 main_call1_v13 ((fun x i => Host.gather gather_S100000x32_S1700000x1_S1700000x32_1_0_n_n_0_1_132 x i) : (⟨S100000x32, .f32⟩ : BufTy).Contents (Elt Ideal) → (⟨S1700000x1, .i32⟩ : BufTy).Contents (Elt Ideal) → (⟨S1700000x32, .f32⟩ : BufTy).Contents (Elt Ideal)),
    StableHlo.unary main_call1_v12 main_call1_v14 (broadcastInDim S1700000x32 ![0] bcast_S1700000_S1700000x32_0 : (⟨S1700000, .i1⟩ : BufTy).Contents (Elt Ideal) → (⟨S1700000x32, .i1⟩ : BufTy).Contents (Elt Ideal)),
    StableHlo.nullary main_call1_cst (constant (F := Ideal) S_ .f32 0x7FC00000#32 : (⟨S_, .f32⟩ : BufTy).Contents (Elt Ideal)),
    StableHlo.unary main_call1_cst main_call1_v15 (broadcastInDim S1700000x32 ![] bcast_S_S1700000x32 : (⟨S_, .f32⟩ : BufTy).Contents (Elt Ideal) → (⟨S1700000x32, .f32⟩ : BufTy).Contents (Elt Ideal)),
    StableHlo.ternary main_call1_v14 main_call1_v13 main_call1_v15 main_v18 (select : (⟨S1700000x32, .i1⟩ : BufTy).Contents (Elt Ideal) → (⟨S1700000x32, .f32⟩ : BufTy).Contents (Elt Ideal) → (⟨S1700000x32, .f32⟩ : BufTy).Contents (Elt Ideal) → (⟨S1700000x32, .f32⟩ : BufTy).Contents (Elt Ideal)) ]

/-- The 64-column row gather of call 2, as plain operations on the same buffers. -/
abbrev takeOps2 : List (HloOp τ sig (Elt Ideal)) :=
  [ StableHlo.nullary main_call2_c (constantI S_ 32 0#32 : (⟨S_, .i32⟩ : BufTy).Contents (Elt Ideal)),
    StableHlo.unary main_call2_c main_call2_v0 (broadcastInDim S1700000 ![] bcast_S_S1700000 : (⟨S_, .i32⟩ : BufTy).Contents (Elt Ideal) → (⟨S1700000, .i32⟩ : BufTy).Contents (Elt Ideal)),
    StableHlo.binary main_v3 main_call2_v0 main_call2_v1 (cmpi .slt : (⟨S1700000, .i32⟩ : BufTy).Contents (Elt Ideal) → (⟨S1700000, .i32⟩ : BufTy).Contents (Elt Ideal) → (⟨S1700000, .i1⟩ : BufTy).Contents (Elt Ideal)),
    StableHlo.nullary main_call2_c_0 (constantI S_ 32 100000#32 : (⟨S_, .i32⟩ : BufTy).Contents (Elt Ideal)),
    StableHlo.unary main_call2_c_0 main_call2_v2 (broadcastInDim S1700000 ![] bcast_S_S1700000 : (⟨S_, .i32⟩ : BufTy).Contents (Elt Ideal) → (⟨S1700000, .i32⟩ : BufTy).Contents (Elt Ideal)),
    StableHlo.binary main_v3 main_call2_v2 main_call2_v3 (addi : (⟨S1700000, .i32⟩ : BufTy).Contents (Elt Ideal) → (⟨S1700000, .i32⟩ : BufTy).Contents (Elt Ideal) → (⟨S1700000, .i32⟩ : BufTy).Contents (Elt Ideal)),
    StableHlo.ternary main_call2_v1 main_call2_v3 main_v3 main_call2_v4 (select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)),
    StableHlo.unary main_call2_v4 main_call2_v5 (broadcastInDim S1700000x1 ![0] bcast_S1700000_S1700000x1_0 : (⟨S1700000, .i32⟩ : BufTy).Contents (Elt Ideal) → (⟨S1700000x1, .i32⟩ : BufTy).Contents (Elt Ideal)),
    StableHlo.nullary main_call2_c_1 (constantI S1 32 99999#32 : (⟨S1, .i32⟩ : BufTy).Contents (Elt Ideal)),
    StableHlo.nullary main_call2_c_2 (constantI S_ 32 0#32 : (⟨S_, .i32⟩ : BufTy).Contents (Elt Ideal)),
    StableHlo.unary main_call2_c_2 main_call2_v6 (broadcastInDim S1700000x1 ![] bcast_S_S1700000x1 : (⟨S_, .i32⟩ : BufTy).Contents (Elt Ideal) → (⟨S1700000x1, .i32⟩ : BufTy).Contents (Elt Ideal)),
    StableHlo.binary main_call2_v5 main_call2_v6 main_call2_v7 (cmpi .sge : (⟨S1700000x1, .i32⟩ : BufTy).Contents (Elt Ideal) → (⟨S1700000x1, .i32⟩ : BufTy).Contents (Elt Ideal) → (⟨S1700000x1, .i1⟩ : BufTy).Contents (Elt Ideal)),
    StableHlo.unary main_call2_c_1 main_call2_v8 (broadcastInDim S1x1 ![1] bcast_S1_S1x1_1 : (⟨S1, .i32⟩ : BufTy).Contents (Elt Ideal) → (⟨S1x1, .i32⟩ : BufTy).Contents (Elt Ideal)),
    StableHlo.unary main_call2_v8 main_call2_v9 (broadcastInDim S1700000x1 ![0, 1] bcast_S1x1_S1700000x1_0_1 : (⟨S1x1, .i32⟩ : BufTy).Contents (Elt Ideal) → (⟨S1700000x1, .i32⟩ : BufTy).Contents (Elt Ideal)),
    StableHlo.binary main_call2_v5 main_call2_v9 main_call2_v10 (cmpi .sle : (⟨S1700000x1, .i32⟩ : BufTy).Contents (Elt Ideal) → (⟨S1700000x1, .i32⟩ : BufTy).Contents (Elt Ideal) → (⟨S1700000x1, .i1⟩ : BufTy).Contents (Elt Ideal)),
    StableHlo.binary main_call2_v7 main_call2_v10 main_call2_v11 (andi : (⟨S1700000x1, .i1⟩ : BufTy).Contents (Elt Ideal) → (⟨S1700000x1, .i1⟩ : BufTy).Contents (Elt Ideal) → (⟨S1700000x1, .i1⟩ : BufTy).Contents (Elt Ideal)),
    StableHlo.nullary main_call2_c_3 (constantI S_ 1 1#1 : (⟨S_, .i1⟩ : BufTy).Contents (Elt Ideal)),
    StableHlo.binary main_call2_v11 main_call2_c_3 main_call2_v12 ((fun x v => Host.reduce IntOp.andi x v reducesTo_S1700000x1_S1700000_d1 h_S_) : (⟨S1700000x1, .i1⟩ : BufTy).Contents (Elt Ideal) → (⟨S_, .i1⟩ : BufTy).Contents (Elt Ideal) → (⟨S1700000, .i1⟩ : BufTy).Contents (Elt Ideal)),
    StableHlo.binary main_v23 main_call2_v5 main_call2_v13 ((fun x i => Host.gather gather_S100000x64_S1700000x1_S1700000x64_1_0_n_n_0_1_164 x i) : (⟨S100000x64, .f32⟩ : BufTy).Contents (Elt Ideal) → (⟨S1700000x1, .i32⟩ : BufTy).Contents (Elt Ideal) → (⟨S1700000x64, .f32⟩ : BufTy).Contents (Elt Ideal)),
    StableHlo.unary main_call2_v12 main_call2_v14 (broadcastInDim S1700000x64 ![0] bcast_S1700000_S1700000x64_0 : (⟨S1700000, .i1⟩ : BufTy).Contents (Elt Ideal) → (⟨S1700000x64, .i1⟩ : BufTy).Contents (Elt Ideal)),
    StableHlo.nullary main_call2_cst (constant (F := Ideal) S_ .f32 0x7FC00000#32 : (⟨S_, .f32⟩ : BufTy).Contents (Elt Ideal)),
    StableHlo.unary main_call2_cst main_call2_v15 (broadcastInDim S1700000x64 ![] bcast_S_S1700000x64 : (⟨S_, .f32⟩ : BufTy).Contents (Elt Ideal) → (⟨S1700000x64, .f32⟩ : BufTy).Contents (Elt Ideal)),
    StableHlo.ternary main_call2_v14 main_call2_v13 main_call2_v15 main_v24 (select : (⟨S1700000x64, .i1⟩ : BufTy).Contents (Elt Ideal) → (⟨S1700000x64, .f32⟩ : BufTy).Contents (Elt Ideal) → (⟨S1700000x64, .f32⟩ : BufTy).Contents (Elt Ideal) → (⟨S1700000x64, .f32⟩ : BufTy).Contents (Elt Ideal)) ]

/-- The 32-column row gather of call 3, as plain operations on the same buffers. -/
abbrev takeOps3 : List (HloOp τ sig (Elt Ideal)) :=
  [ StableHlo.nullary main_call3_c (constantI S_ 32 0#32 : (⟨S_, .i32⟩ : BufTy).Contents (Elt Ideal)),
    StableHlo.unary main_call3_c main_call3_v0 (broadcastInDim S1700000 ![] bcast_S_S1700000 : (⟨S_, .i32⟩ : BufTy).Contents (Elt Ideal) → (⟨S1700000, .i32⟩ : BufTy).Contents (Elt Ideal)),
    StableHlo.binary main_v3 main_call3_v0 main_call3_v1 (cmpi .slt : (⟨S1700000, .i32⟩ : BufTy).Contents (Elt Ideal) → (⟨S1700000, .i32⟩ : BufTy).Contents (Elt Ideal) → (⟨S1700000, .i1⟩ : BufTy).Contents (Elt Ideal)),
    StableHlo.nullary main_call3_c_0 (constantI S_ 32 100000#32 : (⟨S_, .i32⟩ : BufTy).Contents (Elt Ideal)),
    StableHlo.unary main_call3_c_0 main_call3_v2 (broadcastInDim S1700000 ![] bcast_S_S1700000 : (⟨S_, .i32⟩ : BufTy).Contents (Elt Ideal) → (⟨S1700000, .i32⟩ : BufTy).Contents (Elt Ideal)),
    StableHlo.binary main_v3 main_call3_v2 main_call3_v3 (addi : (⟨S1700000, .i32⟩ : BufTy).Contents (Elt Ideal) → (⟨S1700000, .i32⟩ : BufTy).Contents (Elt Ideal) → (⟨S1700000, .i32⟩ : BufTy).Contents (Elt Ideal)),
    StableHlo.ternary main_call3_v1 main_call3_v3 main_v3 main_call3_v4 (select : (⟨S1700000, .i1⟩ : BufTy).Contents (Elt Ideal) → (⟨S1700000, .i32⟩ : BufTy).Contents (Elt Ideal) → (⟨S1700000, .i32⟩ : BufTy).Contents (Elt Ideal) → (⟨S1700000, .i32⟩ : BufTy).Contents (Elt Ideal)),
    StableHlo.unary main_call3_v4 main_call3_v5 (broadcastInDim S1700000x1 ![0] bcast_S1700000_S1700000x1_0 : (⟨S1700000, .i32⟩ : BufTy).Contents (Elt Ideal) → (⟨S1700000x1, .i32⟩ : BufTy).Contents (Elt Ideal)),
    StableHlo.nullary main_call3_c_1 (constantI S1 32 99999#32 : (⟨S1, .i32⟩ : BufTy).Contents (Elt Ideal)),
    StableHlo.nullary main_call3_c_2 (constantI S_ 32 0#32 : (⟨S_, .i32⟩ : BufTy).Contents (Elt Ideal)),
    StableHlo.unary main_call3_c_2 main_call3_v6 (broadcastInDim S1700000x1 ![] bcast_S_S1700000x1 : (⟨S_, .i32⟩ : BufTy).Contents (Elt Ideal) → (⟨S1700000x1, .i32⟩ : BufTy).Contents (Elt Ideal)),
    StableHlo.binary main_call3_v5 main_call3_v6 main_call3_v7 (cmpi .sge : (⟨S1700000x1, .i32⟩ : BufTy).Contents (Elt Ideal) → (⟨S1700000x1, .i32⟩ : BufTy).Contents (Elt Ideal) → (⟨S1700000x1, .i1⟩ : BufTy).Contents (Elt Ideal)),
    StableHlo.unary main_call3_c_1 main_call3_v8 (broadcastInDim S1x1 ![1] bcast_S1_S1x1_1 : (⟨S1, .i32⟩ : BufTy).Contents (Elt Ideal) → (⟨S1x1, .i32⟩ : BufTy).Contents (Elt Ideal)),
    StableHlo.unary main_call3_v8 main_call3_v9 (broadcastInDim S1700000x1 ![0, 1] bcast_S1x1_S1700000x1_0_1 : (⟨S1x1, .i32⟩ : BufTy).Contents (Elt Ideal) → (⟨S1700000x1, .i32⟩ : BufTy).Contents (Elt Ideal)),
    StableHlo.binary main_call3_v5 main_call3_v9 main_call3_v10 (cmpi .sle : (⟨S1700000x1, .i32⟩ : BufTy).Contents (Elt Ideal) → (⟨S1700000x1, .i32⟩ : BufTy).Contents (Elt Ideal) → (⟨S1700000x1, .i1⟩ : BufTy).Contents (Elt Ideal)),
    StableHlo.binary main_call3_v7 main_call3_v10 main_call3_v11 (andi : (⟨S1700000x1, .i1⟩ : BufTy).Contents (Elt Ideal) → (⟨S1700000x1, .i1⟩ : BufTy).Contents (Elt Ideal) → (⟨S1700000x1, .i1⟩ : BufTy).Contents (Elt Ideal)),
    StableHlo.nullary main_call3_c_3 (constantI S_ 1 1#1 : (⟨S_, .i1⟩ : BufTy).Contents (Elt Ideal)),
    StableHlo.binary main_call3_v11 main_call3_c_3 main_call3_v12 ((fun x v => Host.reduce IntOp.andi x v reducesTo_S1700000x1_S1700000_d1 h_S_) : (⟨S1700000x1, .i1⟩ : BufTy).Contents (Elt Ideal) → (⟨S_, .i1⟩ : BufTy).Contents (Elt Ideal) → (⟨S1700000, .i1⟩ : BufTy).Contents (Elt Ideal)),
    StableHlo.binary main_v29 main_call3_v5 main_call3_v13 ((fun x i => Host.gather gather_S100000x32_S1700000x1_S1700000x32_1_0_n_n_0_1_132 x i) : (⟨S100000x32, .f32⟩ : BufTy).Contents (Elt Ideal) → (⟨S1700000x1, .i32⟩ : BufTy).Contents (Elt Ideal) → (⟨S1700000x32, .f32⟩ : BufTy).Contents (Elt Ideal)),
    StableHlo.unary main_call3_v12 main_call3_v14 (broadcastInDim S1700000x32 ![0] bcast_S1700000_S1700000x32_0 : (⟨S1700000, .i1⟩ : BufTy).Contents (Elt Ideal) → (⟨S1700000x32, .i1⟩ : BufTy).Contents (Elt Ideal)),
    StableHlo.nullary main_call3_cst (constant (F := Ideal) S_ .f32 0x7FC00000#32 : (⟨S_, .f32⟩ : BufTy).Contents (Elt Ideal)),
    StableHlo.unary main_call3_cst main_call3_v15 (broadcastInDim S1700000x32 ![] bcast_S_S1700000x32 : (⟨S_, .f32⟩ : BufTy).Contents (Elt Ideal) → (⟨S1700000x32, .f32⟩ : BufTy).Contents (Elt Ideal)),
    StableHlo.ternary main_call3_v14 main_call3_v13 main_call3_v15 main_v30 (select : (⟨S1700000x32, .i1⟩ : BufTy).Contents (Elt Ideal) → (⟨S1700000x32, .f32⟩ : BufTy).Contents (Elt Ideal) → (⟨S1700000x32, .f32⟩ : BufTy).Contents (Elt Ideal) → (⟨S1700000x32, .f32⟩ : BufTy).Contents (Elt Ideal)) ]

/-- The mask's reduction of call 1 written through typed references is the plain operation, whatever function it applies. -/
theorem maskOp1 (g : (⟨S1700000x1, .i1⟩ : BufTy).Contents (Elt Ideal) → (⟨S_, .i1⟩ : BufTy).Contents (Elt Ideal) → (⟨S1700000, .i1⟩ : BufTy).Contents (Elt Ideal)) :
    (StableHlo.TRef.binary (.of main_call1_v11 : StableHlo.TRef sig ⟨S1700000x1, .i1⟩) (.of main_call1_c_3 : StableHlo.TRef sig ⟨S_, .i1⟩)
        (.of main_call1_v12 : StableHlo.TRef sig ⟨S1700000, .i1⟩) g : HloOp τ sig (Elt Ideal))
      = StableHlo.binary main_call1_v11 main_call1_c_3 main_call1_v12 g := rfl

/-- The mask's reduction of call 2 written through typed references is the plain operation, whatever function it applies. -/
theorem maskOp2 (g : (⟨S1700000x1, .i1⟩ : BufTy).Contents (Elt Ideal) → (⟨S_, .i1⟩ : BufTy).Contents (Elt Ideal) → (⟨S1700000, .i1⟩ : BufTy).Contents (Elt Ideal)) :
    (StableHlo.TRef.binary (.of main_call2_v11 : StableHlo.TRef sig ⟨S1700000x1, .i1⟩) (.of main_call2_c_3 : StableHlo.TRef sig ⟨S_, .i1⟩)
        (.of main_call2_v12 : StableHlo.TRef sig ⟨S1700000, .i1⟩) g : HloOp τ sig (Elt Ideal))
      = StableHlo.binary main_call2_v11 main_call2_c_3 main_call2_v12 g := rfl

/-- The mask's reduction of call 3 written through typed references is the plain operation, whatever function it applies. -/
theorem maskOp3 (g : (⟨S1700000x1, .i1⟩ : BufTy).Contents (Elt Ideal) → (⟨S_, .i1⟩ : BufTy).Contents (Elt Ideal) → (⟨S1700000, .i1⟩ : BufTy).Contents (Elt Ideal)) :
    (StableHlo.TRef.binary (.of main_call3_v11 : StableHlo.TRef sig ⟨S1700000x1, .i1⟩) (.of main_call3_c_3 : StableHlo.TRef sig ⟨S_, .i1⟩)
        (.of main_call3_v12 : StableHlo.TRef sig ⟨S1700000, .i1⟩) g : HloOp τ sig (Elt Ideal))
      = StableHlo.binary main_call3_v11 main_call3_c_3 main_call3_v12 g := rfl

theorem hostOps1_plain : (hostOps1 : List (HloOp τ sig (Elt Ideal))) = takeOps1 :=
  List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨maskOp1 _, List.cons_eq_cons.2 ⟨rfl, List.cons_eq_cons.2 ⟨rfl, List.cons_eq_cons.2 ⟨rfl, List.cons_eq_cons.2 ⟨rfl, List.cons_eq_cons.2 ⟨rfl, rfl⟩⟩⟩⟩⟩⟩⟩⟩⟩⟩⟩⟩⟩⟩⟩⟩⟩⟩⟩⟩⟩⟩⟩
theorem hostOps2_plain : (hostOps2 : List (HloOp τ sig (Elt Ideal))) = takeOps2 :=
  List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨maskOp2 _, List.cons_eq_cons.2 ⟨rfl, List.cons_eq_cons.2 ⟨rfl, List.cons_eq_cons.2 ⟨rfl, List.cons_eq_cons.2 ⟨rfl, List.cons_eq_cons.2 ⟨rfl, rfl⟩⟩⟩⟩⟩⟩⟩⟩⟩⟩⟩⟩⟩⟩⟩⟩⟩⟩⟩⟩⟩⟩⟩
theorem hostOps3_plain : (hostOps3 : List (HloOp τ sig (Elt Ideal))) = takeOps3 :=
  List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨rfl, List.cons_eq_cons.2 ⟨maskOp3 _, List.cons_eq_cons.2 ⟨rfl, List.cons_eq_cons.2 ⟨rfl, List.cons_eq_cons.2 ⟨rfl, List.cons_eq_cons.2 ⟨rfl, List.cons_eq_cons.2 ⟨rfl, rfl⟩⟩⟩⟩⟩⟩⟩⟩⟩⟩⟩⟩⟩⟩⟩⟩⟩⟩⟩⟩⟩⟩⟩

/-! ### What each stretch writes -/

theorem st0_v3 : after hostOps0 Vp (Proc.devRef .tc main_v3) = srcVec (Vp (Proc.devRef .tc main_arg1)) := by
  after_results; rfl
theorem st0_v6 : after hostOps0 Vp (Proc.devRef .tc main_v6) = dstVec (Vp (Proc.devRef .tc main_arg1)) := by
  after_results; rfl
theorem st0_v13 : after hostOps0 Vp (Proc.devRef .tc main_v13)
    = cmpf (F := Ideal) .ogt (sitofp (F := Ideal) .f32 (degWord (Vp (Proc.devRef .tc main_arg1))))
        (broadcastInDim S100000 ![] bcast_S_S100000 (constant (F := Ideal) S_ .f32 0x00000000#32)) := by
  after_results; rfl
theorem st0_v14 : after hostOps0 Vp (Proc.devRef .tc main_v14)
    = Host.rsqrt (sitofp (F := Ideal) .f32 (degWord (Vp (Proc.devRef .tc main_arg1)))) := by
  after_results; rfl
theorem st0_cst1 : after hostOps0 Vp (Proc.devRef .tc main_cst_1) = constant (F := Ideal) S_ .f32 0x00000000#32 := by
  after_results
theorem st01_v15 : after hostOps0_1 Vp (Proc.devRef .tc main_v15)
    = select (Vp (Proc.devRef .tc main_v13)) (Vp (Proc.devRef .tc main_v14))
        (broadcastInDim S100000 ![] bcast_S_S100000 (Vp (Proc.devRef .tc main_cst_1))) := by
  after_results
  simp only [TRef.ofBuf, TRef.toBuf, cast_eq]
  rfl
theorem st02_v16 : after hostOps0_2 Vp (Proc.devRef .tc main_v16)
    = shapeCast S100000x1 (Vp (Proc.devRef .tc main_v15)) shapeCasts_S100000_S100000x1 := by
  after_results; rfl

theorem st1_v18 : after hostOps1 Vp (Proc.devRef .tc main_v18)
    = take32 (F := Ideal) (Vp (Proc.devRef .tc main_v17)) (Vp (Proc.devRef .tc main_v3)) := by
  refine (congrArg (fun l => after l Vp (Proc.devRef .tc main_v18)) hostOps1_plain).trans ?_
  after_results_simp <;> rfl
theorem st11_v21 : after hostOps1_1 Vp (Proc.devRef .tc main_v21)
    = agg32 (Vp (Proc.devRef .tc main_v18)) (Vp (Proc.devRef .tc main_v6)) := by
  after_results_simp <;> rfl
theorem st11_v22 : after hostOps1_1 Vp (Proc.devRef .tc main_v22) = biasRow32 (Vp (Proc.devRef .tc main_arg4)) := by
  after_results_simp <;> rfl
theorem st2_v24 : after hostOps2 Vp (Proc.devRef .tc main_v24)
    = take64 (F := Ideal) (Vp (Proc.devRef .tc main_v23)) (Vp (Proc.devRef .tc main_v3)) := by
  refine (congrArg (fun l => after l Vp (Proc.devRef .tc main_v24)) hostOps2_plain).trans ?_
  after_results_simp <;> rfl
theorem st21_v27 : after hostOps2_1 Vp (Proc.devRef .tc main_v27)
    = agg64 (Vp (Proc.devRef .tc main_v24)) (Vp (Proc.devRef .tc main_v6)) := by
  after_results_simp <;> rfl
theorem st21_v28 : after hostOps2_1 Vp (Proc.devRef .tc main_v28) = biasRow64 (Vp (Proc.devRef .tc main_arg6)) := by
  after_results_simp <;> rfl
theorem st3_v30 : after hostOps3 Vp (Proc.devRef .tc main_v30)
    = take32 (F := Ideal) (Vp (Proc.devRef .tc main_v29)) (Vp (Proc.devRef .tc main_v3)) := by
  refine (congrArg (fun l => after l Vp (Proc.devRef .tc main_v30)) hostOps3_plain).trans ?_
  after_results_simp <;> rfl
theorem st31_v33 : after hostOps3_1 Vp (Proc.devRef .tc main_v33)
    = agg32 (Vp (Proc.devRef .tc main_v30)) (Vp (Proc.devRef .tc main_v6)) := by
  after_results_simp <;> rfl
theorem st31_v34 : after hostOps3_1 Vp (Proc.devRef .tc main_v34) = biasRow32 (Vp (Proc.devRef .tc main_arg8)) := by
  after_results_simp <;> rfl
theorem st4_v48 : after hostOps4 Vp (Proc.devRef .tc main_v48)
    = pooled (Vp (Proc.devRef .tc main_v35)) (Vp (Proc.devRef .tc main_arg2)) := by
  after_results_simp <;> rfl
theorem st4_v49 : after hostOps4 Vp (Proc.devRef .tc main_v49) = biasCell (Vp (Proc.devRef .tc main_arg10)) := by
  after_results_simp <;> rfl

end Stretches

/-! ## The fold through @main, read -/

section Run

variable (m : (ℓ : Loc nD τ sig) → Buf (Elt Ideal) ℓ) (ρ : Dev nD → PrngReg) (c : Dev nD)

/-- The arguments other than the edge list. -/
def argsL : List (Ref sig .tc) :=
  [main_arg0, main_arg2, main_arg3, main_arg4, main_arg5, main_arg6, main_arg7, main_arg8, main_arg9, main_arg10]

theorem argsL_live {b : Ref sig .tc} (hb : b ∈ argsL) : b ∈ live ∧ b ≠ main_v16 := by
  have hb' : b = main_arg0 ∨ b = main_arg2 ∨ b = main_arg3 ∨ b = main_arg4 ∨ b = main_arg5 ∨ b = main_arg6 ∨ b = main_arg7
      ∨ b = main_arg8 ∨ b = main_arg9 ∨ b = main_arg10 := by simpa [argsL] using hb
  rcases hb' with rfl | rfl | rfl | rfl | rfl | rfl | rfl | rfl | rfl | rfl <;> exact ⟨by simp [live], by decide⟩

/-! ### A region leaves the live buffers alone: it reads them through input windows or not at all -/

theorem keep_region0 : ∀ b ∈ live, W4 m ρ c (Proc.devRef .tc b) = W3 m ρ c (Proc.devRef .tc b) := by
  intro b hb
  rcases mem_live hb with rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
    | exact (W4_arr m ρ c 2).trans (((dat0 (V3 m ρ) c).arrAt_in 2 rfl _).trans (A_eq0 (V3 m ρ) c 2))
theorem keep_region1 : ∀ b ∈ live, W7 m ρ c (Proc.devRef .tc b) = W6 m ρ c (Proc.devRef .tc b) := by
  intro b hb
  rcases mem_live hb with rfl | rfl | rfl | rfl | rfl | rfl | rfl | rfl | rfl | rfl | rfl | rfl | rfl
  all_goals first
    | exact W7_of_ne m ρ c _ (by decide)
    | exact (W7_arr m ρ c 0).trans (((dat1 (V6 m ρ) c).arrAt_in 0 rfl _).trans (A_eq1 (V6 m ρ) c 0))
    | exact (W7_arr m ρ c 1).trans (((dat1 (V6 m ρ) c).arrAt_in 1 rfl _).trans (A_eq1 (V6 m ρ) c 1))
    | exact (W7_arr m ρ c 2).trans (((dat1 (V6 m ρ) c).arrAt_in 2 rfl _).trans (A_eq1 (V6 m ρ) c 2))
    | exact (W7_arr m ρ c 3).trans (((dat1 (V6 m ρ) c).arrAt_in 3 rfl _).trans (A_eq1 (V6 m ρ) c 3))
theorem keep_region2 : ∀ b ∈ live, W10 m ρ c (Proc.devRef .tc b) = W9 m ρ c (Proc.devRef .tc b) := by
  intro b hb
  rcases mem_live hb with rfl | rfl | rfl | rfl | rfl | rfl | rfl | rfl | rfl | rfl | rfl | rfl | rfl
  all_goals first
    | exact W10_of_ne m ρ c _ (by decide)
    | exact (W10_arr m ρ c 0).trans (((dat2 (V9 m ρ) c).arrAt_in 0 rfl _).trans (A_eq2 (V9 m ρ) c 0))
    | exact (W10_arr m ρ c 1).trans (((dat2 (V9 m ρ) c).arrAt_in 1 rfl _).trans (A_eq2 (V9 m ρ) c 1))
    | exact (W10_arr m ρ c 2).trans (((dat2 (V9 m ρ) c).arrAt_in 2 rfl _).trans (A_eq2 (V9 m ρ) c 2))
    | exact (W10_arr m ρ c 3).trans (((dat2 (V9 m ρ) c).arrAt_in 3 rfl _).trans (A_eq2 (V9 m ρ) c 3))
theorem keep_region3 : ∀ b ∈ live, W13 m ρ c (Proc.devRef .tc b) = W12 m ρ c (Proc.devRef .tc b) := by
  intro b hb
  rcases mem_live hb with rfl | rfl | rfl | rfl | rfl | rfl | rfl | rfl | rfl | rfl | rfl | rfl | rfl
  all_goals first
    | exact W13_of_ne m ρ c _ (by decide)
    | exact (W13_arr m ρ c 0).trans (((dat3 (V12 m ρ) c).arrAt_in 0 rfl _).trans (A_eq3 (V12 m ρ) c 0))
    | exact (W13_arr m ρ c 1).trans (((dat3 (V12 m ρ) c).arrAt_in 1 rfl _).trans (A_eq3 (V12 m ρ) c 1))
    | exact (W13_arr m ρ c 2).trans (((dat3 (V12 m ρ) c).arrAt_in 2 rfl _).trans (A_eq3 (V12 m ρ) c 2))

/-! ### So a live buffer holds at every later boundary what it held when the first region was entered -/

theorem live4 : ∀ b ∈ live, W4 m ρ c (Proc.devRef .tc b) = W3 m ρ c (Proc.devRef .tc b) := keep_region0 m ρ c
theorem live5 : ∀ b ∈ live, W5 m ρ c (Proc.devRef .tc b) = W3 m ρ c (Proc.devRef .tc b) :=
  fun b hb => (keep_hostOps1 (W4 m ρ c) b hb).trans (live4 m ρ c b hb)
theorem live6 : ∀ b ∈ live, W6 m ρ c (Proc.devRef .tc b) = W3 m ρ c (Proc.devRef .tc b) :=
  fun b hb => (keep_hostOps1_1 (W5 m ρ c) b hb).trans (live5 m ρ c b hb)
theorem live7 : ∀ b ∈ live, W7 m ρ c (Proc.devRef .tc b) = W3 m ρ c (Proc.devRef .tc b) :=
  fun b hb => (keep_region1 m ρ c b hb).trans (live6 m ρ c b hb)
theorem live8 : ∀ b ∈ live, W8 m ρ c (Proc.devRef .tc b) = W3 m ρ c (Proc.devRef .tc b) :=
  fun b hb => (keep_hostOps2 (W7 m ρ c) b hb).trans (live7 m ρ c b hb)
theorem live9 : ∀ b ∈ live, W9 m ρ c (Proc.devRef .tc b) = W3 m ρ c (Proc.devRef .tc b) :=
  fun b hb => (keep_hostOps2_1 (W8 m ρ c) b hb).trans (live8 m ρ c b hb)
theorem live10 : ∀ b ∈ live, W10 m ρ c (Proc.devRef .tc b) = W3 m ρ c (Proc.devRef .tc b) :=
  fun b hb => (keep_region2 m ρ c b hb).trans (live9 m ρ c b hb)
theorem live11 : ∀ b ∈ live, W11 m ρ c (Proc.devRef .tc b) = W3 m ρ c (Proc.devRef .tc b) :=
  fun b hb => (keep_hostOps3 (W10 m ρ c) b hb).trans (live10 m ρ c b hb)
theorem live12 : ∀ b ∈ live, W12 m ρ c (Proc.devRef .tc b) = W3 m ρ c (Proc.devRef .tc b) :=
  fun b hb => (keep_hostOps3_1 (W11 m ρ c) b hb).trans (live11 m ρ c b hb)
theorem live13 : ∀ b ∈ live, W13 m ρ c (Proc.devRef .tc b) = W3 m ρ c (Proc.devRef .tc b) :=
  fun b hb => (keep_region3 m ρ c b hb).trans (live12 m ρ c b hb)
theorem live14 : ∀ b ∈ live, W14 m ρ c (Proc.devRef .tc b) = W3 m ρ c (Proc.devRef .tc b) :=
  fun b hb => (keep_hostOps4 (W13 m ρ c) b hb).trans (live13 m ρ c b hb)

/-! ### What the live buffers hold when the first region is entered -/

/-- An argument other than the edge list holds its launch contents. -/
theorem W3_arg {b : Ref sig .tc} (hb : b ∈ argsL) : W3 m ρ c (Proc.devRef .tc b) = W0 m ρ c (Proc.devRef .tc b) :=
  (keep_hostOps0_2 (W2 m ρ c) b (argsL_live hb).1 (argsL_live hb).2).trans
    ((keep_hostOps0_1 (W1 m ρ c) b (argsL_live hb).1).trans (keep_hostOps0 (W0 m ρ c) b hb))

/-- The source vector is that of the launched edge list. -/
theorem W3_v3 : W3 m ρ c (Proc.devRef .tc main_v3) = srcVec (m ((c : Thread nD τ).loc main_arg1)) :=
  (keep_hostOps0_2 (W2 m ρ c) main_v3 (by simp [live]) (by decide)).trans
    ((keep_hostOps0_1 (W1 m ρ c) main_v3 (by simp [live])).trans (st0_v3 (W0 m ρ c)))

/-- The destination vector is that of the launched edge list. -/
theorem W3_v6 : W3 m ρ c (Proc.devRef .tc main_v6) = dstVec (m ((c : Thread nD τ).loc main_arg1)) :=
  (keep_hostOps0_2 (W2 m ρ c) main_v6 (by simp [live]) (by decide)).trans
    ((keep_hostOps0_1 (W1 m ρ c) main_v6 (by simp [live])).trans (st0_v6 (W0 m ρ c)))

/-- The normalising column is that of the launched edge list. -/
theorem W3_v16 : W3 m ρ c (Proc.devRef .tc main_v16) = dinvCol (m ((c : Thread nD τ).loc main_arg1)) := by
  show after hostOps0_2 (W2 m ρ c) (Proc.devRef .tc main_v16) = _
  rw [st02_v16]
  show shapeCast S100000x1 (after hostOps0_1 (W1 m ρ c) (Proc.devRef .tc main_v15)) shapeCasts_S100000_S100000x1 = _
  rw [st01_v15]
  show shapeCast S100000x1
      (select (after hostOps0 (W0 m ρ c) (Proc.devRef .tc main_v13)) (after hostOps0 (W0 m ρ c) (Proc.devRef .tc main_v14))
        (broadcastInDim S100000 ![] bcast_S_S100000 (after hostOps0 (W0 m ρ c) (Proc.devRef .tc main_cst_1))))
      shapeCasts_S100000_S100000x1 = _
  rw [st0_v13, st0_v14, st0_cst1]
  rfl

end Run

/-! ### The produced buffers, boundary by boundary -/

section Values

variable (m : (ℓ : Loc nD τ sig) → Buf (Elt Ideal) ℓ) (ρ : Dev nD → PrngReg) (c : Dev nD)

/-- An argument other than the edge list, read at the first region's entry, is the launch memory's. -/
theorem W3_arg' {b : Ref sig .tc} (hb : b ∈ argsL) : W3 m ρ c (Proc.devRef .tc b) = m ((c : Thread nD τ).loc b) :=
  W3_arg m ρ c hb

/-- After region 0: layer 1's prescaled projection. -/
theorem W4_v17 : W4 m ρ c (Proc.devRef .tc main_v17) = stH1 (m ((c : Thread nD τ).loc main_arg0)) (m ((c : Thread nD τ).loc main_arg1)) (m ((c : Thread nD τ).loc main_arg3)) := by
  refine ((W4_arr m ρ c 3).trans (R0.region0_value (V3 m ρ) c)).trans ?_
  show linScale 100000 2 32 (W3 m ρ c (Proc.devRef .tc main_arg0)) (W3 m ρ c (Proc.devRef .tc main_arg3))
      (W3 m ρ c (Proc.devRef .tc main_v16)) = _
  rw [W3_arg' m ρ c (b := main_arg0) (by simp [argsL]), W3_arg' m ρ c (b := main_arg3) (by simp [argsL]), W3_v16]
  rfl

/-- Its rows gathered at the sources. -/
theorem W5_v18 : W5 m ρ c (Proc.devRef .tc main_v18) = take32 (F := Ideal) (stH1 (m ((c : Thread nD τ).loc main_arg0)) (m ((c : Thread nD τ).loc main_arg1)) (m ((c : Thread nD τ).loc main_arg3))) (srcVec (m ((c : Thread nD τ).loc main_arg1))) := by
  show after hostOps1 (W4 m ρ c) (Proc.devRef .tc main_v18) = _
  rw [st1_v18, W4_v17, live4 m ρ c main_v3 (by simp [live]), W3_v3]

/-- Summed over the edges arriving at each node. -/
theorem W6_v21 : W6 m ρ c (Proc.devRef .tc main_v21) = stG1 (m ((c : Thread nD τ).loc main_arg0)) (m ((c : Thread nD τ).loc main_arg1)) (m ((c : Thread nD τ).loc main_arg3)) := by
  show after hostOps1_1 (W5 m ρ c) (Proc.devRef .tc main_v21) = _
  rw [st11_v21, W5_v18, live5 m ρ c main_v6 (by simp [live]), W3_v6]
  rfl
theorem W6_v22 : W6 m ρ c (Proc.devRef .tc main_v22) = biasRow32 (m ((c : Thread nD τ).loc main_arg4)) := by
  show after hostOps1_1 (W5 m ρ c) (Proc.devRef .tc main_v22) = _
  rw [st11_v22, live5 m ρ c main_arg4 (by simp [live]), W3_arg' m ρ c (b := main_arg4) (by simp [argsL])]

/-- After region 1: layer 1's bias and rectifier and layer 2's prescaled projection. -/
theorem W7_v23 : W7 m ρ c (Proc.devRef .tc main_v23) = stH2 (m ((c : Thread nD τ).loc main_arg0)) (m ((c : Thread nD τ).loc main_arg1)) (m ((c : Thread nD τ).loc main_arg3)) (m ((c : Thread nD τ).loc main_arg4)) (m ((c : Thread nD τ).loc main_arg5)) := by
  refine ((W7_arr m ρ c 4).trans (R1.region1_value (V6 m ρ) c)).trans ?_
  show fusedLayer 100000 32 64 (W6 m ρ c (Proc.devRef .tc main_v21)) (W6 m ρ c (Proc.devRef .tc main_v16))
      (W6 m ρ c (Proc.devRef .tc main_v22)) (W6 m ρ c (Proc.devRef .tc main_arg5)) = _
  rw [W6_v21, W6_v22, live6 m ρ c main_v16 (by simp [live]), W3_v16, live6 m ρ c main_arg5 (by simp [live]),
    W3_arg' m ρ c (b := main_arg5) (by simp [argsL])]
  rfl

theorem W8_v24 : W8 m ρ c (Proc.devRef .tc main_v24)
    = take64 (F := Ideal) (stH2 (m ((c : Thread nD τ).loc main_arg0)) (m ((c : Thread nD τ).loc main_arg1)) (m ((c : Thread nD τ).loc main_arg3)) (m ((c : Thread nD τ).loc main_arg4)) (m ((c : Thread nD τ).loc main_arg5))) (srcVec (m ((c : Thread nD τ).loc main_arg1))) := by
  show after hostOps2 (W7 m ρ c) (Proc.devRef .tc main_v24) = _
  rw [st2_v24, W7_v23, live7 m ρ c main_v3 (by simp [live]), W3_v3]

theorem W9_v27 : W9 m ρ c (Proc.devRef .tc main_v27) = stG2 (m ((c : Thread nD τ).loc main_arg0)) (m ((c : Thread nD τ).loc main_arg1)) (m ((c : Thread nD τ).loc main_arg3)) (m ((c : Thread nD τ).loc main_arg4)) (m ((c : Thread nD τ).loc main_arg5)) := by
  show after hostOps2_1 (W8 m ρ c) (Proc.devRef .tc main_v27) = _
  rw [st21_v27, W8_v24, live8 m ρ c main_v6 (by simp [live]), W3_v6]
  rfl
theorem W9_v28 : W9 m ρ c (Proc.devRef .tc main_v28) = biasRow64 (m ((c : Thread nD τ).loc main_arg6)) := by
  show after hostOps2_1 (W8 m ρ c) (Proc.devRef .tc main_v28) = _
  rw [st21_v28, live8 m ρ c main_arg6 (by simp [live]), W3_arg' m ρ c (b := main_arg6) (by simp [argsL])]

/-- After region 2: layer 2's bias and rectifier and layer 3's prescaled projection. -/
theorem W10_v29 : W10 m ρ c (Proc.devRef .tc main_v29) = stH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W10_arr m ρ c 4).trans (R2.region2_value (V9 m ρ) c)).trans ?_
  show fusedLayer 100000 64 32 (W9 m ρ c (Proc.devRef .tc main_v27)) (W9 m ρ c (Proc.devRef .tc main_v16))
      (W9 m ρ c (Proc.devRef .tc main_v28)) (W9 m ρ c (Proc.devRef .tc main_arg7)) = _
  rw [W9_v27, W9_v28, live9 m ρ c main_v16 (by simp [live]), W3_v16, live9 m ρ c main_arg7 (by simp [live]),
    W3_arg' m ρ c (b := main_arg7) (by simp [argsL])]
  rfl

theorem W11_v30 : W11 m ρ c (Proc.devRef .tc main_v30)
    = take32 (F := Ideal) (stH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (srcVec (m ((c : Thread nD τ).loc main_arg1))) := by
  show after hostOps3 (W10 m ρ c) (Proc.devRef .tc main_v30) = _
  rw [st3_v30, W10_v29, live10 m ρ c main_v3 (by simp [live]), W3_v3]

theorem W12_v33 : W12 m ρ c (Proc.devRef .tc main_v33) = stG3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show after hostOps3_1 (W11 m ρ c) (Proc.devRef .tc main_v33) = _
  rw [st31_v33, W11_v30, live11 m ρ c main_v6 (by simp [live]), W3_v6]
  rfl
theorem W12_v34 : W12 m ρ c (Proc.devRef .tc main_v34) = biasRow32 (m ((c : Thread nD τ).loc main_arg8)) := by
  show after hostOps3_1 (W11 m ρ c) (Proc.devRef .tc main_v34) = _
  rw [st31_v34, live11 m ρ c main_arg8 (by simp [live]), W3_arg' m ρ c (b := main_arg8) (by simp [argsL])]

/-- After region 3: layer 3's bias and rectifier. -/
theorem W13_v35 : W13 m ρ c (Proc.devRef .tc main_v35) = stHf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W13_arr m ρ c 3).trans (R3.region3_value (V12 m ρ) c)).trans ?_
  show biasRelu 100000 32 (W12 m ρ c (Proc.devRef .tc main_v33)) (W12 m ρ c (Proc.devRef .tc main_v16))
      (W12 m ρ c (Proc.devRef .tc main_v34)) = _
  rw [W12_v33, W12_v34, live12 m ρ c main_v16 (by simp [live]), W3_v16]
  rfl

/-- The mean pooling. -/
theorem W14_v48 : W14 m ρ c (Proc.devRef .tc main_v48)
    = pooled (stHf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  show after hostOps4 (W13 m ρ c) (Proc.devRef .tc main_v48) = _
  rw [st4_v48, W13_v35, live13 m ρ c main_arg2 (by simp [live]), W3_arg' m ρ c (b := main_arg2) (by simp [argsL])]
theorem W14_v49 : W14 m ρ c (Proc.devRef .tc main_v49) = biasCell (m ((c : Thread nD τ).loc main_arg10)) := by
  show after hostOps4 (W13 m ρ c) (Proc.devRef .tc main_v49) = _
  rw [st4_v49, live13 m ρ c main_arg10 (by simp [live]), W3_arg' m ρ c (b := main_arg10) (by simp [argsL])]

/-- THE RESULT: after the last region the result buffer holds the whole computation of the launched arguments. -/
theorem W15_v50 : W15 m ρ c (Proc.devRef .tc main_v50)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W15_arr m ρ c 3).trans (R4.region4_value (V14 m ρ) c)).trans ?_
  show readOut 512 32 (W14 m ρ c (Proc.devRef .tc main_v48)) (W14 m ρ c (Proc.devRef .tc main_arg9))
      (W14 m ρ c (Proc.devRef .tc main_v49)) = _
  rw [W14_v48, W14_v49, live14 m ρ c main_arg9 (by simp [live]), W3_arg' m ρ c (b := main_arg9) (by simp [argsL])]
  rfl

end Values

end Cert.Gcn.K

end
-- ==== Proof.RefLayer1.lean ====
/-
  The first layer of the reference, read at one node and one feature.

  The projection h(r, q) = ∑ₖ x(r, k) · w(q, k). An edge e carries a source word and a destination word; each is read as a
  row of the 100000-row tables the way an array subscript reads it. The message of edge e on feature q is
  h(src e, q) · (n(src e) · n(dst e)), n the vector of normalising factors. The messages are added, per destination, into
  zeros — node i receives the edges whose destination word reads i —, the bias of feature q is added, and the result is
  rectified: max(· , 0).
-/
import proofs.«423678_j70729521430617_3_alg».proof.Proof.RefRead
import proofs.«423678_j70729521430617_3_alg».proof.Proof.GcnSpec
import proofs.«423678_j70729521430617_3_alg».proof.Proof.LibRowGatherScatter
import proofs.«423678_j70729521430617_3_alg».proof.Proof.LibVecGatherScatter
import proofs.«423678_j70729521430617_3_alg».proof.Proof.TakeRows
import Idealize.ShloMosaic.Lib.Pipeline.Value
import Idealize.ShloMosaic.Lib.ValueIdx
import Idealize.ShloMosaic.PureOps.Ideal.Laws

noncomputable section

namespace Cert.Gcn.Ref

open Cert.ReferenceIdeal Cert.ReferenceIdeal.ReadP Cert.Gcn Cert.Gcn.K Idealize.ShloMosaic Idealize.ShloMosaic.ValueIdx

/-! ## The projection -/

/-- Entry (r, q) of the projection: the sum over the two input features k of x(r, k) · w(q, k). -/
theorem ref_h1_apply (x0 : (⟨S100000x2, .f32⟩ : BufTy).Contents (Elt Ideal)) (x3 : (⟨S32x2, .f32⟩ : BufTy).Contents (Elt Ideal))
    (r : Fin 100000) (q : Fin 32) :
    val_main_v8 (F := Ideal) x0 x3 (ix2 r q) = ∑ k : Fin 2, x0 (ix2 r k) * x3 (ix2 q k) := by
  rw [val_main_v8_apply]
  refine Finset.sum_congr rfl fun k _ => ?_
  rw [val_main_v7_apply]
  have el : lidx_main_v8 (ix2 r q) k = ix2 r k :=
    funext fun a => Fin.ext (by match a with | ⟨0, _⟩ => rfl | ⟨1, _⟩ => rfl)
  have er : idx_main_v7 (ridx_main_v8 (ix2 r q) k) = ix2 q k :=
    funext fun a => Fin.ext (by match a with | ⟨0, _⟩ => rfl | ⟨1, _⟩ => rfl)
  rw [el, er]

/-! ## The index columns of the three gathers and of the scatter -/

/-- The column the row gather reads its source rows at holds, at edge e, the normalised source word. -/
theorem srcRowCol_apply (x1 : (⟨S2x1600000, .i32⟩ : BufTy).Contents (Elt Ideal)) (e : Fin 1700000) :
    val_main_v37 (F := Ideal) x1 (ix2 e (0 : Fin 1)) = normW (val_main_v3 (F := Ideal) x1 (ix1 e)) := by
  have ei : idx_main_v37 (ix2 e (0 : Fin 1)) = ix1 e :=
    funext fun a => Fin.ext (by match a with | ⟨0, _⟩ => rfl)
  rw [val_main_v37_apply, ei, val_main_v36_apply, val_main_v33_apply, val_main_v35_apply, val_main_v32_apply,
    val_main_c_6_apply, val_main_v34_apply, val_main_c_7_apply]
  rfl

/-- The column the factor gather reads its source entries at holds, at edge e, the normalised source word. -/
theorem srcVecCol_apply (x1 : (⟨S2x1600000, .i32⟩ : BufTy).Contents (Elt Ideal)) (e : Fin 1700000) :
    val_main_v22 (F := Ideal) x1 (ix2 e (0 : Fin 1)) = normW (val_main_v3 (F := Ideal) x1 (ix1 e)) := by
  have ei : idx_main_v22 (ix2 e (0 : Fin 1)) = ix1 e :=
    funext fun a => Fin.ext (by match a with | ⟨0, _⟩ => rfl)
  rw [val_main_v22_apply, ei, val_main_v21_apply, val_main_v18_apply, val_main_v20_apply, val_main_v17_apply,
    val_main_c_apply, val_main_v19_apply, val_main_c_3_apply]
  rfl

/-- The column the factor gather reads its destination entries at holds, at edge e, the normalised destination word. -/
theorem dstVecCol_apply (x1 : (⟨S2x1600000, .i32⟩ : BufTy).Contents (Elt Ideal)) (e : Fin 1700000) :
    val_main_v29 (F := Ideal) x1 (ix2 e (0 : Fin 1)) = normW (val_main_v6 (F := Ideal) x1 (ix1 e)) := by
  have ei : idx_main_v29 (ix2 e (0 : Fin 1)) = ix1 e :=
    funext fun a => Fin.ext (by match a with | ⟨0, _⟩ => rfl)
  rw [val_main_v29_apply, ei, val_main_v28_apply, val_main_v25_apply, val_main_v27_apply, val_main_v24_apply,
    val_main_c_4_apply, val_main_v26_apply, val_main_c_5_apply]
  rfl

/-- The column the scatter sends its rows by holds, at edge e, the destination word itself. -/
theorem dstCol_apply (x1 : (⟨S2x1600000, .i32⟩ : BufTy).Contents (Elt Ideal)) (e : Fin 1700000) :
    val_main_v43 (F := Ideal) x1 (ix2 e (0 : Fin 1)) = val_main_v6 (F := Ideal) x1 (ix1 e) := by
  have ei : idx_main_v43 (ix2 e (0 : Fin 1)) = ix1 e :=
    funext fun a => Fin.ext (by match a with | ⟨0, _⟩ => rfl)
  rw [val_main_v43_apply, ei]

/-! ## The three gathers at an edge -/

/-- The gathered source row of edge e at feature q is the projection's row `rowOf` of the source word. -/
theorem srcRows_apply (x0 : (⟨S100000x2, .f32⟩ : BufTy).Contents (Elt Ideal)) (x1 : (⟨S2x1600000, .i32⟩ : BufTy).Contents (Elt Ideal))
    (x3 : (⟨S32x2, .f32⟩ : BufTy).Contents (Elt Ideal)) (e : Fin 1700000) (q : Fin 32) :
    val_main_v38 (F := Ideal) x0 x1 x3 (ix2 e q)
      = val_main_v8 (F := Ideal) x0 x3 (ix2 (rowOf (val_main_v3 (F := Ideal) x1 (ix1 e))) q) := by
  unfold val_main_v38
  exact gatherRows_norm gather_S100000x32_S1700000x1_S1700000x32_1_0_n_n_0_1_132 rfl rfl rfl rfl rfl
    (val_main_v8 (F := Ideal) x0 x3) (val_main_v37 (F := Ideal) x1) (val_main_v3 (F := Ideal) x1 (ix1 e)) e
    (srcRowCol_apply x1 e) q

/-- The gathered source factor of edge e is the factor of the node `rowOf` of the source word. -/
theorem srcFactor_apply (x1 : (⟨S2x1600000, .i32⟩ : BufTy).Contents (Elt Ideal)) (e : Fin 1700000) :
    val_main_v23 (F := Ideal) x1 (ix1 e)
      = val_main_v16 (F := Ideal) x1 (ix1 (rowOf (val_main_v3 (F := Ideal) x1 (ix1 e)))) := by
  unfold val_main_v23
  exact gatherVec_norm gather_S100000_S1700000x1_S1700000_n_0_n_n_0_1_1 rfl rfl rfl rfl rfl
    (val_main_v16 (F := Ideal) x1) (val_main_v22 (F := Ideal) x1) (val_main_v3 (F := Ideal) x1 (ix1 e)) e
    (srcVecCol_apply x1 e)

/-- The gathered destination factor of edge e is the factor of the node `rowOf` of the destination word. -/
theorem dstFactor_apply (x1 : (⟨S2x1600000, .i32⟩ : BufTy).Contents (Elt Ideal)) (e : Fin 1700000) :
    val_main_v30 (F := Ideal) x1 (ix1 e)
      = val_main_v16 (F := Ideal) x1 (ix1 (rowOf (val_main_v6 (F := Ideal) x1 (ix1 e)))) := by
  unfold val_main_v30
  exact gatherVec_norm gather_S100000_S1700000x1_S1700000_n_0_n_n_0_1_1 rfl rfl rfl rfl rfl
    (val_main_v16 (F := Ideal) x1) (val_main_v29 (F := Ideal) x1) (val_main_v6 (F := Ideal) x1 (ix1 e)) e
    (dstVecCol_apply x1 e)

/-! ## The message of an edge, and the sum a node receives -/

/-- The message of edge e on feature q: h(src e, q) · (n(src e) · n(dst e)). -/
theorem msg_apply (x0 : (⟨S100000x2, .f32⟩ : BufTy).Contents (Elt Ideal)) (x1 : (⟨S2x1600000, .i32⟩ : BufTy).Contents (Elt Ideal))
    (x3 : (⟨S32x2, .f32⟩ : BufTy).Contents (Elt Ideal)) (e : Fin 1700000) (q : Fin 32) :
    val_main_v41 (F := Ideal) x0 x1 x3 (ix2 e q)
      = val_main_v8 (F := Ideal) x0 x3 (ix2 (rowOf (val_main_v3 (F := Ideal) x1 (ix1 e))) q)
          * (val_main_v16 (F := Ideal) x1 (ix1 (rowOf (val_main_v3 (F := Ideal) x1 (ix1 e))))
              * val_main_v16 (F := Ideal) x1 (ix1 (rowOf (val_main_v6 (F := Ideal) x1 (ix1 e))))) := by
  have ei : idx_main_v39 (idx_main_v40 (ix2 e q)) = ix1 e :=
    funext fun a => Fin.ext (by match a with | ⟨0, _⟩ => rfl)
  rw [val_main_v41_apply, val_main_v40_apply, val_main_v39_apply, ei, val_main_v31_apply, srcRows_apply,
    srcFactor_apply, dstFactor_apply, Ideal.mulf_def, Ideal.mulf_def]

/-- What node i has received on feature q: zero plus the messages of the edges whose destination word reads i. -/
theorem agg_apply (x0 : (⟨S100000x2, .f32⟩ : BufTy).Contents (Elt Ideal)) (x1 : (⟨S2x1600000, .i32⟩ : BufTy).Contents (Elt Ideal))
    (x3 : (⟨S32x2, .f32⟩ : BufTy).Contents (Elt Ideal)) (i : Fin 100000) (q : Fin 32) :
    val_main_v44 (F := Ideal) x0 x1 x3 (ix2 i q)
      = 0 + ∑ e ∈ Finset.univ.filter (fun e : Fin 1700000 => (val_main_v6 (F := Ideal) x1 (ix1 e)).toInt = (i.val : ℤ)),
              val_main_v8 (F := Ideal) x0 x3 (ix2 (rowOf (val_main_v3 (F := Ideal) x1 (ix1 e))) q)
                * (val_main_v16 (F := Ideal) x1 (ix1 (rowOf (val_main_v3 (F := Ideal) x1 (ix1 e))))
                    * val_main_v16 (F := Ideal) x1 (ix1 (rowOf (val_main_v6 (F := Ideal) x1 (ix1 e))))) := by
  have hz : val_main_v42 (F := Ideal) (ix2 i q) = 0 := by
    rw [val_main_v42_apply, val_main_cst_8_apply, Ideal.ofBits_def, Ideal.ofBits_zero_f32]
  have hf : Finset.univ.filter (fun e : Fin 1700000 => (val_main_v43 (F := Ideal) x1 (ix2 e (0 : Fin 1))).toInt = (i.val : ℤ))
      = Finset.univ.filter (fun e : Fin 1700000 => (val_main_v6 (F := Ideal) x1 (ix1 e)).toInt = (i.val : ℤ)) :=
    Finset.filter_congr fun e _ => by rw [dstCol_apply]
  unfold val_main_v44
  refine (scatterAdd_rows scatter_S100000x32_S1700000x1_S1700000x32_1_0_0_1 rfl rfl rfl rfl
    (val_main_v42 (F := Ideal)) (val_main_v43 (F := Ideal) x1) (val_main_v41 (F := Ideal) x0 x1 x3) i q).trans ?_
  rw [hz, hf]
  exact congrArg (0 + ·) (Finset.sum_congr rfl fun e _ => msg_apply x0 x1 x3 e q)

/-! ## The layer -/

/-- THE FIRST LAYER at node i and feature q: the received sum, plus the bias of q, rectified. -/
theorem ref_layer1_apply (x0 : (⟨S100000x2, .f32⟩ : BufTy).Contents (Elt Ideal)) (x1 : (⟨S2x1600000, .i32⟩ : BufTy).Contents (Elt Ideal))
    (x3 : (⟨S32x2, .f32⟩ : BufTy).Contents (Elt Ideal)) (x4 : (⟨S32, .f32⟩ : BufTy).Contents (Elt Ideal))
    (i : Fin 100000) (q : Fin 32) :
    val_main_v48 (F := Ideal) x0 x1 x3 x4 (ix2 i q)
      = max ((0 + ∑ e ∈ Finset.univ.filter (fun e : Fin 1700000 => (val_main_v6 (F := Ideal) x1 (ix1 e)).toInt = (i.val : ℤ)),
                 val_main_v8 (F := Ideal) x0 x3 (ix2 (rowOf (val_main_v3 (F := Ideal) x1 (ix1 e))) q)
                   * (val_main_v16 (F := Ideal) x1 (ix1 (rowOf (val_main_v3 (F := Ideal) x1 (ix1 e))))
                       * val_main_v16 (F := Ideal) x1 (ix1 (rowOf (val_main_v6 (F := Ideal) x1 (ix1 e))))))
              + x4 (ix1 q)) 0 := by
  have eb : idx_main_v45 (idx_main_v46 (ix2 i q)) = ix1 q :=
    funext fun a => Fin.ext (by match a with | ⟨0, _⟩ => rfl)
  rw [val_main_v48_apply, val_main_v47_apply, val_main_call1_v0_apply, val_main_call1_cst_apply, val_main_v46_apply,
    val_main_v45_apply, eb, agg_apply, Ideal.maximumf_def, Ideal.addf_def, Ideal.ofBits_def, Ideal.ofBits_zero_f32]

end Cert.Gcn.Ref

end
-- ==== Proof.RefLayer2.lean ====
/-
  The second layer of the reference graph convolution, read at one node and one feature.

  The layer projects the first layer's activations h₁ [100000, 32] by the weights W₂ [64, 32],
      h₂(r, q) = ∑ₖ h₁(r, k) · W₂(q, k),
  sends along every edge e the source's projected row scaled by the two end points' normalising factors,
      msg(e, q) = h₂(src e, q) · (ν(src e) · ν(dst e)),
  sums the messages at their destinations into zeros, adds the bias b₂ and rectifies. An edge's end point is read
  from its index word the way an array subscript reads it (a negative word counts from the end, the result is
  clamped into the table); the scatter sends edge e to the node its destination word names as a signed integer.
-/
import proofs.«423678_j70729521430617_3_alg».proof.Proof.RefRead
import proofs.«423678_j70729521430617_3_alg».proof.Proof.GcnSpec
import proofs.«423678_j70729521430617_3_alg».proof.Proof.LibRowGatherScatter
import proofs.«423678_j70729521430617_3_alg».proof.Proof.LibVecGatherScatter
import proofs.«423678_j70729521430617_3_alg».proof.Proof.TakeRows
import Idealize.ShloMosaic.Lib.Pipeline.Value
import Idealize.ShloMosaic.Lib.ValueIdx
import Idealize.ShloMosaic.PureOps.Ideal.Laws

noncomputable section

namespace Cert.Gcn.Ref

open Cert.ReferenceIdeal Cert.ReferenceIdeal.ReadP Cert.Gcn Cert.Gcn.K Idealize.ShloMosaic Idealize.ShloMosaic.ValueIdx

variable (x0 : (⟨S100000x2, .f32⟩ : BufTy).Contents (Elt Ideal)) (x1 : (⟨S2x1600000, .i32⟩ : BufTy).Contents (Elt Ideal))
  (x3 : (⟨S32x2, .f32⟩ : BufTy).Contents (Elt Ideal)) (x4 : (⟨S32, .f32⟩ : BufTy).Contents (Elt Ideal))
  (x5 : (⟨S64x32, .f32⟩ : BufTy).Contents (Elt Ideal)) (x6 : (⟨S64, .f32⟩ : BufTy).Contents (Elt Ideal))

/-! ## The projection -/

/-- The projected activations at node r and feature q: the sum over the 32 incoming features of the activation times
    the weight W₂(q, k). -/
theorem ref_h2_apply (r : Fin 100000) (q : Fin 64) :
    val_main_v50 (F := Ideal) x0 x1 x3 x4 x5 (ix2 r q)
      = ∑ k : Fin 32, val_main_v48 (F := Ideal) x0 x1 x3 x4 (ix2 r k) * x5 (ix2 q k) := by
  rw [val_main_v50_apply]
  refine Finset.sum_congr rfl fun k _ => ?_
  rw [val_main_v49_apply]
  have el : lidx_main_v50 (ix2 r q) k = ix2 r k :=
    funext fun a => Fin.ext (by match a with | ⟨0, _⟩ => rfl | ⟨1, _⟩ => rfl)
  have er : idx_main_v49 (ridx_main_v50 (ix2 r q) k) = ix2 q k :=
    funext fun a => Fin.ext (by match a with | ⟨0, _⟩ => rfl | ⟨1, _⟩ => rfl)
  rw [el, er]

namespace L2

/-! ## The edges' end points as the gathers read them -/

/-- The index column of the normalising factors' gather at the sources: the source word, normalised. -/
theorem src_factor_column_apply (e : Fin 1700000) :
    val_main_v64 (F := Ideal) x1 (ix2 e (0 : Fin 1)) = normW (val_main_v3 (F := Ideal) x1 (ix1 e)) := by
  rw [val_main_v64_apply, val_main_v63_apply, val_main_v60_apply, val_main_v62_apply, val_main_v59_apply,
    val_main_v61_apply, val_main_c_13_apply, val_main_c_14_apply]
  have hp : idx_main_v64 (ix2 e (0 : Fin 1)) = ix1 e := funext fun a => by match a with | ⟨0, _⟩ => rfl
  rw [hp]
  rfl

/-- The index column of the normalising factors' gather at the destinations: the destination word, normalised. -/
theorem dst_factor_column_apply (e : Fin 1700000) :
    val_main_v71 (F := Ideal) x1 (ix2 e (0 : Fin 1)) = normW (val_main_v6 (F := Ideal) x1 (ix1 e)) := by
  rw [val_main_v71_apply, val_main_v70_apply, val_main_v67_apply, val_main_v69_apply, val_main_v66_apply,
    val_main_v68_apply, val_main_c_15_apply, val_main_c_16_apply]
  have hp : idx_main_v71 (ix2 e (0 : Fin 1)) = ix1 e := funext fun a => by match a with | ⟨0, _⟩ => rfl
  rw [hp]
  rfl

/-- The index column of the projected rows' gather: the source word, normalised. -/
theorem src_row_column_apply (e : Fin 1700000) :
    val_main_v79 (F := Ideal) x1 (ix2 e (0 : Fin 1)) = normW (val_main_v3 (F := Ideal) x1 (ix1 e)) := by
  rw [val_main_v79_apply, val_main_v78_apply, val_main_v75_apply, val_main_v77_apply, val_main_v74_apply,
    val_main_v76_apply, val_main_c_17_apply, val_main_c_18_apply]
  have hp : idx_main_v79 (ix2 e (0 : Fin 1)) = ix1 e := funext fun a => by match a with | ⟨0, _⟩ => rfl
  rw [hp]
  rfl

/-- The scatter's index column: the destination word itself. -/
theorem dst_column_apply (e : Fin 1700000) :
    val_main_v85 (F := Ideal) x1 (ix2 e (0 : Fin 1)) = val_main_v6 (F := Ideal) x1 (ix1 e) := by
  rw [val_main_v85_apply]
  have hp : idx_main_v85 (ix2 e (0 : Fin 1)) = ix1 e := funext fun a => by match a with | ⟨0, _⟩ => rfl
  rw [hp]

/-! ## The three gathers -/

/-- The normalising factor gathered at edge e's source. -/
theorem factor_at_src_apply (e : Fin 1700000) :
    val_main_v65 (F := Ideal) x1 (ix1 e)
      = val_main_v58 (F := Ideal) x1 (ix1 (rowOf (val_main_v3 (F := Ideal) x1 (ix1 e)))) := by
  unfold val_main_v65
  rw [gatherVec_norm gather_S100000_S1700000x1_S1700000_n_0_n_n_0_1_1 rfl rfl rfl rfl rfl _ _ _ e
    (src_factor_column_apply x1 e)]

/-- The normalising factor gathered at edge e's destination. -/
theorem factor_at_dst_apply (e : Fin 1700000) :
    val_main_v72 (F := Ideal) x1 (ix1 e)
      = val_main_v58 (F := Ideal) x1 (ix1 (rowOf (val_main_v6 (F := Ideal) x1 (ix1 e)))) := by
  unfold val_main_v72
  rw [gatherVec_norm gather_S100000_S1700000x1_S1700000_n_0_n_n_0_1_1 rfl rfl rfl rfl rfl _ _ _ e
    (dst_factor_column_apply x1 e)]

/-- The projected row gathered at edge e's source, at feature q. -/
theorem row_at_src_apply (e : Fin 1700000) (q : Fin 64) :
    val_main_v80 (F := Ideal) x0 x1 x3 x4 x5 (ix2 e q)
      = val_main_v50 (F := Ideal) x0 x1 x3 x4 x5 (ix2 (rowOf (val_main_v3 (F := Ideal) x1 (ix1 e))) q) := by
  unfold val_main_v80
  rw [gatherRows_norm gather_S100000x64_S1700000x1_S1700000x64_1_0_n_n_0_1_164 rfl rfl rfl rfl rfl _ _ _ e
    (src_row_column_apply x1 e) q]

/-! ## The message, the sum at the destinations, the bias and the rectifier -/

/-- The message along edge e at feature q. -/
theorem message_apply (e : Fin 1700000) (q : Fin 64) :
    val_main_v83 (F := Ideal) x0 x1 x3 x4 x5 (ix2 e q)
      = val_main_v50 (F := Ideal) x0 x1 x3 x4 x5 (ix2 (rowOf (val_main_v3 (F := Ideal) x1 (ix1 e))) q)
          * (val_main_v58 (F := Ideal) x1 (ix1 (rowOf (val_main_v3 (F := Ideal) x1 (ix1 e))))
              * val_main_v58 (F := Ideal) x1 (ix1 (rowOf (val_main_v6 (F := Ideal) x1 (ix1 e))))) := by
  rw [val_main_v83_apply, val_main_v82_apply, val_main_v81_apply, val_main_v73_apply, Ideal.mulf_def, Ideal.mulf_def]
  have hp : idx_main_v81 (idx_main_v82 (ix2 e q)) = ix1 e := funext fun a => by match a with | ⟨0, _⟩ => rfl
  rw [hp, row_at_src_apply, factor_at_src_apply, factor_at_dst_apply]

/-- The bias spread over the nodes, at node i and feature q. -/
theorem bias_apply (i : Fin 100000) (q : Fin 64) : val_main_v88 (F := Ideal) x6 (ix2 i q) = x6 (ix1 q) := by
  rw [val_main_v88_apply, val_main_v87_apply]
  have hp : idx_main_v87 (idx_main_v88 (ix2 i q)) = ix1 q := funext fun a => by match a with | ⟨0, _⟩ => rfl
  rw [hp]

end L2

open L2 in
/-- The layer at node i and feature q: the messages of the edges whose destination word names i, summed into zero,
    plus the bias, rectified. -/
theorem ref_layer2_apply (i : Fin 100000) (q : Fin 64) :
    val_main_v90 (F := Ideal) x0 x1 x3 x4 x5 x6 (ix2 i q)
      = max ((0 + ∑ e ∈ Finset.univ.filter (fun e : Fin 1700000 => (val_main_v6 (F := Ideal) x1 (ix1 e)).toInt = (i.val : ℤ)),
                val_main_v50 (F := Ideal) x0 x1 x3 x4 x5 (ix2 (rowOf (val_main_v3 (F := Ideal) x1 (ix1 e))) q)
                  * (val_main_v58 (F := Ideal) x1 (ix1 (rowOf (val_main_v3 (F := Ideal) x1 (ix1 e))))
                      * val_main_v58 (F := Ideal) x1 (ix1 (rowOf (val_main_v6 (F := Ideal) x1 (ix1 e))))))
              + x6 (ix1 q)) 0 := by
  rw [val_main_v90_apply, val_main_v89_apply, val_main_call3_v0_apply, val_main_call3_cst_apply, Ideal.maximumf_def,
    Ideal.addf_def, Ideal.ofBits_def, Ideal.ofBits_zero_f32, bias_apply]
  unfold val_main_v86
  rw [scatterAdd_rows scatter_S100000x64_S1700000x1_S1700000x64_1_0_0_1 rfl rfl rfl rfl _ _ _ i q,
    val_main_v84_apply, val_main_cst_19_apply, Ideal.ofBits_def, Ideal.ofBits_zero_f32]
  simp only [dst_column_apply, message_apply]

end Cert.Gcn.Ref

end
-- ==== Proof.RefLayer3.lean ====
/-
  The third layer of the reference, read at one node and one feature.

  The layer projects the second layer's activations (h = a · W3ᵀ), forms on every edge e the message
  h[src'(e), ·] · (dinv[src'(e)] · dinv[dst'(e)]) — `src'` and `dst'` the edge's endpoints read as array subscripts: a negative
  word counts from the end, and the gather clamps into the table —, adds the messages into zeros at the row the
  destination word reads signed (a word outside the table drops its message), adds the bias and takes the maximum
  with 0. Read at (i, q): the maximum with 0 of  0 + ∑ over the edges e whose destination word reads i of
  h(row src e, q) · (dinv(row src e) · dinv(row dst e))  plus  b(q).
-/
import proofs.«423678_j70729521430617_3_alg».proof.Proof.RefRead
import proofs.«423678_j70729521430617_3_alg».proof.Proof.GcnSpec
import proofs.«423678_j70729521430617_3_alg».proof.Proof.LibRowGatherScatter
import proofs.«423678_j70729521430617_3_alg».proof.Proof.LibVecGatherScatter
import proofs.«423678_j70729521430617_3_alg».proof.Proof.TakeRows
import Idealize.ShloMosaic.Lib.Pipeline.Value
import Idealize.ShloMosaic.Lib.ValueIdx
import Idealize.ShloMosaic.PureOps.Ideal.Laws

noncomputable section

namespace Cert.Gcn.Ref

open Cert.ReferenceIdeal Cert.ReferenceIdeal.ReadP Cert.Gcn Cert.Gcn.K Idealize.ShloMosaic Idealize.ShloMosaic.ValueIdx

/-! ## The projection -/

/-- Entry (r, q) of the third projection: the second layer's activations of node r against row q of the weight. -/
theorem ref_h3_apply (x0 : (⟨S100000x2, .f32⟩ : BufTy).Contents (Elt Ideal)) (x1 : (⟨S2x1600000, .i32⟩ : BufTy).Contents (Elt Ideal)) (x3 : (⟨S32x2, .f32⟩ : BufTy).Contents (Elt Ideal)) (x4 : (⟨S32, .f32⟩ : BufTy).Contents (Elt Ideal))
    (x5 : (⟨S64x32, .f32⟩ : BufTy).Contents (Elt Ideal)) (x6 : (⟨S64, .f32⟩ : BufTy).Contents (Elt Ideal)) (x7 : (⟨S32x64, .f32⟩ : BufTy).Contents (Elt Ideal))
    (r : Fin 100000) (q : Fin 32) :
    val_main_v92 (F := Ideal) x0 x1 x3 x4 x5 x6 x7 (ix2 r q)
      = ∑ k : Fin 64, val_main_v90 (F := Ideal) x0 x1 x3 x4 x5 x6 (ix2 r k) * x7 (ix2 q k) := by
  rw [val_main_v92_apply]
  refine Finset.sum_congr rfl fun k _ => ?_
  rw [val_main_v91_apply]
  have hl : lidx_main_v92 (ix2 r q) k = ix2 r k := funext fun a => by
    match a with
    | ⟨0, _⟩ => rfl
    | ⟨1, _⟩ => rfl
  have hr : idx_main_v91 (ridx_main_v92 (ix2 r q) k) = ix2 q k := funext fun a => by
    match a with
    | ⟨0, _⟩ => rfl
    | ⟨1, _⟩ => rfl
  rw [hl, hr]

namespace L3

/-! ## The three index columns -/

/-- The index column of the gather of the normalising factors at the sources holds the normalised source word. -/
theorem col_v106 (x1 : (⟨S2x1600000, .i32⟩ : BufTy).Contents (Elt Ideal)) (e : Fin 1700000) :
    val_main_v106 (F := Ideal) x1 (ix2 e (0 : Fin 1)) = normW (val_main_v3 (F := Ideal) x1 (ix1 e)) := by
  have hi : idx_main_v106 (ix2 e (0 : Fin 1)) = ix1 e := funext fun a => by
    match a with
    | ⟨0, _⟩ => rfl
  rw [val_main_v106_apply, hi, val_main_v105_apply, val_main_v102_apply, val_main_v104_apply, val_main_v101_apply,
    val_main_v103_apply, val_main_c_24_apply, val_main_c_25_apply]
  rfl

/-- The index column of the gather of the normalising factors at the destinations holds the normalised destination word. -/
theorem col_v113 (x1 : (⟨S2x1600000, .i32⟩ : BufTy).Contents (Elt Ideal)) (e : Fin 1700000) :
    val_main_v113 (F := Ideal) x1 (ix2 e (0 : Fin 1)) = normW (val_main_v6 (F := Ideal) x1 (ix1 e)) := by
  have hi : idx_main_v113 (ix2 e (0 : Fin 1)) = ix1 e := funext fun a => by
    match a with
    | ⟨0, _⟩ => rfl
  rw [val_main_v113_apply, hi, val_main_v112_apply, val_main_v109_apply, val_main_v111_apply, val_main_v108_apply,
    val_main_v110_apply, val_main_c_26_apply, val_main_c_27_apply]
  rfl

/-- The index column of the gather of the projected rows at the sources holds the normalised source word. -/
theorem col_v121 (x1 : (⟨S2x1600000, .i32⟩ : BufTy).Contents (Elt Ideal)) (e : Fin 1700000) :
    val_main_v121 (F := Ideal) x1 (ix2 e (0 : Fin 1)) = normW (val_main_v3 (F := Ideal) x1 (ix1 e)) := by
  have hi : idx_main_v121 (ix2 e (0 : Fin 1)) = ix1 e := funext fun a => by
    match a with
    | ⟨0, _⟩ => rfl
  rw [val_main_v121_apply, hi, val_main_v120_apply, val_main_v117_apply, val_main_v119_apply, val_main_v116_apply,
    val_main_v118_apply, val_main_c_28_apply, val_main_c_29_apply]
  rfl

/-- The scatter's index column holds the destination word itself. -/
theorem col_v127 (x1 : (⟨S2x1600000, .i32⟩ : BufTy).Contents (Elt Ideal)) (e : Fin 1700000) :
    val_main_v127 (F := Ideal) x1 (ix2 e (0 : Fin 1)) = val_main_v6 (F := Ideal) x1 (ix1 e) := by
  have hi : idx_main_v127 (ix2 e (0 : Fin 1)) = ix1 e := funext fun a => by
    match a with
    | ⟨0, _⟩ => rfl
  rw [val_main_v127_apply, hi]

/-! ## The message of one edge -/

/-- The normalising factor gathered at an edge's source. -/
theorem v107_apply (x1 : (⟨S2x1600000, .i32⟩ : BufTy).Contents (Elt Ideal)) (e : Fin 1700000) :
    val_main_v107 (F := Ideal) x1 (ix1 e) = val_main_v100 (F := Ideal) x1 (ix1 (rowOf (val_main_v3 (F := Ideal) x1 (ix1 e)))) := by
  unfold val_main_v107
  exact gatherVec_norm _ rfl rfl rfl rfl rfl _ _ _ e (col_v106 x1 e)

/-- The normalising factor gathered at an edge's destination. -/
theorem v114_apply (x1 : (⟨S2x1600000, .i32⟩ : BufTy).Contents (Elt Ideal)) (e : Fin 1700000) :
    val_main_v114 (F := Ideal) x1 (ix1 e) = val_main_v100 (F := Ideal) x1 (ix1 (rowOf (val_main_v6 (F := Ideal) x1 (ix1 e)))) := by
  unfold val_main_v114
  exact gatherVec_norm _ rfl rfl rfl rfl rfl _ _ _ e (col_v113 x1 e)

/-- The projected row gathered at an edge's source. -/
theorem v122_apply (x0 : (⟨S100000x2, .f32⟩ : BufTy).Contents (Elt Ideal)) (x1 : (⟨S2x1600000, .i32⟩ : BufTy).Contents (Elt Ideal)) (x3 : (⟨S32x2, .f32⟩ : BufTy).Contents (Elt Ideal)) (x4 : (⟨S32, .f32⟩ : BufTy).Contents (Elt Ideal))
    (x5 : (⟨S64x32, .f32⟩ : BufTy).Contents (Elt Ideal)) (x6 : (⟨S64, .f32⟩ : BufTy).Contents (Elt Ideal)) (x7 : (⟨S32x64, .f32⟩ : BufTy).Contents (Elt Ideal))
    (e : Fin 1700000) (q : Fin 32) :
    val_main_v122 (F := Ideal) x0 x1 x3 x4 x5 x6 x7 (ix2 e q)
      = val_main_v92 (F := Ideal) x0 x1 x3 x4 x5 x6 x7 (ix2 (rowOf (val_main_v3 (F := Ideal) x1 (ix1 e))) q) := by
  unfold val_main_v122
  exact gatherRows_norm _ rfl rfl rfl rfl rfl _ _ _ e (col_v121 x1 e) q

/-- The message of edge e at feature q: the projected source row times the two normalising factors. -/
theorem v125_apply (x0 : (⟨S100000x2, .f32⟩ : BufTy).Contents (Elt Ideal)) (x1 : (⟨S2x1600000, .i32⟩ : BufTy).Contents (Elt Ideal)) (x3 : (⟨S32x2, .f32⟩ : BufTy).Contents (Elt Ideal)) (x4 : (⟨S32, .f32⟩ : BufTy).Contents (Elt Ideal))
    (x5 : (⟨S64x32, .f32⟩ : BufTy).Contents (Elt Ideal)) (x6 : (⟨S64, .f32⟩ : BufTy).Contents (Elt Ideal)) (x7 : (⟨S32x64, .f32⟩ : BufTy).Contents (Elt Ideal))
    (e : Fin 1700000) (q : Fin 32) :
    val_main_v125 (F := Ideal) x0 x1 x3 x4 x5 x6 x7 (ix2 e q)
      = val_main_v92 (F := Ideal) x0 x1 x3 x4 x5 x6 x7 (ix2 (rowOf (val_main_v3 (F := Ideal) x1 (ix1 e))) q)
          * (val_main_v100 (F := Ideal) x1 (ix1 (rowOf (val_main_v3 (F := Ideal) x1 (ix1 e))))
              * val_main_v100 (F := Ideal) x1 (ix1 (rowOf (val_main_v6 (F := Ideal) x1 (ix1 e))))) := by
  have hi : idx_main_v123 (idx_main_v124 (ix2 e q)) = ix1 e := funext fun a => by
    match a with
    | ⟨0, _⟩ => rfl
  rw [val_main_v125_apply, val_main_v124_apply, val_main_v123_apply, hi, val_main_v115_apply, v122_apply, v107_apply, v114_apply,
    Ideal.mulf_def, Ideal.mulf_def]

/-! ## The layer -/

/-- The aggregated messages at node i and feature q: zero plus the sum of the messages of the edges whose destination word reads i. -/
theorem v128_apply (x0 : (⟨S100000x2, .f32⟩ : BufTy).Contents (Elt Ideal)) (x1 : (⟨S2x1600000, .i32⟩ : BufTy).Contents (Elt Ideal)) (x3 : (⟨S32x2, .f32⟩ : BufTy).Contents (Elt Ideal)) (x4 : (⟨S32, .f32⟩ : BufTy).Contents (Elt Ideal))
    (x5 : (⟨S64x32, .f32⟩ : BufTy).Contents (Elt Ideal)) (x6 : (⟨S64, .f32⟩ : BufTy).Contents (Elt Ideal)) (x7 : (⟨S32x64, .f32⟩ : BufTy).Contents (Elt Ideal))
    (i : Fin 100000) (q : Fin 32) :
    val_main_v128 (F := Ideal) x0 x1 x3 x4 x5 x6 x7 (ix2 i q)
      = 0 + ∑ e ∈ Finset.univ.filter (fun e : Fin 1700000 => (val_main_v6 (F := Ideal) x1 (ix1 e)).toInt = (i.val : ℤ)),
          val_main_v92 (F := Ideal) x0 x1 x3 x4 x5 x6 x7 (ix2 (rowOf (val_main_v3 (F := Ideal) x1 (ix1 e))) q)
            * (val_main_v100 (F := Ideal) x1 (ix1 (rowOf (val_main_v3 (F := Ideal) x1 (ix1 e))))
                * val_main_v100 (F := Ideal) x1 (ix1 (rowOf (val_main_v6 (F := Ideal) x1 (ix1 e))))) := by
  unfold val_main_v128
  refine (scatterAdd_rows _ rfl rfl rfl rfl _ _ _ i q).trans ?_
  rw [val_main_v126_apply, val_main_cst_30_apply, Ideal.ofBits_def, Ideal.ofBits_zero_f32]
  simp only [col_v127, v125_apply]

end L3

open L3 in
/-- THE THIRD LAYER AT (i, q): the aggregated messages plus the bias, rectified. -/
theorem ref_layer3_apply (x0 : (⟨S100000x2, .f32⟩ : BufTy).Contents (Elt Ideal)) (x1 : (⟨S2x1600000, .i32⟩ : BufTy).Contents (Elt Ideal)) (x3 : (⟨S32x2, .f32⟩ : BufTy).Contents (Elt Ideal)) (x4 : (⟨S32, .f32⟩ : BufTy).Contents (Elt Ideal))
    (x5 : (⟨S64x32, .f32⟩ : BufTy).Contents (Elt Ideal)) (x6 : (⟨S64, .f32⟩ : BufTy).Contents (Elt Ideal)) (x7 : (⟨S32x64, .f32⟩ : BufTy).Contents (Elt Ideal)) (x8 : (⟨S32, .f32⟩ : BufTy).Contents (Elt Ideal))
    (i : Fin 100000) (q : Fin 32) :
    val_main_v132 (F := Ideal) x0 x1 x3 x4 x5 x6 x7 x8 (ix2 i q)
      = max ((0 + ∑ e ∈ Finset.univ.filter (fun e : Fin 1700000 => (val_main_v6 (F := Ideal) x1 (ix1 e)).toInt = (i.val : ℤ)),
                val_main_v92 (F := Ideal) x0 x1 x3 x4 x5 x6 x7 (ix2 (rowOf (val_main_v3 (F := Ideal) x1 (ix1 e))) q)
                  * (val_main_v100 (F := Ideal) x1 (ix1 (rowOf (val_main_v3 (F := Ideal) x1 (ix1 e))))
                      * val_main_v100 (F := Ideal) x1 (ix1 (rowOf (val_main_v6 (F := Ideal) x1 (ix1 e))))))
              + x8 (ix1 q)) 0 := by
  have hb : idx_main_v129 (idx_main_v130 (ix2 i q)) = ix1 q := funext fun a => by
    match a with
    | ⟨0, _⟩ => rfl
  rw [val_main_v132_apply, val_main_v131_apply, val_main_call5_v0_apply, val_main_call5_cst_apply, val_main_v130_apply,
    val_main_v129_apply, hb, v128_apply, Ideal.ofBits_def, Ideal.ofBits_zero_f32, Ideal.addf_def, Ideal.maximumf_def]

end Cert.Gcn.Ref

end
-- ==== Proof.RefPool.lean ====
/-
  The mean pooling and the read-out, as the reference computes them.

  After the third layer both programs sum the node features per graph, divide by the graph's node count clamped
  below at one, and apply the last linear layer. The reference counts the nodes of a graph in floats (a scatter-add of
  ones), the kernel's program in 32-bit words converted afterwards: the two counts are the same number, the number of
  nodes whose graph id is the graph's, so the divisors agree, and with them the pooled features. The read-out at a graph
  is the sum over the 32 features of pooled feature times weight, plus the bias.
-/
import proofs.«423678_j70729521430617_3_alg».proof.Proof.RefRead
import proofs.«423678_j70729521430617_3_alg».proof.Proof.GcnSpec
import proofs.«423678_j70729521430617_3_alg».proof.Proof.LibRowGatherScatter
import proofs.«423678_j70729521430617_3_alg».proof.Proof.LibVecGatherScatter
import proofs.«423678_j70729521430617_3_alg».proof.Proof.KernelTerms
import Idealize.ShloMosaic.Lib.Pipeline.Value
import Idealize.ShloMosaic.Lib.ValueIdx
import Idealize.ShloMosaic.PureOps.Ideal.Laws

noncomputable section

open scoped BigOperators

namespace Cert.Gcn.Ref

open Cert.ReferenceIdeal Cert.ReferenceIdeal.ReadP Cert.Gcn Cert.Gcn.K Idealize.ShloMosaic Idealize.ShloMosaic.ValueIdx

/-! ## Constants spread over an array -/

/-- An integer constant spread over an array reads its word everywhere. -/
theorem pool_spread_word {t : Shape} (h : (⟨0, ![]⟩ : Shape).BroadcastsInDim t (![] : Fin 0 → Fin t.rank)) (b : BitVec 32) :
    broadcastInDim t ![] h (constantI ⟨0, ![]⟩ 32 b) = fun _ => b :=
  funext fun _ => rfl

/-- A float constant spread over an array reads, at the ideal values, the extended real its word denotes everywhere. -/
theorem pool_spread_float {t : Shape} (h : (⟨0, ![]⟩ : Shape).BroadcastsInDim t (![] : Fin 0 → Fin t.rank)) (b : BitVec 32) :
    broadcastInDim t ![] h (constant (F := Ideal) ⟨0, ![]⟩ .f32 b) = fun _ => Ideal.ofBits .f32 b :=
  funext fun _ => rfl

/-! ## The node counts -/

/-- The two programs scatter the counts by the same dimension numbers … -/
theorem pool_count_dims_eq : Cert.KernelIdeal.scatter_S512_S100000x1_S100000_n_0_0_1
    = Cert.ReferenceIdeal.scatter_S512_S100000x1_S100000_n_0_0_1 := rfl

/-- … at the same index column, the graph ids as one column. -/
theorem pool_count_col_eq (x2 : IVec Cert.KernelIdeal.S100000 32) : batchCol x2 = val_main_v138 (F := Ideal) x2 := rfl

/-- A graph's node count in 32-bit words, converted, is the reference's float count: both are the number of nodes whose
    graph id is the graph's (there are 100000 nodes, so the word count does not wrap). -/
theorem pool_count_eq_ref (x2 : IVec Cert.KernelIdeal.S100000 32) :
    (sitofp .f32 (cntWord x2) : FVec Ideal Cert.KernelIdeal.S512 .f32) = val_main_v139 (F := Ideal) x2 := by
  funext i
  unfold cntWord val_main_v139 val_main_v137 val_main_cst_33 val_main_v136 val_main_cst_32
  rw [pool_spread_word _ 0#32, pool_spread_word _ 1#32, pool_spread_float _ 0x00000000#32, pool_spread_float _ 0x3F800000#32,
    Ideal.ofBits_zero_f32, ofBits_one_f32, pool_count_dims_eq, pool_count_col_eq]
  exact sitofp_scatter_ones_eq Cert.ReferenceIdeal.scatter_S512_S100000x1_S100000_n_0_0_1 (val_main_v138 (F := Ideal) x2)
    (by decide) i

/-! ## The divisor and the pooled features -/

/-- THE DIVISOR of the mean pooling is the reference's: the count clamped below at one, spread over the feature columns. -/
theorem poolDenom_eq_ref (x2 : IVec Cert.KernelIdeal.S100000 32) : poolDenom x2 = val_main_v143 (F := Ideal) x2 := by
  unfold poolDenom val_main_v143 val_main_v142 val_main_v141 val_main_v140 val_main_cst_34
  rw [pool_count_eq_ref]

/-- The two programs sum the features per graph by the same dimension numbers … -/
theorem pool_sum_dims_eq : Cert.KernelIdeal.scatter_S512x32_S100000x1_S100000x32_1_0_0_1
    = Cert.ReferenceIdeal.scatter_S512x32_S100000x1_S100000x32_1_0_0_1 := rfl

/-- … at the same index column … -/
theorem pool_sum_col_eq (x2 : IVec Cert.KernelIdeal.S100000 32) : batchCol x2 = val_main_v134 (F := Ideal) x2 := rfl

/-- … from the same array of zeros. -/
theorem pool_zeros_eq : broadcastInDim Cert.KernelIdeal.S512x32 ![] Cert.KernelIdeal.Facts₀.bcast_S_S512x32
      (constant (F := Ideal) Cert.KernelIdeal.S_ .f32 0x00000000#32) = val_main_v133 (F := Ideal) := rfl

/-- THE POOLED FEATURES of any node features `hf` are the reference's divide of its per-graph sums by its divisor. -/
theorem pooled_eq_ref (hf : FVec Ideal Cert.KernelIdeal.S100000x32 .f32) (x2 : IVec Cert.KernelIdeal.S100000 32) :
    pooled hf x2 = Host.divf (Host.scatterAdd Cert.ReferenceIdeal.scatter_S512x32_S100000x1_S100000x32_1_0_0_1
      (val_main_v133 (F := Ideal)) (val_main_v134 (F := Ideal) x2) hf) (val_main_v143 (F := Ideal) x2) := by
  unfold pooled
  rw [poolDenom_eq_ref, pool_sum_dims_eq, pool_sum_col_eq, pool_zeros_eq]

/-- The reference's pooled features are the pooling of its last activation. -/
theorem ref_pooled_eq (x0 : (⟨S100000x2, .f32⟩ : BufTy).Contents (Elt Ideal)) (x1 : (⟨S2x1600000, .i32⟩ : BufTy).Contents (Elt Ideal)) (x2 : (⟨S100000, .i32⟩ : BufTy).Contents (Elt Ideal)) (x3 : (⟨S32x2, .f32⟩ : BufTy).Contents (Elt Ideal)) (x4 : (⟨S32, .f32⟩ : BufTy).Contents (Elt Ideal)) (x5 : (⟨S64x32, .f32⟩ : BufTy).Contents (Elt Ideal)) (x6 : (⟨S64, .f32⟩ : BufTy).Contents (Elt Ideal)) (x7 : (⟨S32x64, .f32⟩ : BufTy).Contents (Elt Ideal)) (x8 : (⟨S32, .f32⟩ : BufTy).Contents (Elt Ideal)) :
    val_main_v144 (F := Ideal) x0 x1 x2 x3 x4 x5 x6 x7 x8
      = pooled (val_main_v132 (F := Ideal) x0 x1 x3 x4 x5 x6 x7 x8) x2 := by
  rw [pooled_eq_ref]
  rfl

/-! ## The read-out -/

/-- THE REFERENCE'S RESULT at graph `g`: the sum over the 32 features of pooled feature times weight, plus the bias. -/
theorem ref_out_apply (x0 : (⟨S100000x2, .f32⟩ : BufTy).Contents (Elt Ideal)) (x1 : (⟨S2x1600000, .i32⟩ : BufTy).Contents (Elt Ideal)) (x2 : (⟨S100000, .i32⟩ : BufTy).Contents (Elt Ideal)) (x3 : (⟨S32x2, .f32⟩ : BufTy).Contents (Elt Ideal)) (x4 : (⟨S32, .f32⟩ : BufTy).Contents (Elt Ideal)) (x5 : (⟨S64x32, .f32⟩ : BufTy).Contents (Elt Ideal)) (x6 : (⟨S64, .f32⟩ : BufTy).Contents (Elt Ideal)) (x7 : (⟨S32x64, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) (g : Fin 512) :
    val_main_v149 (F := Ideal) x0 x1 x2 x3 x4 x5 x6 x7 x8 x9 x10 (ix2 g (0 : Fin 1))
      = (∑ k : Fin 32, val_main_v144 (F := Ideal) x0 x1 x2 x3 x4 x5 x6 x7 x8 (ix2 g k) * x9 (ix2 (0 : Fin 1) k))
          + x10 (ix1 (0 : Fin 1)) := by
  rw [val_main_v149_apply, val_main_v146_apply, val_main_v148_apply, val_main_v147_apply]
  have hb : idx_main_v147 (idx_main_v148 (ix2 g (0 : Fin 1))) = ix1 (0 : Fin 1) :=
    funext fun a => by match a with | ⟨0, _⟩ => rfl
  rw [hb]
  refine congrArg (· + x10 (ix1 (0 : Fin 1))) (Finset.sum_congr rfl fun k _ => ?_)
  rw [val_main_v145_apply]
  have hl : lidx_main_v146 (ix2 g (0 : Fin 1)) k = ix2 g k :=
    funext fun a => by match a with | ⟨0, _⟩ => rfl | ⟨1, _⟩ => rfl
  have hr : idx_main_v145 (ridx_main_v146 (ix2 g (0 : Fin 1)) k) = ix2 (0 : Fin 1) k :=
    funext fun a => by match a with | ⟨0, _⟩ => rfl | ⟨1, _⟩ => rfl
  rw [hl, hr]

end Cert.Gcn.Ref

end
-- ==== Proof.GcnAlgebra.lean ====
/-
  The algebra of a graph-convolution layer on the extended reals.

  A layer sums, over the edges e arriving at node i, the source's features times the symmetric normalisation
  dinv(src e) · dinv(i). The factor dinv(i) is the same for every edge arriving at i, so it may be taken out of
  the sum. On the extended reals a factor distributes over a sum when it is nonnegative and not +∞, whatever the
  summands are (a −∞ summand makes both sides −∞, otherwise a +∞ summand makes both sides +∞, and a zero factor
  makes both sides zero), and dinv(i) is such a factor: it is zero, or the reciprocal square root of a positive
  count.
-/
import Mathlib.Data.EReal.Operations
import Mathlib.Algebra.BigOperators.Group.Finset.Basic
import Idealize.ShloMosaic.PureOps.Ideal

noncomputable section

namespace Cert.Gcn

open Idealize.ShloMosaic

/-- A nonnegative factor other than +∞ distributes over a finite sum of extended reals. -/
theorem sum_mul_of_nonneg_ne_top {ι : Type} (s : Finset ι) (a : ι → EReal) {c : EReal} (h0 : 0 ≤ c) (ht : c ≠ ⊤) :
    (∑ e ∈ s, a e) * c = ∑ e ∈ s, a e * c := by
  classical
  induction s using Finset.induction_on with
  | empty => simp
  | insert x s hx ih =>
    rw [Finset.sum_insert hx, Finset.sum_insert hx, EReal.right_distrib_of_nonneg_of_ne_top h0 ht, ih]

/-- One node of a layer: the sum of prescaled source rows, scaled once by the node's own factor, is the sum of
    the source rows each scaled by the product of the two factors. -/
theorem layer_sum_eq {ι : Type} (s : Finset ι) (h d : ι → EReal) {c : EReal} (h0 : 0 ≤ c) (ht : c ≠ ⊤) :
    (0 + ∑ e ∈ s, h e * d e) * c = 0 + ∑ e ∈ s, h e * (d e * c) := by
  rw [zero_add, zero_add, sum_mul_of_nonneg_ne_top s _ h0 ht]
  exact Finset.sum_congr rfl fun e _ => mul_assoc _ _ _

/-- The normalising factor of a node from its degree: the reciprocal square root where the degree is positive,
    zero elsewhere. -/
def dinvOf (deg : EReal) : EReal :=
  Scalar.select (Ideal.cmp .ogt deg 0) (Ideal.rsqrt deg) 0

/-- At a degree that is a nonnegative integer the factor is a nonnegative real. -/
theorem dinvOf_int (k : ℤ) : 0 ≤ dinvOf ((k : ℝ) : EReal) ∧ dinvOf ((k : ℝ) : EReal) ≠ ⊤ := by
  unfold dinvOf Scalar.select Ideal.cmp
  by_cases hpos : (0 : EReal) < ((k : ℝ) : EReal)
  · have hr : (0 : ℝ) < (k : ℝ) := by exact_mod_cast hpos
    simp only [hpos, decide_true, BitVec.ofBool_true, if_true]
    rw [Ideal.rsqrt_coe, if_neg (not_lt.2 hr.le), if_neg hr.ne']
    refine ⟨?_, EReal.coe_ne_top _⟩
    exact_mod_cast inv_nonneg.2 (Real.sqrt_nonneg _)
  · simp only [hpos, decide_false, BitVec.ofBool_false]
    rw [if_neg (by decide)]
    exact ⟨le_refl _, EReal.zero_ne_top⟩

end Cert.Gcn

end
-- ==== Proof.DinvBridge.lean ====
/-
  The kernel's program and the reference compute the same index vectors and the same normalising factors.

  Both build the source and destination vectors from the edge list by the same operations (a row sliced, flattened,
  followed by the node numbers). Both then count, for each node, the entries of the destination vector that read
  it, and take the reciprocal square root of the count where it is positive and zero elsewhere. The kernel's program
  counts in 32-bit integer words (ones added by an integer scatter) and converts the count to a float; the reference
  adds the float 1.0 by a float scatter. There are 1700000 updates, fewer than 2³¹, so the integer count does not wrap;
  read as a real it is the number of updates landing on the node, and so is the exact float sum of that many ones. The
  reference recomputes the factors in each of its three layers by the same operations.

  The factor is 0 or the reciprocal square root of a positive integer: a nonnegative real, never +∞.
-/
import proofs.«423678_j70729521430617_3_alg».proof.Proof.RefRead
import proofs.«423678_j70729521430617_3_alg».proof.Proof.GcnAlgebra
import proofs.«423678_j70729521430617_3_alg».proof.Proof.LibVecGatherScatter
import proofs.«423678_j70729521430617_3_alg».proof.Proof.KernelTerms
import Idealize.ShloMosaic.Lib.Pipeline.Value
import Idealize.ShloMosaic.Lib.ValueIdx
import Idealize.ShloMosaic.PureOps.Ideal.Laws

noncomputable section

namespace Cert.Gcn.Ref

open Cert.ReferenceIdeal Cert.ReferenceIdeal.ReadP Cert.Gcn Cert.Gcn.K Idealize.ShloMosaic Idealize.ShloMosaic.ValueIdx

/-! ## The index vectors -/

/-- The kernel's source vector is the reference's: the same operations on the edge list. -/
theorem srcVec_eq_ref (x1 : IVec Cert.KernelIdeal.S2x1600000 32) : Cert.Gcn.K.srcVec x1 = val_main_v3 (F := Ideal) x1 := rfl

/-- The kernel's destination vector is the reference's. -/
theorem dstVec_eq_ref (x1 : IVec Cert.KernelIdeal.S2x1600000 32) : Cert.Gcn.K.dstVec x1 = val_main_v6 (F := Ideal) x1 := rfl

/-- The destination vector as a one-column index array is the reference's, in each of its three layers. -/
theorem dstCol_eq_ref (x1 : IVec Cert.KernelIdeal.S2x1600000 32) : dstCol x1 = val_main_v11 (F := Ideal) x1 := rfl
theorem dstCol_eq_ref2 (x1 : IVec Cert.KernelIdeal.S2x1600000 32) : dstCol x1 = val_main_v53 (F := Ideal) x1 := rfl
theorem dstCol_eq_ref3 (x1 : IVec Cert.KernelIdeal.S2x1600000 32) : dstCol x1 = val_main_v95 (F := Ideal) x1 := rfl

/-! ## The degree: an integer count and a float count -/

/-- The two programs' dimension numbers of the degree scatter are the same record. -/
theorem degDims_eq : Cert.KernelIdeal.scatter_S100000_S1700000x1_S1700000_n_0_0_1
    = Cert.ReferenceIdeal.scatter_S100000_S1700000x1_S1700000_n_0_0_1 := rfl

/-- A broadcast integer constant is that word everywhere. -/
theorem bcast_constI_fun {t : Shape} {w : Nat} (h : (⟨0, ![]⟩ : Shape).BroadcastsInDim t ![]) (b : BitVec w) :
    broadcastInDim t ![] h (constantI (⟨0, ![]⟩ : Shape) w b) = fun _ => b := rfl

/-- The kernel's degree words are the integer scatter of ones from zeros along the destination column. -/
theorem degWord_eq (x1 : IVec Cert.KernelIdeal.S2x1600000 32) :
    degWord x1 = Host.scatter Cert.KernelIdeal.scatter_S100000_S1700000x1_S1700000_n_0_0_1 IntOp.addi
      (fun _ => (0#32 : BitVec 32)) (dstCol x1) (fun _ => (1#32 : BitVec 32)) := by
  unfold degWord
  rw [bcast_constI_fun, bcast_constI_fun]

/-- The reference's degrees are the float scatter-add of ones from zeros along the same column. -/
theorem ref_deg_eq (x1 : IVec Cert.KernelIdeal.S2x1600000 32) :
    val_main_v12 (F := Ideal) x1
      = Host.scatterAdd (F := Ideal) (φ := .f32) Cert.KernelIdeal.scatter_S100000_S1700000x1_S1700000_n_0_0_1
          (fun _ => (0 : EReal)) (dstCol x1) (fun _ => (1 : EReal)) := by
  have h10 : val_main_v10 (F := Ideal) = fun _ => (0 : EReal) := funext fun i => by
    rw [val_main_v10_apply, val_main_cst_0_apply]; exact Ideal.ofBits_zero_f32
  have h9 : val_main_v9 (F := Ideal) = fun _ => (1 : EReal) := funext fun i => by
    rw [val_main_v9_apply, val_main_cst_apply]; exact ofBits_one_f32
  unfold val_main_v12
  rw [h10, h9, ← dstCol_eq_ref x1, ← degDims_eq]

/-- THE DEGREES AGREE: the kernel's integer count at a node, read as a real, is the reference's float count there. -/
theorem deg_eq_ref (x1 : IVec Cert.KernelIdeal.S2x1600000 32) (r : Fin 100000) :
    (((degWord x1 (ix1 r)).toInt : ℝ) : EReal) = val_main_v12 (F := Ideal) x1 (ix1 r) := by
  rw [degWord_eq, ref_deg_eq]
  exact sitofp_scatter_ones_eq Cert.KernelIdeal.scatter_S100000_S1700000x1_S1700000_n_0_0_1 (dstCol x1) (by decide) (ix1 r)

/-! ## The normalising factors -/

/-- The select of the reciprocal square root on a positive degree, against a zero written as its f32 word, is the
    factor's formula. -/
theorem dinv_select_form (D : EReal) :
    Scalar.select (Ideal.cmp .ogt D (Ideal.ofBits .f32 0x00000000#32)) (Ideal.rsqrt D) (Ideal.ofBits .f32 0x00000000#32)
      = dinvOf D := by
  rw [Ideal.ofBits_zero_f32]; rfl

/-- The factor's operations over any vector of degree words, read at a node. -/
theorem dinv_ops_apply (dw : IVec Cert.KernelIdeal.S100000 32)
    (hb : Cert.KernelIdeal.S_.BroadcastsInDim Cert.KernelIdeal.S100000 ![]) (r : Fin 100000) :
    select
      (cmpf .ogt (sitofp (F := Ideal) .f32 dw) (broadcastInDim Cert.KernelIdeal.S100000 ![] hb (constant (F := Ideal) Cert.KernelIdeal.S_ .f32 0x00000000#32)))
      (Host.rsqrt (sitofp (F := Ideal) .f32 dw))
      (broadcastInDim Cert.KernelIdeal.S100000 ![] hb (constant (F := Ideal) Cert.KernelIdeal.S_ .f32 0x00000000#32)) (ix1 r)
      = dinvOf (((dw (ix1 r)).toInt : ℝ) : EReal) :=
  dinv_select_form _

/-- The kernel's factor at a node is the formula at the node's degree count. -/
theorem dinvVec_apply (x1 : IVec Cert.KernelIdeal.S2x1600000 32) (r : Fin 100000) :
    dinvVec x1 (ix1 r) = dinvOf (((degWord x1 (ix1 r)).toInt : ℝ) : EReal) :=
  dinv_ops_apply (degWord x1) _ r

/-- The reference's factor at a node is the formula at its float count. -/
theorem ref_dinv_apply (x1 : IVec Cert.KernelIdeal.S2x1600000 32) (r : Fin 100000) :
    val_main_v16 (F := Ideal) x1 (ix1 r) = dinvOf (val_main_v12 (F := Ideal) x1 (ix1 r)) := by
  rw [val_main_v16_apply, val_main_v14_apply, val_main_v15_apply, val_main_v13_apply, val_main_cst_1_apply,
    val_main_call0_v1_apply, val_main_call0_v0_apply, val_main_cst_2_apply]
  generalize val_main_v12 (F := Ideal) x1 (ix1 r) = D
  exact dinv_select_form D

/-- THE FACTORS AGREE at every node. -/
theorem dinv_ref_eq (x1 : IVec Cert.KernelIdeal.S2x1600000 32) (r : Fin 100000) :
    dinvVec x1 (ix1 r) = val_main_v16 (F := Ideal) x1 (ix1 r) := by
  rw [dinvVec_apply, ref_dinv_apply, deg_eq_ref]

/-- The reference's second layer recomputes the same factors. -/
theorem dinv_ref2_eq (x1 : IVec Cert.KernelIdeal.S2x1600000 32) : val_main_v58 (F := Ideal) x1 = val_main_v16 (F := Ideal) x1 := rfl

/-- The reference's third layer recomputes the same factors. -/
theorem dinv_ref3_eq (x1 : IVec Cert.KernelIdeal.S2x1600000 32) : val_main_v100 (F := Ideal) x1 = val_main_v16 (F := Ideal) x1 := rfl

/-- A factor is a nonnegative real. -/
theorem dinvVec_nonneg_ne_top (x1 : IVec Cert.KernelIdeal.S2x1600000 32) (r : Fin 100000) :
    0 ≤ dinvVec x1 (ix1 r) ∧ dinvVec x1 (ix1 r) ≠ ⊤ := by
  rw [dinvVec_apply]
  exact dinvOf_int _

/-- The factors as a one-column array: row r holds node r's factor. -/
theorem dinvCol_apply (x1 : IVec Cert.KernelIdeal.S2x1600000 32) (r : Fin 100000) :
    dinvCol x1 (ix2 r (0 : Fin 1)) = dinvVec x1 (ix1 r) := by
  unfold dinvCol
  generalize dinvVec x1 = y
  refine shapeCast_apply y _ (ix2 r (0 : Fin 1)) (ix1 r) ?_
  rw [Shape.rowMajor_val_one, Shape.rowMajor_val_two]
  show r.val = r.val * 1 + 0
  omega

end Cert.Gcn.Ref

end
-- ==== Proof.Bridge.lean ====
/-
  The kernel's computation and the reference's are one function of the arguments.

  Both programs run three graph-convolution layers. In a layer the reference sums, over the edges e arriving at
  node i, the source's projected features times dinv(src e) · dinv(i); the kernel scales every node's projected
  features by its own dinv first, sums the gathered rows, and scales the sum by dinv(i) afterwards. A factor that
  is nonnegative and not +∞ distributes over a sum of extended reals, and dinv(i) is zero or the reciprocal square
  root of a positive count, so the two sums agree at every node, whatever the features are. The sources gathered
  are the same rows on both sides: the kernel's gather fills rows whose index is out of range with a junk value,
  and the precondition keeps every source index in range, so no row is filled. The two programs count degrees and
  graph sizes in integers and in floats respectively; the counts are the same numbers. The dense stages, the
  rectifiers, the mean pooling and the read-out are the same operations on equal operands.
-/
import proofs.«423678_j70729521430617_3_alg».proof.Proof.KernelStages
import proofs.«423678_j70729521430617_3_alg».proof.Proof.RefLayer1
import proofs.«423678_j70729521430617_3_alg».proof.Proof.RefLayer2
import proofs.«423678_j70729521430617_3_alg».proof.Proof.RefLayer3
import proofs.«423678_j70729521430617_3_alg».proof.Proof.RefPool
import proofs.«423678_j70729521430617_3_alg».proof.Proof.DinvBridge
import proofs.«423678_j70729521430617_3_alg».proof.Proof.GcnAlgebra
import proofs.«423678_j70729521430617_3_alg».proof.Proof.LibRowGatherScatter
import Idealize.ShloMosaic.Lib.Pipeline.Value
import Idealize.ShloMosaic.Lib.ValueIdx
import Idealize.ShloMosaic.PureOps.Ideal.Laws

set_option maxRecDepth 16384

noncomputable section

namespace Cert.Gcn.Bridge

open Cert.KernelIdeal Cert.Gcn Cert.Gcn.K Cert.Gcn.Ref Cert.ReferenceIdeal.ReadP
open Idealize.ShloMosaic Idealize.ShloMosaic.ValueIdx

/-! ## Small readings -/

/-- A broadcast zero constant reads 0 everywhere. -/
theorem bcast_zero_apply {T : Shape} (h : (⟨0, ![]⟩ : Shape).BroadcastsInDim T ![]) (j : T.Idx) :
    broadcastInDim T ![] h (constant (F := Ideal) (⟨0, ![]⟩ : Shape) .f32 0x00000000#32) j = (0 : EReal) := by
  exact (show _ = Ideal.ofBits .f32 0x00000000#32 from rfl).trans Ideal.ofBits_zero_f32

/-- The one-column index array of an index vector reads the vector's entry. -/
theorem idxCol_apply (v : IVec S1700000 32) (e : Fin 1700000) : idxCol v (ix2 e (0 : Fin 1)) = v (ix1 e) := by
  unfold idxCol
  refine broadcastInDim_apply _ _ v (ix2 e (0 : Fin 1)) (ix1 e) (fun a => ?_)
  match a with
  | ⟨0, _⟩ => show e.val = if (1700000 : Nat) = 1 then 0 else e.val; rw [if_neg (by decide)]

/-- A 32-entry bias laid out as a row reads its entries. -/
theorem biasRow32_apply (b : FVec Ideal S32 .f32) (k : Fin 32) : biasRow32 b (ix2 (0 : Fin 1) k) = b (ix1 k) := by
  unfold biasRow32
  refine shapeCast_apply b _ (ix2 (0 : Fin 1) k) (ix1 k) ?_
  rw [Shape.rowMajor_val_one, Shape.rowMajor_val_two]
  show k.val = 0 * 32 + k.val
  omega

/-- A 64-entry bias laid out as a row reads its entries. -/
theorem biasRow64_apply (b : FVec Ideal S64 .f32) (k : Fin 64) : biasRow64 b (ix2 (0 : Fin 1) k) = b (ix1 k) := by
  unfold biasRow64
  refine shapeCast_apply b _ (ix2 (0 : Fin 1) k) (ix1 k) ?_
  rw [Shape.rowMajor_val_one, Shape.rowMajor_val_two]
  show k.val = 0 * 64 + k.val
  omega

/-- The read-out's bias laid out as a 1 × 1 array reads its one entry. -/
theorem biasCell_apply (b : FVec Ideal S1 .f32) : biasCell b (ix2 (0 : Fin 1) (0 : Fin 1)) = b (ix1 (0 : Fin 1)) := by
  unfold biasCell
  refine shapeCast_apply b _ (ix2 (0 : Fin 1) (0 : Fin 1)) (ix1 (0 : Fin 1)) ?_
  rw [Shape.rowMajor_val_one, Shape.rowMajor_val_two]
  show (0 : Nat) = 0 * 1 + 0
  omega

/-! ## The kernel's aggregation at one node -/

/-- With every source index in range, the sum over arriving edges of the rows gathered at their sources. -/
theorem agg32_apply (H : FVec Ideal S100000x32 .f32) (a1 : IVec S2x1600000 32)
    (hs : ∀ e : Fin 1700000, -100000 ≤ (srcVec a1 (ix1 e)).toInt ∧ (srcVec a1 (ix1 e)).toInt < 100000)
    (i : Fin 100000) (q : Fin 32) :
    agg32 (take32 (F := Ideal) H (srcVec a1)) (dstVec a1) (ix2 i q)
      = 0 + ∑ e ∈ Finset.univ.filter (fun e : Fin 1700000 => (dstVec a1 (ix1 e)).toInt = (i.val : ℤ)),
          H (ix2 (rowOf (srcVec a1 (ix1 e))) q) := by
  unfold agg32
  rw [Cert.Gcn.scatterAdd_rows _ rfl rfl rfl rfl, bcast_zero_apply]
  refine congrArg (fun t => (0 : EReal) + t) ?_
  refine Finset.sum_congr (Finset.filter_congr fun e _ => by rw [idxCol_apply]) (fun e _ => ?_)
  exact take32_apply H (srcVec a1) hs e q

/-- The same over 64 feature columns. -/
theorem agg64_apply (H : FVec Ideal S100000x64 .f32) (a1 : IVec S2x1600000 32)
    (hs : ∀ e : Fin 1700000, -100000 ≤ (srcVec a1 (ix1 e)).toInt ∧ (srcVec a1 (ix1 e)).toInt < 100000)
    (i : Fin 100000) (q : Fin 64) :
    agg64 (take64 (F := Ideal) H (srcVec a1)) (dstVec a1) (ix2 i q)
      = 0 + ∑ e ∈ Finset.univ.filter (fun e : Fin 1700000 => (dstVec a1 (ix1 e)).toInt = (i.val : ℤ)),
          H (ix2 (rowOf (srcVec a1 (ix1 e))) q) := by
  unfold agg64
  rw [Cert.Gcn.scatterAdd_rows _ rfl rfl rfl rfl, bcast_zero_apply]
  refine congrArg (fun t => (0 : EReal) + t) ?_
  refine Finset.sum_congr (Finset.filter_congr fun e _ => by rw [idxCol_apply]) (fun e _ => ?_)
  exact take64_apply H (srcVec a1) hs e q

/-! ## One node of one layer -/

/-- If the kernel's rows are the reference's rows each scaled by its node's factor, the two layers agree at a
    node: the arriving edges' rows summed and scaled once by the node's factor, against each row scaled by the
    product of the two ends' factors. -/
theorem layer_node_eq {C : Nat} (Hk Hr : (⟨2, ![100000, C]⟩ : Shape).Idx → EReal) (D : Fin 100000 → EReal)
    (hD : ∀ r, 0 ≤ D r ∧ D r ≠ ⊤) (hH : ∀ r q, Hk (ix2 r q) = Hr (ix2 r q) * D r)
    (s d : Fin 1700000 → BitVec 32) (b : EReal) (i : Fin 100000) (q : Fin C) :
    max ((0 + ∑ e ∈ Finset.univ.filter (fun e : Fin 1700000 => (d e).toInt = (i.val : ℤ)), Hk (ix2 (rowOf (s e)) q)) * D i + b) 0
      = max ((0 + ∑ e ∈ Finset.univ.filter (fun e : Fin 1700000 => (d e).toInt = (i.val : ℤ)),
                Hr (ix2 (rowOf (s e)) q) * (D (rowOf (s e)) * D (rowOf (d e)))) + b) 0 := by
  refine congrArg (fun t => max (t + b) 0) ?_
  have h1 : ∑ e ∈ Finset.univ.filter (fun e : Fin 1700000 => (d e).toInt = (i.val : ℤ)), Hk (ix2 (rowOf (s e)) q)
      = ∑ e ∈ Finset.univ.filter (fun e : Fin 1700000 => (d e).toInt = (i.val : ℤ)), Hr (ix2 (rowOf (s e)) q) * D (rowOf (s e)) :=
    Finset.sum_congr rfl (fun e _ => hH (rowOf (s e)) q)
  rw [h1]
  refine (layer_sum_eq _ (fun e => Hr (ix2 (rowOf (s e)) q)) (fun e => D (rowOf (s e))) (hD i).1 (hD i).2).trans ?_
  refine congrArg (fun t => (0 : EReal) + t) (Finset.sum_congr rfl (fun e he => ?_))
  show Hr (ix2 (rowOf (s e)) q) * (D (rowOf (s e)) * D i) = _
  rw [rowOf_of_toInt_eq (d e) i (Finset.mem_filter.1 he).2]

/-! ## The three layers -/

section Layers

variable (a0 : FVec Ideal S100000x2 .f32) (a1 : IVec S2x1600000 32) (a2 : IVec S100000 32)
  (a3 : FVec Ideal S32x2 .f32) (a4 : FVec Ideal S32 .f32) (a5 : FVec Ideal S64x32 .f32) (a6 : FVec Ideal S64 .f32)
  (a7 : FVec Ideal S32x64 .f32) (a8 : FVec Ideal S32 .f32) (a9 : FVec Ideal S1x32 .f32) (a10 : FVec Ideal S1 .f32)
  (hs : ∀ e : Fin 1700000, -100000 ≤ (srcVec a1 (ix1 e)).toInt ∧ (srcVec a1 (ix1 e)).toInt < 100000)

/-- Layer 1: the kernel's prescaled projection is the reference's projection scaled by the node's factor. -/
theorem rows1 (r : Fin 100000) (q : Fin 32) :
    stH1 a0 a1 a3 (ix2 r q) = val_main_v8 (F := Ideal) a0 a3 (ix2 r q) * dinvVec a1 (ix1 r) := by
  unfold stH1
  rw [linScale_apply, dinvCol_apply, ref_h1_apply]

include hs in
/-- Layer 1's output (bias and rectifier applied) agrees with the reference's at every node and feature. -/
theorem layer1 (i : Fin 100000) (k : Fin 32) :
    biasRelu 100000 32 (stG1 a0 a1 a3) (dinvCol a1) (biasRow32 a4) (ix2 i k)
      = val_main_v48 (F := Ideal) a0 a1 a3 a4 (ix2 i k) := by
  rw [biasRelu_apply, dinvCol_apply, biasRow32_apply, ref_layer1_apply]
  unfold stG1
  rw [agg32_apply _ _ hs, ← srcVec_eq_ref a1, ← dstVec_eq_ref a1]
  simp only [← dinv_ref_eq a1]
  exact layer_node_eq (stH1 a0 a1 a3) (val_main_v8 (F := Ideal) a0 a3) (fun r => dinvVec a1 (ix1 r))
    (dinvVec_nonneg_ne_top a1) (rows1 a0 a1 a3) (fun e => srcVec a1 (ix1 e)) (fun e => dstVec a1 (ix1 e)) (a4 (ix1 k)) i k

include hs in
/-- Layer 2: the kernel's prescaled projection of layer 1's output is the reference's projection scaled by the
    node's factor. -/
theorem rows2 (r : Fin 100000) (q : Fin 64) :
    stH2 a0 a1 a3 a4 a5 (ix2 r q) = val_main_v50 (F := Ideal) a0 a1 a3 a4 a5 (ix2 r q) * dinvVec a1 (ix1 r) := by
  unfold stH2 fusedLayer
  rw [linScale_apply, dinvCol_apply, ref_h2_apply]
  refine congrArg (fun t => t * dinvVec a1 (ix1 r)) (Finset.sum_congr rfl fun k _ => ?_)
  rw [layer1 a0 a1 a3 a4 hs r k]

include hs in
theorem layer2 (i : Fin 100000) (k : Fin 64) :
    biasRelu 100000 64 (stG2 a0 a1 a3 a4 a5) (dinvCol a1) (biasRow64 a6) (ix2 i k)
      = val_main_v90 (F := Ideal) a0 a1 a3 a4 a5 a6 (ix2 i k) := by
  rw [biasRelu_apply, dinvCol_apply, biasRow64_apply, ref_layer2_apply]
  unfold stG2
  rw [agg64_apply _ _ hs, ← srcVec_eq_ref a1, ← dstVec_eq_ref a1, dinv_ref2_eq a1]
  simp only [← dinv_ref_eq a1]
  exact layer_node_eq (stH2 a0 a1 a3 a4 a5) (val_main_v50 (F := Ideal) a0 a1 a3 a4 a5) (fun r => dinvVec a1 (ix1 r))
    (dinvVec_nonneg_ne_top a1) (rows2 a0 a1 a3 a4 a5 hs) (fun e => srcVec a1 (ix1 e)) (fun e => dstVec a1 (ix1 e)) (a6 (ix1 k)) i k

include hs in
theorem rows3 (r : Fin 100000) (q : Fin 32) :
    stH3 a0 a1 a3 a4 a5 a6 a7 (ix2 r q)
      = val_main_v92 (F := Ideal) a0 a1 a3 a4 a5 a6 a7 (ix2 r q) * dinvVec a1 (ix1 r) := by
  unfold stH3 fusedLayer
  rw [linScale_apply, dinvCol_apply, ref_h3_apply]
  refine congrArg (fun t => t * dinvVec a1 (ix1 r)) (Finset.sum_congr rfl fun k _ => ?_)
  rw [layer2 a0 a1 a3 a4 a5 a6 hs r k]

include hs in
/-- Layer 3's output, the node features that are pooled, agrees with the reference's. -/
theorem layer3 (i : Fin 100000) (k : Fin 32) :
    stHf a0 a1 a3 a4 a5 a6 a7 a8 (ix2 i k) = val_main_v132 (F := Ideal) a0 a1 a3 a4 a5 a6 a7 a8 (ix2 i k) := by
  unfold stHf
  rw [biasRelu_apply, dinvCol_apply, biasRow32_apply, ref_layer3_apply]
  unfold stG3
  rw [agg32_apply _ _ hs, ← srcVec_eq_ref a1, ← dstVec_eq_ref a1, dinv_ref3_eq a1]
  simp only [← dinv_ref_eq a1]
  exact layer_node_eq (stH3 a0 a1 a3 a4 a5 a6 a7) (val_main_v92 (F := Ideal) a0 a1 a3 a4 a5 a6 a7)
    (fun r => dinvVec a1 (ix1 r)) (dinvVec_nonneg_ne_top a1) (rows3 a0 a1 a3 a4 a5 a6 a7 hs)
    (fun e => srcVec a1 (ix1 e)) (fun e => dstVec a1 (ix1 e)) (a8 (ix1 k)) i k

include hs in
theorem features_eq : stHf a0 a1 a3 a4 a5 a6 a7 a8 = val_main_v132 (F := Ideal) a0 a1 a3 a4 a5 a6 a7 a8 := by
  funext j
  obtain ⟨i, k, rfl⟩ : ∃ (i : Fin 100000) (k : Fin 32), j = ix2 i k := ⟨j 0, j 1, eq_ix2 j⟩
  exact layer3 a0 a1 a3 a4 a5 a6 a7 a8 hs i k

include hs in
/-- THE TWO RESULTS ARE EQUAL: pooled means of equal features over equal counts, then the same read-out. -/
theorem result_eq :
    kernelOut a0 a1 a2 a3 a4 a5 a6 a7 a8 a9 a10 = val_main_v149 (F := Ideal) a0 a1 a2 a3 a4 a5 a6 a7 a8 a9 a10 := by
  funext j
  obtain ⟨g, z, rfl⟩ : ∃ (g : Fin 512) (z : Fin 1), j = ix2 g z := ⟨j 0, j 1, eq_ix2 j⟩
  obtain rfl : z = 0 := Subsingleton.elim _ _
  unfold kernelOut
  rw [readOut_apply, ref_out_apply, ref_pooled_eq, biasCell_apply, features_eq a0 a1 a3 a4 a5 a6 a7 a8 hs]

end Layers

end Cert.Gcn.Bridge

end
-- ==== Proof.lean ====
/-
  A three-layer graph convolution with mean pooling and a linear read-out, computed by five launched dense stages
  around host gathers and segment sums, is the plain formulation's function of its arguments over the extended
  reals, for finite features and weights and source indices in range.

  The frames of the two kernel programs are the generated ones; the reference's frame is its run with the result
  dropped. The idealized kernel's run names its result buffer's contents, and reading them back through the
  program's segments gives one closed function of the arguments (the stages: a prescaled projection, the row
  gather at the edges' sources, the sum over arriving edges, three times; then bias and rectifier, the mean over
  each graph, the read-out). The reference's run gives its own composed term. The two are equal because the
  symmetric normalisation dinv(src) · dinv(dst) of an edge factors into a prescale of the source row and a
  postscale of the destination's sum, the postscale being a nonnegative real that distributes over any sum of
  extended reals; because the precondition keeps every source index inside the node table, so the kernel's gather
  never fills a row; and because counting degrees and graph sizes in integers or in floats gives the same numbers.
-/
import proofs.«423678_j70729521430617_3_alg».proof.Defs
import proofs.«423678_j70729521430617_3_alg».proof.Proof.Gen.Kernel
import proofs.«423678_j70729521430617_3_alg».proof.Proof.Gen.Kernel.Frame
import proofs.«423678_j70729521430617_3_alg».proof.Proof.Gen.KernelIdeal
import proofs.«423678_j70729521430617_3_alg».proof.Proof.Gen.KernelIdeal.Frame
import proofs.«423678_j70729521430617_3_alg».proof.Proof.Gen.ReferenceIdeal
import proofs.«423678_j70729521430617_3_alg».proof.Proof.Gen.Pre_finite_inputs
import proofs.«423678_j70729521430617_3_alg».proof.Proof.KernelRun
import proofs.«423678_j70729521430617_3_alg».proof.Proof.KernelValue
import proofs.«423678_j70729521430617_3_alg».proof.Proof.RefRun
import proofs.«423678_j70729521430617_3_alg».proof.Proof.RefRead
import proofs.«423678_j70729521430617_3_alg».proof.Proof.PreDecode
import proofs.«423678_j70729521430617_3_alg».proof.Proof.Bridge
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The precondition puts every entry of the source vector, self-loops included, in [−100000, 100000). -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1700000) :
    -100000 ≤ (Cert.Gcn.K.srcVec (m ((c.tc : Thread Cert.KernelIdeal.nD Cert.KernelIdeal.τ).loc Cert.KernelIdeal.main_arg1)) (ix1 e)).toInt ∧ (Cert.Gcn.K.srcVec (m ((c.tc : Thread Cert.KernelIdeal.nD Cert.KernelIdeal.τ).loc Cert.KernelIdeal.main_arg1)) (ix1 e)).toInt < 100000 :=
  Cert.Gcn.K.srcVec_range _ (fun e' => Cert.Gcn.K.src_range_of_pre (F := Ideal) _ _ _ _ _ _ _ _ _ _ _ (hpre c) e') e

/-- From memories agreeing on the arguments both idealized programs end with the same result, the kernel's closed
    function of the arguments. -/
theorem algebraic : Cert.algebraic_KernelIdeal_ReferenceIdeal := by
  intro m ρ m' ρ' hpre hagree
  refine ⟨fun c => Cert.Gcn.K.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gcn.K.W15_v50 m ρ c), (h c).2⟩) (Cert.KernelIdeal.RunValue.run_value m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v149_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Gcn.Bridge.result_eq _ _ _ _ _ _ _ _ _ _ _ (src_in_range m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
